-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S100000x128 : Shape := ⟨2, ![100000, 128]⟩
abbrev S2x1600000 : Shape := ⟨2, ![2, 1600000]⟩
abbrev S100000 : Shape := ⟨1, ![100000]⟩
abbrev S512x1024 : Shape := ⟨2, ![512, 1024]⟩
abbrev S1024 : Shape := ⟨1, ![1024]⟩
abbrev S1024x10 : Shape := ⟨2, ![1024, 10]⟩
abbrev S10 : Shape := ⟨1, ![10]⟩
abbrev S7x128x128 : Shape := ⟨3, ![7, 128, 128]⟩
abbrev S7x128 : Shape := ⟨2, ![7, 128]⟩
abbrev S128x10 : Shape := ⟨2, ![128, 10]⟩
abbrev S20x10 : Shape := ⟨2, ![20, 10]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S128x10 : S_.BroadcastsInDim S128x10 (![] : Fin 0 → Fin S128x10.rank)
  reducesTo_S128x10_S_d0_1 : S128x10.ReducesTo [0, 1] S_
  bcast_S_S20x10 : S_.BroadcastsInDim S20x10 (![] : Fin 0 → Fin S20x10.rank)
  reducesTo_S20x10_S_d0_1 : S20x10.ReducesTo [0, 1] S_

variable [Facts]

def fn_part3 {F : FTy → Type} [FloatOps F] (main_arg13 : FVec F S20x10 .f32) (main_arg14 : FVec F S10 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S20x10 .f32 := Host.absf main_arg13
  let main_cst_20 : FVec F S_ .f32 := constant S_ .f32 0x7F800000#32
  let main_v55 : FVec F S20x10 .f32 := broadcastInDim S20x10 ![] bcast_S_S20x10 main_cst_20
  let main_v56 : IVec S20x10 1 := cmpf .olt main_v54 main_v55
  let main_c_21 : IVec S_ 1 := constantI S_ 1 1#1
  let main_v57 : IVec S_ 1 := (fun x v => Host.reduce IntOp.andi x v reducesTo_S20x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S7x128x128 .f32) (main_arg10 : FVec F S7x128 .f32) (main_arg11 : FVec F S128x10 .f32) (main_arg12 : FVec F S10 .f32) (main_arg13 : FVec F S20x10 .f32) (main_arg14 : FVec F S10 .f32) (main_v33 : IVec S_ 1) : IVec S_ 1 :=
  let main_v34 : FVec F S7x128x128 .f32 := Host.absf main_arg9
  let main_cst_12 : FVec F S_ .f32 := constant S_ .f32 0x7F800000#32
  let main_v35 : FVec F S7x128x128 .f32 := broadcastInDim S7x128x128 ![] bcast_S_S7x128x128 main_cst_12
  let main_v36 : IVec S7x128x128 1 := cmpf .olt main_v34 main_v35
  let main_c_13 : IVec S_ 1 := constantI S_ 1 1#1
  let main_v37 : IVec S_ 1 := (fun x v => Host.reduce IntOp.andi x v reducesTo_S7x128x128_S_d0_1_2 h_S_) main_v36 main_c_13
  let main_v38 : IVec S_ 1 := andi main_v33 main_v37
  let main_v39 : FVec F S7x128 .f32 := Host.absf main_arg10
  let main_cst_14 : FVec F S_ .f32 := constant S_ .f32 0x7F800000#32
  let main_v40 : FVec F S7x128 .f32 := broadcastInDim S7x128 ![] bcast_S_S7x128 main_cst_14
  let main_v41 : IVec S7x128 1 := cmpf .olt main_v39 main_v40
  let main_c_15 : IVec S_ 1 := constantI S_ 1 1#1
  let main_v42 : IVec S_ 1 := (fun x v => Host.reduce IntOp.andi x v reducesTo_S7x128_S_d0_1 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_arg13 main_arg14 main_v48 main_v49 main_v50

def fn_part1 {F : FTy → Type} [FloatOps F] (main_arg6 : FVec F S1024x10 .f32) (main_arg7 : FVec F S10 .f32) (main_arg8 : FVec F S7x128x128 .f32) (main_arg9 : FVec F S7x128x128 .f32) (main_arg10 : FVec F S7x128 .f32) (main_arg11 : FVec F S128x10 .f32) (main_arg12 : FVec F S10 .f32) (main_arg13 : FVec F S20x10 .f32) (main_arg14 : FVec F S10 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x10 .f32 := Host.absf main_arg6
  let main_cst_6 : FVec F S_ .f32 := constant S_ .f32 0x7F800000#32
  let main_v20 : FVec F S1024x10 .f32 := broadcastInDim S1024x10 ![] bcast_S_S1024x10 main_cst_6
  let main_v21 : IVec S1024x10 1 := cmpf .olt main_v19 main_v20
  let main_c_7 : IVec S_ 1 := constantI S_ 1 1#1
  let main_v22 : IVec S_ 1 := (fun x v => Host.reduce IntOp.andi x v reducesTo_S1024x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S7x128x128 .f32 := Host.absf main_arg8
  let main_cst_10 : FVec F S_ .f32 := constant S_ .f32 0x7F800000#32
  let main_v30 : FVec F S7x128x128 .f32 := broadcastInDim S7x128x128 ![] bcast_S_S7x128x128 main_cst_10
  let main_v31 : IVec S7x128x128 1 := cmpf .olt main_v29 main_v30
  let main_c_11 : IVec S_ 1 := constantI S_ 1 1#1
  let main_v32 : IVec S_ 1 := (fun x v => Host.reduce IntOp.andi x v reducesTo_S7x128x128_S_d0_1_2 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S64x512 .f32) (main_arg1 : FVec F S100000x128 .f32) (main_arg2 : IVec S2x1600000 32) (main_arg3 : IVec S100000 32) (main_arg4 : FVec F S512x1024 .f32) (main_arg5 : FVec F S1024 .f32) (main_arg6 : FVec F S1024x10 .f32) (main_arg7 : FVec F S10 .f32) (main_arg8 : FVec F S7x128x128 .f32) (main_arg9 : FVec F S7x128x128 .f32) (main_arg10 : FVec F S7x128 .f32) (main_arg11 : FVec F S128x10 .f32) (main_arg12 : FVec F S10 .f32) (main_arg13 : FVec F S20x10 .f32) (main_arg14 : FVec F S10 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S512x1024 .f32 := Host.absf main_arg4
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_arg8 main_arg9 main_arg10 main_arg11 main_arg12 main_arg13 main_arg14 main_v13 main_v16
-- ==== Kernel.lean ====
abbrev S64x512 : Shape := ⟨2, ![64, 512]⟩
abbrev S100000x128 : Shape := ⟨2, ![100000, 128]⟩
abbrev S2x1600000 : Shape := ⟨2, ![2, 1600000]⟩
abbrev S100000 : Shape := ⟨1, ![100000]⟩
abbrev S512x1024 : Shape := ⟨2, ![512, 1024]⟩
abbrev S1024 : Shape := ⟨1, ![1024]⟩
abbrev S1024x10 : Shape := ⟨2, ![1024, 10]⟩
abbrev S10 : Shape := ⟨1, ![10]⟩
abbrev S7x128x128 : Shape := ⟨3, ![7, 128, 128]⟩
abbrev S7x128 : Shape := ⟨2, ![7, 128]⟩
abbrev S128x10 : Shape := ⟨2, ![128, 10]⟩
abbrev S20x10 : Shape := ⟨2, ![20, 10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S64x128 : Shape := ⟨2, ![64, 128]⟩
abbrev S5000x64 : Shape := ⟨2, ![5000, 64]⟩
abbrev S64x1 : Shape := ⟨2, ![64, 1]⟩
abbrev S64x10 : Shape := ⟨2, ![64, 10]⟩
abbrev S1x10 : Shape := ⟨2, ![1, 10]⟩
abbrev S64x1024 : Shape := ⟨2, ![64, 1024]⟩
abbrev S1x1024 : Shape := ⟨2, ![1, 1024]⟩
abbrev S64x20 : Shape := ⟨2, ![64, 20]⟩

abbrev nBuf : Space → Nat
  | .hbm => 205
  | .vmem => 68
  | .smem => 0
  | _ => 0

abbrev hbmTy0_0 (i : Nat) : BufTy := match i % 128 with
  | 0 => ⟨S64x512, .f32⟩
  | 1 => ⟨S100000x128, .f32⟩
  | 2 => ⟨S2x1600000, .i32⟩
  | 3 => ⟨S100000, .i32⟩
  | 4 => ⟨S512x1024, .f32⟩
  | 5 => ⟨S1024, .f32⟩
  | 6 => ⟨S1024x10, .f32⟩
  | 7 => ⟨S10, .f32⟩
  | 8 => ⟨S7x128x128, .f32⟩
  | 9 => ⟨S7x128x128, .f32⟩
  | 10 => ⟨S7x128, .f32⟩
  | 11 => ⟨S128x10, .f32⟩
  | 12 => ⟨S10, .f32⟩
  | 13 => ⟨S20x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S1x128x128, .f32⟩
  | 33 => ⟨S128x128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S100000x128, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S_, .f32⟩
  | 50 => ⟨S100000x128, .f32⟩
  | 51 => ⟨S1600000x1, .i32⟩
  | 52 => ⟨S100000x128, .f32⟩
  | 53 => ⟨S1x128x128, .f32⟩
  | 54 => ⟨S128x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S1x128x128, .f32⟩
  | 75 => ⟨S128x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S1x128x128, .f32⟩
  | 96 => ⟨S128x128, .f32⟩
  | 97 => ⟨S1x128x128, .f32⟩
  | 98 => ⟨S128x128, .f32⟩
  | 99 => ⟨S1x128, .f32⟩
  | 100 => ⟨S128, .f32⟩
  | 101 => ⟨S1x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S1x128x128, .f32⟩
  | 117 => ⟨S128x128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S64x512, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S1x128x128, .f32⟩
  | 10 => ⟨S128x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S1x128x128, .f32⟩
  | 31 => ⟨S128x128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S100000x128, .f32⟩
  | 38 => ⟨S100000x1, .i32⟩
  | 39 => ⟨S64, .i32⟩
  | 40 => ⟨S1x64, .i32⟩
  | 41 => ⟨S100000x64, .i32⟩
  | 42 => ⟨S100000x64, .i32⟩
  | 43 => ⟨S100000x64, .i1⟩
  | 44 => ⟨S100000x64, .f32⟩
  | 45 => ⟨S64x128, .f32⟩
  | 46 => ⟨S_, .f32⟩
  | 47 => ⟨S64, .f32⟩
  | 48 => ⟨S_, .f32⟩
  | 49 => ⟨S64, .f32⟩
  | 50 => ⟨S64, .f32⟩
  | 51 => ⟨S64x1, .f32⟩
  | 52 => ⟨S64x128, .f32⟩
  | 53 => ⟨S64x128, .f32⟩
  | 54 => ⟨S64x10, .f32⟩
  | 55 => ⟨S1x10, .f32⟩
  | 56 => ⟨S64x10, .f32⟩
  | 57 => ⟨S64x10, .f32⟩
  | 58 => ⟨S64x1024, .f32⟩
  | 59 => ⟨S1x1024, .f32⟩
  | 60 => ⟨S64x1024, .f32⟩
  | 61 => ⟨S64x1024, .f32⟩
  | 62 => ⟨S_, .f32⟩
  | 63 => ⟨S64x1024, .f32⟩
  | 64 => ⟨S64x1024, .f32⟩
  | 65 => ⟨S64x10, .f32⟩
  | 66 => ⟨S1x10, .f32⟩
  | 67 => ⟨S64x10, .f32⟩
  | 68 => ⟨S64x10, .f32⟩
  | 69 => ⟨S_, .f32⟩
  | 70 => ⟨S64x10, .f32⟩
  | 71 => ⟨S64x10, .f32⟩
  | 72 => ⟨S64x20, .f32⟩
  | 73 => ⟨S64x10, .f32⟩
  | 74 => ⟨S1x10, .f32⟩
  | 75 => ⟨S64x10, .f32⟩
  | 76 => ⟨S64x10, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x64, .f32⟩
  | .local _ .vmem, ⟨64, _⟩ => ⟨S5000x64, .f32⟩
  | .local _ .vmem, ⟨65, _⟩ => ⟨S5000x128, .f32⟩
  | .local _ .vmem, ⟨66, _⟩ => ⟨S5000x128, .f32⟩
  | .local _ .vmem, ⟨67, _⟩ => ⟨S64x128, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_7 : Ref sig .tc := ⟨.hbm, 82, rfl⟩
abbrev main_v58 : Ref sig .tc := ⟨.hbm, 83, rfl⟩
abbrev main_v59 : Ref sig .tc := ⟨.hbm, 84, rfl⟩
abbrev main_c_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_10 : Ref sig .tc := ⟨.hbm, 103, rfl⟩
abbrev main_v76 : Ref sig .tc := ⟨.hbm, 104, rfl⟩
abbrev main_v77 : Ref sig .tc := ⟨.hbm, 105, rfl⟩
abbrev main_c_11 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_13 : Ref sig .tc := ⟨.hbm, 124, rfl⟩
abbrev main_v94 : Ref sig .tc := ⟨.hbm, 125, rfl⟩
abbrev main_v95 : Ref sig .tc := ⟨.hbm, 126, rfl⟩
abbrev main_c_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_16 : Ref sig .tc := ⟨.hbm, 145, rfl⟩
abbrev main_v112 : Ref sig .tc := ⟨.hbm, 146, rfl⟩
abbrev main_v113 : Ref sig .tc := ⟨.hbm, 147, rfl⟩
abbrev main_c_17 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_18 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_19 : Ref sig .tc := ⟨.hbm, 174, rfl⟩
abbrev main_v138 : Ref sig .tc := ⟨.hbm, 175, rfl⟩
abbrev main_cst_20 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call0_cst : Ref sig .tc := ⟨.hbm, 190, rfl⟩
abbrev main_call0_v0 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_21 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  reducesTo_S100000x64_S64_d0 : S100000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S_S64x10 : S_.BroadcastsInDim S64x10 (![] : Fin 0 → Fin S64x10.rank)
  concatenates_S64x10_S64x10_S64x20_d1 : Shape.Concatenates [S64x10, S64x10] S64x20 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x10_S64x10_1_0_0_1_n_n_wf : DotDims.WF S64x128 S128x10 S64x10 [1] [0] [0] [1] [] []
  dot_S64x512_S512x1024_S64x1024_1_0_0_1_n_n_wf : DotDims.WF S64x512 S512x1024 S64x1024 [1] [0] [0] [1] [] []
  dot_S64x1024_S1024x10_S64x10_1_0_0_1_n_n_wf : DotDims.WF S64x1024 S1024x10 S64x10 [1] [0] [0] [1] [] []
  dot_S64x20_S20x10_S64x10_1_0_0_1_n_n_wf : DotDims.WF S64x20 S20x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x128.size a ≤ S64x128.size a
  hwx7_2 : ∀ i : grid7.Coords, EltTy.bits .f32 = 32 ∨ (Rect.block (s := S64x128) S64x128.size (cc7_transform_2 i) (hinb7_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x10_S64x10_1_0_0_1_n_n : DotDims S64x1024 S1024x10 S64x10 where
  lhsContracting := [1]
  rhsContracting := [0]
  lhsNonContracting := [0]
  rhsNonContracting := [1]
  lhsBatch := []
  rhsBatch := []
  wf := dot_S64x1024_S1024x10_S64x10_1_0_0_1_n_n_wf
def dot_S64x20_S20x10_S64x10_1_0_0_1_n_n : DotDims S64x20 S20x10 S64x10 where
  lhsContracting := [1]
  rhsContracting := [0]
  lhsNonContracting := [0]
  rhsNonContracting := [1]
  lhsBatch := []
  rhsBatch := []
  wf := dot_S64x20_S20x10_S64x10_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v103) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v121) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v123) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v125) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v128) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v129) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v136) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v137) S64x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S64x512 : Shape := ⟨2, ![64, 512]⟩
abbrev S100000x128 : Shape := ⟨2, ![100000, 128]⟩
abbrev S2x1600000 : Shape := ⟨2, ![2, 1600000]⟩
abbrev S100000 : Shape := ⟨1, ![100000]⟩
abbrev S512x1024 : Shape := ⟨2, ![512, 1024]⟩
abbrev S1024 : Shape := ⟨1, ![1024]⟩
abbrev S1024x10 : Shape := ⟨2, ![1024, 10]⟩
abbrev S10 : Shape := ⟨1, ![10]⟩
abbrev S7x128x128 : Shape := ⟨3, ![7, 128, 128]⟩
abbrev S7x128 : Shape := ⟨2, ![7, 128]⟩
abbrev S128x10 : Shape := ⟨2, ![128, 10]⟩
abbrev S20x10 : Shape := ⟨2, ![20, 10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩
abbrev S64x1024 : Shape := ⟨2, ![64, 1024]⟩
abbrev S1x1024 : Shape := ⟨2, ![1, 1024]⟩
abbrev S64x20 : Shape := ⟨2, ![64, 20]⟩

abbrev nBuf : Space → Nat
  | .hbm => 254
  | .vmem => 0
  | .smem => 0
  | _ => 0

abbrev hbmTy0_0 (i : Nat) : BufTy := match i % 128 with
  | 0 => ⟨S64x512, .f32⟩
  | 1 => ⟨S100000x128, .f32⟩
  | 2 => ⟨S2x1600000, .i32⟩
  | 3 => ⟨S100000, .i32⟩
  | 4 => ⟨S512x1024, .f32⟩
  | 5 => ⟨S1024, .f32⟩
  | 6 => ⟨S1024x10, .f32⟩
  | 7 => ⟨S10, .f32⟩
  | 8 => ⟨S7x128x128, .f32⟩
  | 9 => ⟨S7x128x128, .f32⟩
  | 10 => ⟨S7x128, .f32⟩
  | 11 => ⟨S128x10, .f32⟩
  | 12 => ⟨S10, .f32⟩
  | 13 => ⟨S20x10, .f32⟩
  | 14 => ⟨S10, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S1x128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S1x128x128, .f32⟩
  | 61 => ⟨S128x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1x128x128, .f32⟩
  | 69 => ⟨S128x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S1x128x128, .f32⟩
  | 89 => ⟨S128x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S1x128x128, .f32⟩
  | 117 => ⟨S128x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S1x128x128, .f32⟩
  | 125 => ⟨S128x128, .f32⟩
  | 126 => ⟨S100000x128, .f32⟩
  | 127 => ⟨S100000x128, .f32⟩
  | _ => ⟨S64x512, .f32⟩

abbrev hbmTy0_1 (i : Nat) : BufTy := match i % 128 with
  | 0 => ⟨S_, .f32⟩
  | 1 => ⟨S100000x128, .f32⟩
  | 2 => ⟨S100000x128, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S_, .f32⟩
  | 13 => ⟨S100000x128, .f32⟩
  | 14 => ⟨S1600000x1, .i32⟩
  | 15 => ⟨S100000x128, .f32⟩
  | 16 => ⟨S1x128x128, .f32⟩
  | 17 => ⟨S128x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S1x128x128, .f32⟩
  | 45 => ⟨S128x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128x128, .f32⟩
  | 53 => ⟨S128x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128x128, .f32⟩
  | 73 => ⟨S128x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S1x128x128, .f32⟩
  | 81 => ⟨S128x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .f32⟩
  | 88 => ⟨S64x128, .f32⟩
  | 89 => ⟨S100000x1, .i32⟩
  | 90 => ⟨S64x128, .f32⟩
  | 91 => ⟨S_, .f32⟩
  | 92 => ⟨S100000, .f32⟩
  | 93 => ⟨S_, .f32⟩
  | 94 => ⟨S64, .f32⟩
  | 95 => ⟨S100000x1, .i32⟩
  | 96 => ⟨S64, .f32⟩
  | 97 => ⟨S_, .f32⟩
  | 98 => ⟨S64, .f32⟩
  | 99 => ⟨S64, .f32⟩
  | 100 => ⟨S64x1, .f32⟩
  | 101 => ⟨S64x128, .f32⟩
  | 102 => ⟨S64x128, .f32⟩
  | 103 => ⟨S64x10, .f32⟩
  | 104 => ⟨S1x10, .f32⟩
  | 105 => ⟨S64x10, .f32⟩
  | 106 => ⟨S64x10, .f32⟩
  | 107 => ⟨S64x1024, .f32⟩
  | 108 => ⟨S1x1024, .f32⟩
  | 109 => ⟨S64x1024, .f32⟩
  | 110 => ⟨S64x1024, .f32⟩
  | 111 => ⟨S_, .f32⟩
  | 112 => ⟨S64x1024, .f32⟩
  | 113 => ⟨S64x1024, .f32⟩
  | 114 => ⟨S64x10, .f32⟩
  | 115 => ⟨S1x10, .f32⟩
  | 116 => ⟨S64x10, .f32⟩
  | 117 => ⟨S64x10, .f32⟩
  | 118 => ⟨S_, .f32⟩
  | 119 => ⟨S64x10, .f32⟩
  | 120 => ⟨S64x10, .f32⟩
  | 121 => ⟨S64x20, .f32⟩
  | 122 => ⟨S64x10, .f32⟩
  | 123 => ⟨S1x10, .f32⟩
  | 124 => ⟨S64x10, .f32⟩
  | 125 => ⟨S64x10, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call0_cst : Ref sig .tc := ⟨.hbm, 44, rfl⟩
abbrev main_call0_v0 : Ref sig .tc := ⟨.hbm, 45, rfl⟩
abbrev main_v26 : Ref sig .tc := ⟨.hbm, 46, rfl⟩
abbrev main_c_1 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_c_4 : Ref sig .tc := ⟨.hbm, 75, rfl⟩
abbrev main_v50 : Ref sig .tc := ⟨.hbm, 76, rfl⟩
abbrev main_v51 : Ref sig .tc := ⟨.hbm, 77, rfl⟩
abbrev main_c_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_v72 : Ref sig .tc := ⟨.hbm, 102, rfl⟩
abbrev main_c_7 : Ref sig .tc := ⟨.hbm, 103, rfl⟩
abbrev main_v73 : Ref sig .tc := ⟨.hbm, 104, rfl⟩
abbrev main_v74 : Ref sig .tc := ⟨.hbm, 105, rfl⟩
abbrev main_c_8 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_9 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call3_cst : Ref sig .tc := ⟨.hbm, 128, rfl⟩
abbrev main_call3_v0 : Ref sig .tc := ⟨.hbm, 129, rfl⟩
abbrev main_v95 : Ref sig .tc := ⟨.hbm, 130, rfl⟩
abbrev main_c_10 : Ref sig .tc := ⟨.hbm, 131, rfl⟩
abbrev main_v96 : Ref sig .tc := ⟨.hbm, 132, rfl⟩
abbrev main_v97 : Ref sig .tc := ⟨.hbm, 133, rfl⟩
abbrev main_c_11 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_12 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_call4_cst : Ref sig .tc := ⟨.hbm, 156, rfl⟩
abbrev main_call4_v0 : Ref sig .tc := ⟨.hbm, 157, rfl⟩
abbrev main_v118 : Ref sig .tc := ⟨.hbm, 158, rfl⟩
abbrev main_c_13 : Ref sig .tc := ⟨.hbm, 159, rfl⟩
abbrev main_v119 : Ref sig .tc := ⟨.hbm, 160, rfl⟩
abbrev main_v120 : Ref sig .tc := ⟨.hbm, 161, rfl⟩
abbrev main_c_14 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_15 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_call5_cst : Ref sig .tc := ⟨.hbm, 184, rfl⟩
abbrev main_call5_v0 : Ref sig .tc := ⟨.hbm, 185, rfl⟩
abbrev main_v141 : Ref sig .tc := ⟨.hbm, 186, rfl⟩
abbrev main_c_16 : Ref sig .tc := ⟨.hbm, 187, rfl⟩
abbrev main_v142 : Ref sig .tc := ⟨.hbm, 188, rfl⟩
abbrev main_v143 : Ref sig .tc := ⟨.hbm, 189, rfl⟩
abbrev main_c_17 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_18 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_call6_cst : Ref sig .tc := ⟨.hbm, 212, rfl⟩
abbrev main_call6_v0 : Ref sig .tc := ⟨.hbm, 213, rfl⟩
abbrev main_v164 : Ref sig .tc := ⟨.hbm, 214, rfl⟩
abbrev main_cst_19 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_20 : Ref sig .tc := ⟨.hbm, 219, rfl⟩
abbrev main_v168 : Ref sig .tc := ⟨.hbm, 220, rfl⟩
abbrev main_cst_21 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_22 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_call7_cst : Ref sig .tc := ⟨.hbm, 239, rfl⟩
abbrev main_call7_v0 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_23 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S_S64x10 : S_.BroadcastsInDim S64x10 (![] : Fin 0 → Fin S64x10.rank)
  concatenates_S64x10_S64x10_S64x20_d1 : Shape.Concatenates [S64x10, S64x10] S64x20 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []
  dot_S64x512_S512x1024_S64x1024_1_0_0_1_n_n_wf : DotDims.WF S64x512 S512x1024 S64x1024 [1] [0] [0] [1] [] []
  dot_S64x1024_S1024x10_S64x10_1_0_0_1_n_n_wf : DotDims.WF S64x1024 S1024x10 S64x10 [1] [0] [0] [1] [] []
  dot_S64x20_S20x10_S64x10_1_0_0_1_n_n_wf : DotDims.WF S64x20 S20x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x10_S64x10_1_0_0_1_n_n : DotDims S64x1024 S1024x10 S64x10 where
  lhsContracting := [1]
  rhsContracting := [0]
  lhsNonContracting := [0]
  rhsNonContracting := [1]
  lhsBatch := []
  rhsBatch := []
  wf := dot_S64x1024_S1024x10_S64x10_1_0_0_1_n_n_wf
def dot_S64x20_S20x10_S64x10_1_0_0_1_n_n : DotDims S64x20 S20x10 S64x10 where
  lhsContracting := [1]
  rhsContracting := [0]
  lhsNonContracting := [0]
  rhsNonContracting := [1]
  lhsBatch := []
  rhsBatch := []
  wf := dot_S64x20_S20x10_S64x10_1_0_0_1_n_n_wf

class Facts : Prop extends Facts₀ where

variable [Facts]
-- ==== Proof.HostTerms.lean ====
/-
  The host-side pieces the two programs share, each named once as a function of its operands: the edge list's two
  rows, the neighbour aggregation (a gather along the source row, negative indices wrapped, then an accumulating
  scatter along the destination row into zeros), a layer's weights and bias cut out of their stacks, one layer's
  dense step as the reference spells it, the per-graph sums and counts as accumulating scatters, and everything
  after the pooling (the division by the clamped counts, the two small dense networks, the concatenation and the
  final affine map). Nothing here is opened by the proofs that only need both programs to apply the same function.
-/
import proofs.«424942_j10471130267878_1_alg».proof.ReferenceIdeal

noncomputable section

namespace Cert.ReferenceIdeal.HostTerms

open Idealize.ShloMosaic Cert.ReferenceIdeal

variable {F : FTy → Type} [FloatOps F] [Facts₀]

open Facts₀

/-- The source row of the edge list. -/
def srcIdx (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
/-- The destination row of the edge list. -/
def dstIdx (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The neighbour aggregation: row `dst e` of the result accumulates row `src e` of `h`, over all edges `e`. -/
def agg (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Layer 0's 128 × 128 matrix out of a stack of seven. -/
def wslice0 (w : (⟨S7x128x128, .f32⟩ : BufTy).Contents (Elt F)) : (⟨S128x128, .f32⟩ : BufTy).Contents (Elt F) :=
  shapeCast S128x128 (extractStridedSlice S1x128x128 ![0, 0, 0] w slices_S7x128x128_S1x128x128_0_0_0) shapeCasts_S1x128x128_S128x128
/-- Layer 0's bias vector out of a stack of seven. -/
def bslice0 (b : (⟨S7x128, .f32⟩ : BufTy).Contents (Elt F)) : (⟨S128, .f32⟩ : BufTy).Contents (Elt F) :=
  shapeCast S128 (extractStridedSlice S1x128 ![0, 0] b slices_S7x128_S1x128_0_0) shapeCasts_S1x128_S128
/-- Layer 1's 128 × 128 matrix out of a stack of seven. -/
def wslice1 (w : (⟨S7x128x128, .f32⟩ : BufTy).Contents (Elt F)) : (⟨S128x128, .f32⟩ : BufTy).Contents (Elt F) :=
  shapeCast S128x128 (extractStridedSlice S1x128x128 ![1, 0, 0] w slices_S7x128x128_S1x128x128_1_0_0) shapeCasts_S1x128x128_S128x128
/-- Layer 1's bias vector out of a stack of seven. -/
def bslice1 (b : (⟨S7x128, .f32⟩ : BufTy).Contents (Elt F)) : (⟨S128, .f32⟩ : BufTy).Contents (Elt F) :=
  shapeCast S128 (extractStridedSlice S1x128 ![1, 0] b slices_S7x128_S1x128_1_0) shapeCasts_S1x128_S128
/-- Layer 2's 128 × 128 matrix out of a stack of seven. -/
def wslice2 (w : (⟨S7x128x128, .f32⟩ : BufTy).Contents (Elt F)) : (⟨S128x128, .f32⟩ : BufTy).Contents (Elt F) :=
  shapeCast S128x128 (extractStridedSlice S1x128x128 ![2, 0, 0] w slices_S7x128x128_S1x128x128_2_0_0) shapeCasts_S1x128x128_S128x128
/-- Layer 2's bias vector out of a stack of seven. -/
def bslice2 (b : (⟨S7x128, .f32⟩ : BufTy).Contents (Elt F)) : (⟨S128, .f32⟩ : BufTy).Contents (Elt F) :=
  shapeCast S128 (extractStridedSlice S1x128 ![2, 0] b slices_S7x128_S1x128_2_0) shapeCasts_S1x128_S128
/-- Layer 3's 128 × 128 matrix out of a stack of seven. -/
def wslice3 (w : (⟨S7x128x128, .f32⟩ : BufTy).Contents (Elt F)) : (⟨S128x128, .f32⟩ : BufTy).Contents (Elt F) :=
  shapeCast S128x128 (extractStridedSlice S1x128x128 ![3, 0, 0] w slices_S7x128x128_S1x128x128_3_0_0) shapeCasts_S1x128x128_S128x128
/-- Layer 3's bias vector out of a stack of seven. -/
def bslice3 (b : (⟨S7x128, .f32⟩ : BufTy).Contents (Elt F)) : (⟨S128, .f32⟩ : BufTy).Contents (Elt F) :=
  shapeCast S128 (extractStridedSlice S1x128 ![3, 0] b slices_S7x128_S1x128_3_0) shapeCasts_S1x128_S128
/-- Layer 4's 128 × 128 matrix out of a stack of seven. -/
def wslice4 (w : (⟨S7x128x128, .f32⟩ : BufTy).Contents (Elt F)) : (⟨S128x128, .f32⟩ : BufTy).Contents (Elt F) :=
  shapeCast S128x128 (extractStridedSlice S1x128x128 ![4, 0, 0] w slices_S7x128x128_S1x128x128_4_0_0) shapeCasts_S1x128x128_S128x128
/-- Layer 4's bias vector out of a stack of seven. -/
def bslice4 (b : (⟨S7x128, .f32⟩ : BufTy).Contents (Elt F)) : (⟨S128, .f32⟩ : BufTy).Contents (Elt F) :=
  shapeCast S128 (extractStridedSlice S1x128 ![4, 0] b slices_S7x128_S1x128_4_0) shapeCasts_S1x128_S128
/-- Layer 5's 128 × 128 matrix out of a stack of seven. -/
def wslice5 (w : (⟨S7x128x128, .f32⟩ : BufTy).Contents (Elt F)) : (⟨S128x128, .f32⟩ : BufTy).Contents (Elt F) :=
  shapeCast S128x128 (extractStridedSlice S1x128x128 ![5, 0, 0] w slices_S7x128x128_S1x128x128_5_0_0) shapeCasts_S1x128x128_S128x128
/-- Layer 5's bias vector out of a stack of seven. -/
def bslice5 (b : (⟨S7x128, .f32⟩ : BufTy).Contents (Elt F)) : (⟨S128, .f32⟩ : BufTy).Contents (Elt F) :=
  shapeCast S128 (extractStridedSlice S1x128 ![5, 0] b slices_S7x128_S1x128_5_0) shapeCasts_S1x128_S128
/-- Layer 6's 128 × 128 matrix out of a stack of seven. -/
def wslice6 (w : (⟨S7x128x128, .f32⟩ : BufTy).Contents (Elt F)) : (⟨S128x128, .f32⟩ : BufTy).Contents (Elt F) :=
  shapeCast S128x128 (extractStridedSlice S1x128x128 ![6, 0, 0] w slices_S7x128x128_S1x128x128_6_0_0) shapeCasts_S1x128x128_S128x128
/-- Layer 6's bias vector out of a stack of seven. -/
def bslice6 (b : (⟨S7x128, .f32⟩ : BufTy).Contents (Elt F)) : (⟨S128, .f32⟩ : BufTy).Contents (Elt F) :=
  shapeCast S128 (extractStridedSlice S1x128 ![6, 0] b slices_S7x128_S1x128_6_0) shapeCasts_S1x128_S128

/-- One layer's dense step as the reference spells it: the aggregated features times one matrix, plus the bias
    along rows, plus the features times the other matrix, then the rectifier. -/
def layer (a h : (⟨S100000x128, .f32⟩ : BufTy).Contents (Elt F)) (wr wo : (⟨S128x128, .f32⟩ : BufTy).Contents (Elt F)) (bv : (⟨S128, .f32⟩ : BufTy).Contents (Elt F)) : (⟨S100000x128, .f32⟩ : BufTy).Contents (Elt F) :=
  maximumf
    (addf
      (addf (Host.dotGeneral dot_S100000x128_S128x128_S100000x128_1_0_0_1_n_n none a wr)
        (broadcastInDim S100000x128 ![0, 1] bcast_S1x128_S100000x128_0_1 (broadcastInDim S1x128 ![1] bcast_S128_S1x128_1 bv)))
      (Host.dotGeneral dot_S100000x128_S128x128_S100000x128_1_0_0_1_n_n none h wo))
    (broadcastInDim S100000x128 ![] bcast_S_S100000x128 (constant S_ .f32 0x00000000#32))

/-- The per-graph sums of the node features as an accumulating scatter along the graph ids. -/
def sums (h : (⟨S100000x128, .f32⟩ : BufTy).Contents (Elt F)) (batch : (⟨S100000, .i32⟩ : BufTy).Contents (Elt F)) : (⟨S64x128, .f32⟩ : BufTy).Contents (Elt F) :=
  Host.scatterAdd scatter_S64x128_S100000x1_S100000x128_1_0_0_1
    (broadcastInDim S64x128 ![] bcast_S_S64x128 (constant S_ .f32 0x00000000#32))
    (broadcastInDim S100000x1 ![0] bcast_S100000_S100000x1_0 batch) h

/-- The per-graph node counts as an accumulating scatter of ones along the graph ids. -/
def counts (batch : (⟨S100000, .i32⟩ : BufTy).Contents (Elt F)) : (⟨S64, .f32⟩ : BufTy).Contents (Elt F) :=
  Host.scatterAdd scatter_S64_S100000x1_S100000_n_0_0_1
    (broadcastInDim S64 ![] bcast_S_S64 (constant S_ .f32 0x00000000#32))
    (broadcastInDim S100000x1 ![0] bcast_S100000_S100000x1_0 batch)
    (broadcastInDim S100000 ![] bcast_S_S100000 (constant S_ .f32 0x3F800000#32))

/-- Everything after the pooling, as one function of the pooled sums, the counts and the remaining arguments. -/
def tail (sm : (⟨S64x128, .f32⟩ : BufTy).Contents (Elt F)) (cn : (⟨S64, .f32⟩ : BufTy).Contents (Elt F))
    (x0 : (⟨S64x512, .f32⟩ : BufTy).Contents (Elt F)) (x4 : (⟨S512x1024, .f32⟩ : BufTy).Contents (Elt F)) (x5 : (⟨S1024, .f32⟩ : BufTy).Contents (Elt F))
    (x6 : (⟨S1024x10, .f32⟩ : BufTy).Contents (Elt F)) (x7 : (⟨S10, .f32⟩ : BufTy).Contents (Elt F)) (x11 : (⟨S128x10, .f32⟩ : BufTy).Contents (Elt F)) (x12 : (⟨S10, .f32⟩ : BufTy).Contents (Elt F))
    (x13 : (⟨S20x10, .f32⟩ : BufTy).Contents (Elt F)) (x14 : (⟨S10, .f32⟩ : BufTy).Contents (Elt F)) : (⟨S64x10, .f32⟩ : BufTy).Contents (Elt F) :=
  addf
    (Host.dotGeneral dot_S64x20_S20x10_S64x10_1_0_0_1_n_n none
      (concatenate S64x20 1
        [⟨S64x10, mulf (broadcastInDim S64x10 ![] bcast_S_S64x10 (constant S_ .f32 0x3F59999A#32))
            (addf
              (Host.dotGeneral dot_S64x1024_S1024x10_S64x10_1_0_0_1_n_n none
                (maximumf
                  (addf (Host.dotGeneral dot_S64x512_S512x1024_S64x1024_1_0_0_1_n_n none x0 x4)
                    (broadcastInDim S64x1024 ![0, 1] bcast_S1x1024_S64x1024_0_1 (broadcastInDim S1x1024 ![1] bcast_S1024_S1x1024_1 x5)))
                  (broadcastInDim S64x1024 ![] bcast_S_S64x1024 (constant S_ .f32 0x00000000#32)))
                x6)
              (broadcastInDim S64x10 ![0, 1] bcast_S1x10_S64x10_0_1 (broadcastInDim S1x10 ![1] bcast_S10_S1x10_1 x7)))⟩,
         ⟨S64x10, addf
            (Host.dotGeneral dot_S64x128_S128x10_S64x10_1_0_0_1_n_n none
              (Host.divf sm
                (broadcastInDim S64x128 ![0, 1] bcast_S64x1_S64x128_0_1
                  (broadcastInDim S64x1 ![0] bcast_S64_S64x1_0
                    (maximumf cn (broadcastInDim S64 ![] bcast_S_S64 (constant S_ .f32 0x3F800000#32))))))
              x11)
            (broadcastInDim S64x10 ![0, 1] bcast_S1x10_S64x10_0_1 (broadcastInDim S1x10 ![1] bcast_S10_S1x10_1 x12))⟩]
        concatenates_S64x10_S64x10_S64x20_d1)
      x13)
    (broadcastInDim S64x10 ![0, 1] bcast_S1x10_S64x10_0_1 (broadcastInDim S1x10 ![1] bcast_S10_S1x10_1 x14))

end Cert.ReferenceIdeal.HostTerms

end
-- ==== Proof.HostNet.lean ====
/-
  The whole network as one function of the arguments, composed from the shared pieces: seven layers of
  aggregation and dense step, the per-graph sums and counts, and everything after the pooling. Both programs are
  shown to end with this function of their arguments in the result buffer.
-/
import proofs.«424942_j10471130267878_1_alg».proof.Proof.HostTerms

noncomputable section

namespace Cert.ReferenceIdeal.HostTerms

open Idealize.ShloMosaic Cert.ReferenceIdeal

variable {F : FTy → Type} [FloatOps F] [Facts₀]

open Facts₀

/-- The node features after layer 0, from the features before it. -/
def layerOut0 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice0 a8) (wslice0 a9) (bslice0 a10)
/-- The node features after layer 1, from the features before it. -/
def layerOut1 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice1 a8) (wslice1 a9) (bslice1 a10)
/-- The node features after layer 2, from the features before it. -/
def layerOut2 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice2 a8) (wslice2 a9) (bslice2 a10)
/-- The node features after layer 3, from the features before it. -/
def layerOut3 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice3 a8) (wslice3 a9) (bslice3 a10)
/-- The node features after layer 4, from the features before it. -/
def layerOut4 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice4 a8) (wslice4 a9) (bslice4 a10)
/-- The node features after layer 5, from the features before it. -/
def layerOut5 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice5 a8) (wslice5 a9) (bslice5 a10)
/-- The node features after layer 6, from the features before it. -/
def layerOut6 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layer (agg x (srcIdx e) (dstIdx e)) x (wslice6 a8) (wslice6 a9) (bslice6 a10)

/-- The node features after 1 layer. -/
def feat1 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut0 (x) e a8 a9 a10
/-- The node features after 2 layers. -/
def feat2 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut1 (feat1 x e a8 a9 a10) e a8 a9 a10
/-- The node features after 3 layers. -/
def feat3 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut2 (feat2 x e a8 a9 a10) e a8 a9 a10
/-- The node features after 4 layers. -/
def feat4 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut3 (feat3 x e a8 a9 a10) e a8 a9 a10
/-- The node features after 5 layers. -/
def feat5 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut4 (feat4 x e a8 a9 a10) e a8 a9 a10
/-- The node features after 6 layers. -/
def feat6 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut5 (feat5 x e a8 a9 a10) e a8 a9 a10
/-- The node features after 7 layers. -/
def feat7 (x : (⟨S100000x128, .f32⟩ : BufTy).Contents (Elt F)) (e : (⟨S2x1600000, .i32⟩ : BufTy).Contents (Elt F)) (a8 a9 : (⟨S7x128x128, .f32⟩ : BufTy).Contents (Elt F)) (a10 : (⟨S7x128, .f32⟩ : BufTy).Contents (Elt F)) : (⟨S100000x128, .f32⟩ : BufTy).Contents (Elt F) :=
  layerOut6 (feat6 x e a8 a9 a10) e a8 a9 a10

/-- The network's output from its fifteen arguments. -/
def network (x0 : (⟨S64x512, .f32⟩ : BufTy).Contents (Elt F)) (x1 : (⟨S100000x128, .f32⟩ : BufTy).Contents (Elt F)) (x2 : (⟨S2x1600000, .i32⟩ : BufTy).Contents (Elt F)) (x3 : (⟨S100000, .i32⟩ : BufTy).Contents (Elt F))
    (x4 : (⟨S512x1024, .f32⟩ : BufTy).Contents (Elt F)) (x5 : (⟨S1024, .f32⟩ : BufTy).Contents (Elt F)) (x6 : (⟨S1024x10, .f32⟩ : BufTy).Contents (Elt F)) (x7 : (⟨S10, .f32⟩ : BufTy).Contents (Elt F))
    (x8 x9 : (⟨S7x128x128, .f32⟩ : BufTy).Contents (Elt F)) (x10 : (⟨S7x128, .f32⟩ : BufTy).Contents (Elt F)) (x11 : (⟨S128x10, .f32⟩ : BufTy).Contents (Elt F)) (x12 : (⟨S10, .f32⟩ : BufTy).Contents (Elt F))
    (x13 : (⟨S20x10, .f32⟩ : BufTy).Contents (Elt F)) (x14 : (⟨S10, .f32⟩ : BufTy).Contents (Elt F)) : (⟨S64x10, .f32⟩ : BufTy).Contents (Elt F) :=
  tail (sums (feat7 x1 x2 x8 x9 x10) x3) (counts x3) x0 x4 x5 x6 x7 x11 x12 x13 x14

end Cert.ReferenceIdeal.HostTerms

end
-- ==== Proof.KHostTerms.lean ====
/-
  The two host-side pieces only the kernel program has: the membership matrix of nodes in graphs (entry `(n, g)` is
  one when node `n`'s graph id is `g`, else zero), built by comparing the graph ids with a row of indices, and its
  column sums.
-/
import proofs.«424942_j10471130267878_1_alg».proof.KernelIdeal

noncomputable section

namespace Cert.KernelIdeal.HostTerms

open Idealize.ShloMosaic Cert.KernelIdeal

variable {F : FTy → Type} [FloatOps F] [Facts₀]

open Facts₀

/-- The 100000 × 64 membership matrix of the graph ids. -/
def member (batch : (⟨S100000, .i32⟩ : BufTy).Contents (Elt F)) : (⟨S100000x64, .f32⟩ : BufTy).Contents (Elt F) :=
  uitofp .f32
    (cmpi .eq
      (broadcastInDim S100000x64 ![0, 1] bcast_S100000x1_S100000x64_0_1 (broadcastInDim S100000x1 ![0] bcast_S100000_S100000x1_0 batch))
      (broadcastInDim S100000x64 ![0, 1] bcast_S1x64_S100000x64_0_1 (broadcastInDim S1x64 ![1] bcast_S64_S1x64_1 (iotaInDim S64 32 0))))

/-- The column sums of a membership matrix. -/
def colSums (mb : (⟨S100000x64, .f32⟩ : BufTy).Contents (Elt F)) : (⟨S64, .f32⟩ : BufTy).Contents (Elt F) :=
  Host.reduceAdd mb (constant S_ .f32 0x00000000#32) reducesTo_S100000x64_S64_d0 h_S_

end Cert.KernelIdeal.HostTerms

end
-- ==== Proof.KKeep.lean ====
/-
  Buffers that keep their contents along the idealized kernel program's fold of host stretches and regions: the two
  rows of the edge list once cut out, and the arguments, are written by no later host operation and are no region's
  array, so at every later boundary they still hold what they held.
-/
import proofs.«424942_j10471130267878_1_alg».proof.Proof.Gen.KernelIdeal.Frame
import Idealize.ShloMosaic.Lib.StableHlo.Run

set_option maxRecDepth 16384

noncomputable section

open Idealize.ShloMosaic Idealize.ShloMosaic.TcCoe Idealize.ShloMosaic.Tactic Idealize.SL.Sem Idealize.ShloMosaic.StableHlo

namespace Cert.KernelIdeal.Gen

variable {F : FTy → Type} [FloatOps F]
variable (m : (ℓ : Loc nD τ sig) → Buf (Elt F) ℓ) (ρ : Dev nD → PrngReg)

/-- A buffer that no operation of a host stretch writes keeps its contents across the stretch. -/
local macro "host_keeps " ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

theorem keep_W2_main_v1 (c : Dev nD) : W2 m ρ c (Proc.devRef .tc main_v1) = W1 m ρ c (Proc.devRef .tc main_v1) :=
  W2_of_ne m ρ c main_v1 (by decide)
theorem keep_W4_main_v1 (c : Dev nD) : W4 m ρ c (Proc.devRef .tc main_v1) = W1 m ρ c (Proc.devRef .tc main_v1) :=
  (W4_of_ne m ρ c main_v1 (by decide)).trans ((host_keeps hostOps1).trans (keep_W2_main_v1 m ρ c))
theorem keep_W6_main_v1 (c : Dev nD) : W6 m ρ c (Proc.devRef .tc main_v1) = W1 m ρ c (Proc.devRef .tc main_v1) :=
  (W6_of_ne m ρ c main_v1 (by decide)).trans ((host_keeps hostOps2).trans (keep_W4_main_v1 m ρ c))
theorem keep_W8_main_v1 (c : Dev nD) : W8 m ρ c (Proc.devRef .tc main_v1) = W1 m ρ c (Proc.devRef .tc main_v1) :=
  (W8_of_ne m ρ c main_v1 (by decide)).trans ((host_keeps hostOps3).trans (keep_W6_main_v1 m ρ c))
theorem keep_W10_main_v1 (c : Dev nD) : W10 m ρ c (Proc.devRef .tc main_v1) = W1 m ρ c (Proc.devRef .tc main_v1) :=
  (W10_of_ne m ρ c main_v1 (by decide)).trans ((host_keeps hostOps4).trans (keep_W8_main_v1 m ρ c))
theorem keep_W12_main_v1 (c : Dev nD) : W12 m ρ c (Proc.devRef .tc main_v1) = W1 m ρ c (Proc.devRef .tc main_v1) :=
  (W12_of_ne m ρ c main_v1 (by decide)).trans ((host_keeps hostOps5).trans (keep_W10_main_v1 m ρ c))
theorem keep_W14_main_v1 (c : Dev nD) : W14 m ρ c (Proc.devRef .tc main_v1) = W1 m ρ c (Proc.devRef .tc main_v1) :=
  (W14_of_ne m ρ c main_v1 (by decide)).trans ((host_keeps hostOps6).trans (keep_W12_main_v1 m ρ c))
theorem keep_W2_main_v3 (c : Dev nD) : W2 m ρ c (Proc.devRef .tc main_v3) = W1 m ρ c (Proc.devRef .tc main_v3) :=
  W2_of_ne m ρ c main_v3 (by decide)
theorem keep_W4_main_v3 (c : Dev nD) : W4 m ρ c (Proc.devRef .tc main_v3) = W1 m ρ c (Proc.devRef .tc main_v3) :=
  (W4_of_ne m ρ c main_v3 (by decide)).trans ((host_keeps hostOps1).trans (keep_W2_main_v3 m ρ c))
theorem keep_W6_main_v3 (c : Dev nD) : W6 m ρ c (Proc.devRef .tc main_v3) = W1 m ρ c (Proc.devRef .tc main_v3) :=
  (W6_of_ne m ρ c main_v3 (by decide)).trans ((host_keeps hostOps2).trans (keep_W4_main_v3 m ρ c))
theorem keep_W8_main_v3 (c : Dev nD) : W8 m ρ c (Proc.devRef .tc main_v3) = W1 m ρ c (Proc.devRef .tc main_v3) :=
  (W8_of_ne m ρ c main_v3 (by decide)).trans ((host_keeps hostOps3).trans (keep_W6_main_v3 m ρ c))
theorem keep_W10_main_v3 (c : Dev nD) : W10 m ρ c (Proc.devRef .tc main_v3) = W1 m ρ c (Proc.devRef .tc main_v3) :=
  (W10_of_ne m ρ c main_v3 (by decide)).trans ((host_keeps hostOps4).trans (keep_W8_main_v3 m ρ c))
theorem keep_W12_main_v3 (c : Dev nD) : W12 m ρ c (Proc.devRef .tc main_v3) = W1 m ρ c (Proc.devRef .tc main_v3) :=
  (W12_of_ne m ρ c main_v3 (by decide)).trans ((host_keeps hostOps5).trans (keep_W10_main_v3 m ρ c))
theorem keep_W14_main_v3 (c : Dev nD) : W14 m ρ c (Proc.devRef .tc main_v3) = W1 m ρ c (Proc.devRef .tc main_v3) :=
  (W14_of_ne m ρ c main_v3 (by decide)).trans ((host_keeps hostOps6).trans (keep_W12_main_v3 m ρ c))
theorem keep_W0_main_arg8 (c : Dev nD) : W0 m ρ c (Proc.devRef .tc main_arg8) = m ((c : Thread nD τ).loc main_arg8) := rfl
theorem keep_W2_main_arg8 (c : Dev nD) : W2 m ρ c (Proc.devRef .tc main_arg8) = m ((c : Thread nD τ).loc main_arg8) :=
  (W2_of_ne m ρ c main_arg8 (by decide)).trans ((host_keeps hostOps0).trans (keep_W0_main_arg8 m ρ c))
theorem keep_W4_main_arg8 (c : Dev nD) : W4 m ρ c (Proc.devRef .tc main_arg8) = m ((c : Thread nD τ).loc main_arg8) :=
  (W4_of_ne m ρ c main_arg8 (by decide)).trans ((host_keeps hostOps1).trans (keep_W2_main_arg8 m ρ c))
theorem keep_W6_main_arg8 (c : Dev nD) : W6 m ρ c (Proc.devRef .tc main_arg8) = m ((c : Thread nD τ).loc main_arg8) :=
  (W6_of_ne m ρ c main_arg8 (by decide)).trans ((host_keeps hostOps2).trans (keep_W4_main_arg8 m ρ c))
theorem keep_W8_main_arg8 (c : Dev nD) : W8 m ρ c (Proc.devRef .tc main_arg8) = m ((c : Thread nD τ).loc main_arg8) :=
  (W8_of_ne m ρ c main_arg8 (by decide)).trans ((host_keeps hostOps3).trans (keep_W6_main_arg8 m ρ c))
theorem keep_W10_main_arg8 (c : Dev nD) : W10 m ρ c (Proc.devRef .tc main_arg8) = m ((c : Thread nD τ).loc main_arg8) :=
  (W10_of_ne m ρ c main_arg8 (by decide)).trans ((host_keeps hostOps4).trans (keep_W8_main_arg8 m ρ c))
theorem keep_W12_main_arg8 (c : Dev nD) : W12 m ρ c (Proc.devRef .tc main_arg8) = m ((c : Thread nD τ).loc main_arg8) :=
  (W12_of_ne m ρ c main_arg8 (by decide)).trans ((host_keeps hostOps5).trans (keep_W10_main_arg8 m ρ c))
theorem keep_W14_main_arg8 (c : Dev nD) : W14 m ρ c (Proc.devRef .tc main_arg8) = m ((c : Thread nD τ).loc main_arg8) :=
  (W14_of_ne m ρ c main_arg8 (by decide)).trans ((host_keeps hostOps6).trans (keep_W12_main_arg8 m ρ c))
theorem keep_W0_main_arg9 (c : Dev nD) : W0 m ρ c (Proc.devRef .tc main_arg9) = m ((c : Thread nD τ).loc main_arg9) := rfl
theorem keep_W2_main_arg9 (c : Dev nD) : W2 m ρ c (Proc.devRef .tc main_arg9) = m ((c : Thread nD τ).loc main_arg9) :=
  (W2_of_ne m ρ c main_arg9 (by decide)).trans ((host_keeps hostOps0).trans (keep_W0_main_arg9 m ρ c))
theorem keep_W4_main_arg9 (c : Dev nD) : W4 m ρ c (Proc.devRef .tc main_arg9) = m ((c : Thread nD τ).loc main_arg9) :=
  (W4_of_ne m ρ c main_arg9 (by decide)).trans ((host_keeps hostOps1).trans (keep_W2_main_arg9 m ρ c))
theorem keep_W6_main_arg9 (c : Dev nD) : W6 m ρ c (Proc.devRef .tc main_arg9) = m ((c : Thread nD τ).loc main_arg9) :=
  (W6_of_ne m ρ c main_arg9 (by decide)).trans ((host_keeps hostOps2).trans (keep_W4_main_arg9 m ρ c))
theorem keep_W8_main_arg9 (c : Dev nD) : W8 m ρ c (Proc.devRef .tc main_arg9) = m ((c : Thread nD τ).loc main_arg9) :=
  (W8_of_ne m ρ c main_arg9 (by decide)).trans ((host_keeps hostOps3).trans (keep_W6_main_arg9 m ρ c))
theorem keep_W10_main_arg9 (c : Dev nD) : W10 m ρ c (Proc.devRef .tc main_arg9) = m ((c : Thread nD τ).loc main_arg9) :=
  (W10_of_ne m ρ c main_arg9 (by decide)).trans ((host_keeps hostOps4).trans (keep_W8_main_arg9 m ρ c))
theorem keep_W12_main_arg9 (c : Dev nD) : W12 m ρ c (Proc.devRef .tc main_arg9) = m ((c : Thread nD τ).loc main_arg9) :=
  (W12_of_ne m ρ c main_arg9 (by decide)).trans ((host_keeps hostOps5).trans (keep_W10_main_arg9 m ρ c))
theorem keep_W14_main_arg9 (c : Dev nD) : W14 m ρ c (Proc.devRef .tc main_arg9) = m ((c : Thread nD τ).loc main_arg9) :=
  (W14_of_ne m ρ c main_arg9 (by decide)).trans ((host_keeps hostOps6).trans (keep_W12_main_arg9 m ρ c))
theorem keep_W0_main_arg10 (c : Dev nD) : W0 m ρ c (Proc.devRef .tc main_arg10) = m ((c : Thread nD τ).loc main_arg10) := rfl
theorem keep_W2_main_arg10 (c : Dev nD) : W2 m ρ c (Proc.devRef .tc main_arg10) = m ((c : Thread nD τ).loc main_arg10) :=
  (W2_of_ne m ρ c main_arg10 (by decide)).trans ((host_keeps hostOps0).trans (keep_W0_main_arg10 m ρ c))
theorem keep_W4_main_arg10 (c : Dev nD) : W4 m ρ c (Proc.devRef .tc main_arg10) = m ((c : Thread nD τ).loc main_arg10) :=
  (W4_of_ne m ρ c main_arg10 (by decide)).trans ((host_keeps hostOps1).trans (keep_W2_main_arg10 m ρ c))
theorem keep_W6_main_arg10 (c : Dev nD) : W6 m ρ c (Proc.devRef .tc main_arg10) = m ((c : Thread nD τ).loc main_arg10) :=
  (W6_of_ne m ρ c main_arg10 (by decide)).trans ((host_keeps hostOps2).trans (keep_W4_main_arg10 m ρ c))
theorem keep_W8_main_arg10 (c : Dev nD) : W8 m ρ c (Proc.devRef .tc main_arg10) = m ((c : Thread nD τ).loc main_arg10) :=
  (W8_of_ne m ρ c main_arg10 (by decide)).trans ((host_keeps hostOps3).trans (keep_W6_main_arg10 m ρ c))
theorem keep_W10_main_arg10 (c : Dev nD) : W10 m ρ c (Proc.devRef .tc main_arg10) = m ((c : Thread nD τ).loc main_arg10) :=
  (W10_of_ne m ρ c main_arg10 (by decide)).trans ((host_keeps hostOps4).trans (keep_W8_main_arg10 m ρ c))
theorem keep_W12_main_arg10 (c : Dev nD) : W12 m ρ c (Proc.devRef .tc main_arg10) = m ((c : Thread nD τ).loc main_arg10) :=
  (W12_of_ne m ρ c main_arg10 (by decide)).trans ((host_keeps hostOps5).trans (keep_W10_main_arg10 m ρ c))
theorem keep_W14_main_arg10 (c : Dev nD) : W14 m ρ c (Proc.devRef .tc main_arg10) = m ((c : Thread nD τ).loc main_arg10) :=
  (W14_of_ne m ρ c main_arg10 (by decide)).trans ((host_keeps hostOps6).trans (keep_W12_main_arg10 m ρ c))
theorem keep_W0_main_arg3 (c : Dev nD) : W0 m ρ c (Proc.devRef .tc main_arg3) = m ((c : Thread nD τ).loc main_arg3) := rfl
theorem keep_W2_main_arg3 (c : Dev nD) : W2 m ρ c (Proc.devRef .tc main_arg3) = m ((c : Thread nD τ).loc main_arg3) :=
  (W2_of_ne m ρ c main_arg3 (by decide)).trans ((host_keeps hostOps0).trans (keep_W0_main_arg3 m ρ c))
theorem keep_W4_main_arg3 (c : Dev nD) : W4 m ρ c (Proc.devRef .tc main_arg3) = m ((c : Thread nD τ).loc main_arg3) :=
  (W4_of_ne m ρ c main_arg3 (by decide)).trans ((host_keeps hostOps1).trans (keep_W2_main_arg3 m ρ c))
theorem keep_W6_main_arg3 (c : Dev nD) : W6 m ρ c (Proc.devRef .tc main_arg3) = m ((c : Thread nD τ).loc main_arg3) :=
  (W6_of_ne m ρ c main_arg3 (by decide)).trans ((host_keeps hostOps2).trans (keep_W4_main_arg3 m ρ c))
theorem keep_W8_main_arg3 (c : Dev nD) : W8 m ρ c (Proc.devRef .tc main_arg3) = m ((c : Thread nD τ).loc main_arg3) :=
  (W8_of_ne m ρ c main_arg3 (by decide)).trans ((host_keeps hostOps3).trans (keep_W6_main_arg3 m ρ c))
theorem keep_W10_main_arg3 (c : Dev nD) : W10 m ρ c (Proc.devRef .tc main_arg3) = m ((c : Thread nD τ).loc main_arg3) :=
  (W10_of_ne m ρ c main_arg3 (by decide)).trans ((host_keeps hostOps4).trans (keep_W8_main_arg3 m ρ c))
theorem keep_W12_main_arg3 (c : Dev nD) : W12 m ρ c (Proc.devRef .tc main_arg3) = m ((c : Thread nD τ).loc main_arg3) :=
  (W12_of_ne m ρ c main_arg3 (by decide)).trans ((host_keeps hostOps5).trans (keep_W10_main_arg3 m ρ c))
theorem keep_W14_main_arg3 (c : Dev nD) : W14 m ρ c (Proc.devRef .tc main_arg3) = m ((c : Thread nD τ).loc main_arg3) :=
  (W14_of_ne m ρ c main_arg3 (by decide)).trans ((host_keeps hostOps6).trans (keep_W12_main_arg3 m ρ c))
theorem keep_W16_main_arg0 (c : Dev nD) : W16 m ρ c (Proc.devRef .tc main_arg0) = m ((c : Thread nD τ).loc main_arg0) :=
  ((host_keeps hostOps8).symm.trans ((host_keeps hostOps8_1).symm.trans ((host_keeps hostOps8_2).symm.trans (W19_main_arg0 m ρ c))))
theorem keep_W16_main_arg4 (c : Dev nD) : W16 m ρ c (Proc.devRef .tc main_arg4) = m ((c : Thread nD τ).loc main_arg4) :=
  ((host_keeps hostOps8).symm.trans ((host_keeps hostOps8_1).symm.trans ((host_keeps hostOps8_2).symm.trans (W19_main_arg4 m ρ c))))
theorem keep_W16_main_arg5 (c : Dev nD) : W16 m ρ c (Proc.devRef .tc main_arg5) = m ((c : Thread nD τ).loc main_arg5) :=
  ((host_keeps hostOps8).symm.trans ((host_keeps hostOps8_1).symm.trans ((host_keeps hostOps8_2).symm.trans (W19_main_arg5 m ρ c))))
theorem keep_W16_main_arg6 (c : Dev nD) : W16 m ρ c (Proc.devRef .tc main_arg6) = m ((c : Thread nD τ).loc main_arg6) :=
  ((host_keeps hostOps8).symm.trans ((host_keeps hostOps8_1).symm.trans ((host_keeps hostOps8_2).symm.trans (W19_main_arg6 m ρ c))))
theorem keep_W16_main_arg7 (c : Dev nD) : W16 m ρ c (Proc.devRef .tc main_arg7) = m ((c : Thread nD τ).loc main_arg7) :=
  ((host_keeps hostOps8).symm.trans ((host_keeps hostOps8_1).symm.trans ((host_keeps hostOps8_2).symm.trans (W19_main_arg7 m ρ c))))
theorem keep_W16_main_arg11 (c : Dev nD) : W16 m ρ c (Proc.devRef .tc main_arg11) = m ((c : Thread nD τ).loc main_arg11) :=
  ((host_keeps hostOps8).symm.trans ((host_keeps hostOps8_1).symm.trans ((host_keeps hostOps8_2).symm.trans (W19_main_arg11 m ρ c))))
theorem keep_W16_main_arg12 (c : Dev nD) : W16 m ρ c (Proc.devRef .tc main_arg12) = m ((c : Thread nD τ).loc main_arg12) :=
  ((host_keeps hostOps8).symm.trans ((host_keeps hostOps8_1).symm.trans ((host_keeps hostOps8_2).symm.trans (W19_main_arg12 m ρ c))))
theorem keep_W16_main_arg13 (c : Dev nD) : W16 m ρ c (Proc.devRef .tc main_arg13) = m ((c : Thread nD τ).loc main_arg13) :=
  ((host_keeps hostOps8).symm.trans ((host_keeps hostOps8_1).symm.trans ((host_keeps hostOps8_2).symm.trans (W19_main_arg13 m ρ c))))
theorem keep_W16_main_arg14 (c : Dev nD) : W16 m ρ c (Proc.devRef .tc main_arg14) = m ((c : Thread nD τ).loc main_arg14) :=
  ((host_keeps hostOps8).symm.trans ((host_keeps hostOps8_1).symm.trans ((host_keeps hostOps8_2).symm.trans (W19_main_arg14 m ρ c))))
theorem keep_V1_main_arg1 (c : Dev nD) : W1 m ρ c (Proc.devRef .tc main_arg1) = W0 m ρ c (Proc.devRef .tc main_arg1) :=
  host_keeps hostOps0
theorem keep_V3_main_v21 (c : Dev nD) : W3 m ρ c (Proc.devRef .tc main_v21) = W2 m ρ c (Proc.devRef .tc main_v21) :=
  host_keeps hostOps1
theorem keep_V5_main_v39 (c : Dev nD) : W5 m ρ c (Proc.devRef .tc main_v39) = W4 m ρ c (Proc.devRef .tc main_v39) :=
  host_keeps hostOps2
theorem keep_V7_main_v57 (c : Dev nD) : W7 m ρ c (Proc.devRef .tc main_v57) = W6 m ρ c (Proc.devRef .tc main_v57) :=
  host_keeps hostOps3
theorem keep_V9_main_v75 (c : Dev nD) : W9 m ρ c (Proc.devRef .tc main_v75) = W8 m ρ c (Proc.devRef .tc main_v75) :=
  host_keeps hostOps4
theorem keep_V11_main_v93 (c : Dev nD) : W11 m ρ c (Proc.devRef .tc main_v93) = W10 m ρ c (Proc.devRef .tc main_v93) :=
  host_keeps hostOps5
theorem keep_V13_main_v111 (c : Dev nD) : W13 m ρ c (Proc.devRef .tc main_v111) = W12 m ρ c (Proc.devRef .tc main_v111) :=
  host_keeps hostOps6
theorem keep_V15_main_v129 (c : Dev nD) : W15 m ρ c (Proc.devRef .tc main_v129) = W14 m ρ c (Proc.devRef .tc main_v129) :=
  host_keeps hostOps7
/-- The membership matrix is an input array of the pooling region: the region leaves it as it found it. -/
theorem keep_W16_main_v136 (c : Dev nD) : W16 m ρ c (Proc.devRef .tc main_v136) = W15 m ρ c (Proc.devRef .tc main_v136) :=
  (W16_arr m ρ c 0).trans (((dat7 (V15 m ρ) c).arrAt_in 0 rfl _).trans (A_eq7 (V15 m ρ) c 0))

end Cert.KernelIdeal.Gen

end
-- ==== Proof.KEntry.lean ====
/-
  What each host stretch of the idealized kernel program leaves in the buffers the next region reads, from ANY
  contents V of the buffers before the stretch, in the shared spelling of the host-side pieces: the aggregation of
  the node features, the layer's two matrices and its bias row; the membership matrix; and, for the last three
  stretches together, everything after the pooling.
-/
import proofs.«424942_j10471130267878_1_alg».proof.Proof.Gen.KernelIdeal.Frame
import proofs.«424942_j10471130267878_1_alg».proof.Proof.HostNet
import proofs.«424942_j10471130267878_1_alg».proof.Proof.KHostTerms
import Idealize.ShloMosaic.Lib.StableHlo.Run

set_option maxRecDepth 16384

noncomputable section

open Idealize.ShloMosaic Idealize.ShloMosaic.TcCoe Idealize.ShloMosaic.Tactic Idealize.SL.Sem Idealize.ShloMosaic.StableHlo

namespace Cert.KernelIdeal.Gen

variable {F : FTy → Type} [FloatOps F] [Cert.ReferenceIdeal.Facts₀]
variable (V : Valuation τ sig (Elt F))

open Cert.ReferenceIdeal.HostTerms Cert.KernelIdeal.HostTerms

set_option maxHeartbeats 4000000 in
theorem entry0_src : after hostOps0 V (Proc.devRef .tc main_v1) = srcIdx (V (Proc.devRef .tc main_arg2)) := by
  after_results_simp
  rfl
set_option maxHeartbeats 4000000 in
theorem entry0_dst : after hostOps0 V (Proc.devRef .tc main_v3) = dstIdx (V (Proc.devRef .tc main_arg2)) := by
  after_results_simp
  rfl
set_option maxHeartbeats 4000000 in
theorem entry0_agg : after hostOps0 V (Proc.devRef .tc main_v13) = agg (V (Proc.devRef .tc main_arg1)) (srcIdx (V (Proc.devRef .tc main_arg2))) (dstIdx (V (Proc.devRef .tc main_arg2))) := by
  after_results_simp
  rfl
set_option maxHeartbeats 4000000 in
theorem entry0_wrel : after hostOps0 V (Proc.devRef .tc main_v15) = wslice0 (V (Proc.devRef .tc main_arg8)) := by
  after_results_simp
  rfl
set_option maxHeartbeats 4000000 in
theorem entry0_wroot : after hostOps0 V (Proc.devRef .tc main_v17) = wslice0 (V (Proc.devRef .tc main_arg9)) := by
  after_results_simp
  rfl
set_option maxHeartbeats 4000000 in
theorem entry0_bias : after hostOps0 V (Proc.devRef .tc main_v20) = shapeCast S1x128 (bslice0 (V (Proc.devRef .tc main_arg10))) Facts₀.shapeCasts_S128_S1x128 := by
  after_results_simp
  rfl
set_option maxHeartbeats 4000000 in
theorem entry1_agg : after hostOps1 V (Proc.devRef .tc main_v31) = agg (V (Proc.devRef .tc main_v21)) (V (Proc.devRef .tc main_v1)) (V (Proc.devRef .tc main_v3)) := by
  after_results_simp
  rfl
set_option maxHeartbeats 4000000 in
theorem entry1_wrel : after hostOps1 V (Proc.devRef .tc main_v33) = wslice1 (V (Proc.devRef .tc main_arg8)) := by
  after_results_simp
  rfl
set_option maxHeartbeats 4000000 in
theorem entry1_wroot : after hostOps1 V (Proc.devRef .tc main_v35) = wslice1 (V (Proc.devRef .tc main_arg9)) := by
  after_results_simp
  rfl
set_option maxHeartbeats 4000000 in
theorem entry1_bias : after hostOps1 V (Proc.devRef .tc main_v38) = shapeCast S1x128 (bslice1 (V (Proc.devRef .tc main_arg10))) Facts₀.shapeCasts_S128_S1x128 := by
  after_results_simp
  rfl
set_option maxHeartbeats 4000000 in
theorem entry2_agg : after hostOps2 V (Proc.devRef .tc main_v49) = agg (V (Proc.devRef .tc main_v39)) (V (Proc.devRef .tc main_v1)) (V (Proc.devRef .tc main_v3)) := by
  after_results_simp
  rfl
set_option maxHeartbeats 4000000 in
theorem entry2_wrel : after hostOps2 V (Proc.devRef .tc main_v51) = wslice2 (V (Proc.devRef .tc main_arg8)) := by
  after_results_simp
  rfl
set_option maxHeartbeats 4000000 in
theorem entry2_wroot : after hostOps2 V (Proc.devRef .tc main_v53) = wslice2 (V (Proc.devRef .tc main_arg9)) := by
  after_results_simp
  rfl
set_option maxHeartbeats 4000000 in
theorem entry2_bias : after hostOps2 V (Proc.devRef .tc main_v56) = shapeCast S1x128 (bslice2 (V (Proc.devRef .tc main_arg10))) Facts₀.shapeCasts_S128_S1x128 := by
  after_results_simp
  rfl
set_option maxHeartbeats 4000000 in
theorem entry3_agg : after hostOps3 V (Proc.devRef .tc main_v67) = agg (V (Proc.devRef .tc main_v57)) (V (Proc.devRef .tc main_v1)) (V (Proc.devRef .tc main_v3)) := by
  after_results_simp
  rfl
set_option maxHeartbeats 4000000 in
theorem entry3_wrel : after hostOps3 V (Proc.devRef .tc main_v69) = wslice3 (V (Proc.devRef .tc main_arg8)) := by
  after_results_simp
  rfl
set_option maxHeartbeats 4000000 in
theorem entry3_wroot : after hostOps3 V (Proc.devRef .tc main_v71) = wslice3 (V (Proc.devRef .tc main_arg9)) := by
  after_results_simp
  rfl
set_option maxHeartbeats 4000000 in
theorem entry3_bias : after hostOps3 V (Proc.devRef .tc main_v74) = shapeCast S1x128 (bslice3 (V (Proc.devRef .tc main_arg10))) Facts₀.shapeCasts_S128_S1x128 := by
  after_results_simp
  rfl
set_option maxHeartbeats 4000000 in
theorem entry4_agg : after hostOps4 V (Proc.devRef .tc main_v85) = agg (V (Proc.devRef .tc main_v75)) (V (Proc.devRef .tc main_v1)) (V (Proc.devRef .tc main_v3)) := by
  after_results_simp
  rfl
set_option maxHeartbeats 4000000 in
theorem entry4_wrel : after hostOps4 V (Proc.devRef .tc main_v87) = wslice4 (V (Proc.devRef .tc main_arg8)) := by
  after_results_simp
  rfl
set_option maxHeartbeats 4000000 in
theorem entry4_wroot : after hostOps4 V (Proc.devRef .tc main_v89) = wslice4 (V (Proc.devRef .tc main_arg9)) := by
  after_results_simp
  rfl
set_option maxHeartbeats 4000000 in
theorem entry4_bias : after hostOps4 V (Proc.devRef .tc main_v92) = shapeCast S1x128 (bslice4 (V (Proc.devRef .tc main_arg10))) Facts₀.shapeCasts_S128_S1x128 := by
  after_results_simp
  rfl
set_option maxHeartbeats 4000000 in
theorem entry5_agg : after hostOps5 V (Proc.devRef .tc main_v103) = agg (V (Proc.devRef .tc main_v93)) (V (Proc.devRef .tc main_v1)) (V (Proc.devRef .tc main_v3)) := by
  after_results_simp
  rfl
set_option maxHeartbeats 4000000 in
theorem entry5_wrel : after hostOps5 V (Proc.devRef .tc main_v105) = wslice5 (V (Proc.devRef .tc main_arg8)) := by
  after_results_simp
  rfl
set_option maxHeartbeats 4000000 in
theorem entry5_wroot : after hostOps5 V (Proc.devRef .tc main_v107) = wslice5 (V (Proc.devRef .tc main_arg9)) := by
  after_results_simp
  rfl
set_option maxHeartbeats 4000000 in
theorem entry5_bias : after hostOps5 V (Proc.devRef .tc main_v110) = shapeCast S1x128 (bslice5 (V (Proc.devRef .tc main_arg10))) Facts₀.shapeCasts_S128_S1x128 := by
  after_results_simp
  rfl
set_option maxHeartbeats 4000000 in
theorem entry6_agg : after hostOps6 V (Proc.devRef .tc main_v121) = agg (V (Proc.devRef .tc main_v111)) (V (Proc.devRef .tc main_v1)) (V (Proc.devRef .tc main_v3)) := by
  after_results_simp
  rfl
set_option maxHeartbeats 4000000 in
theorem entry6_wrel : after hostOps6 V (Proc.devRef .tc main_v123) = wslice6 (V (Proc.devRef .tc main_arg8)) := by
  after_results_simp
  rfl
set_option maxHeartbeats 4000000 in
theorem entry6_wroot : after hostOps6 V (Proc.devRef .tc main_v125) = wslice6 (V (Proc.devRef .tc main_arg9)) := by
  after_results_simp
  rfl
set_option maxHeartbeats 4000000 in
theorem entry6_bias : after hostOps6 V (Proc.devRef .tc main_v128) = shapeCast S1x128 (bslice6 (V (Proc.devRef .tc main_arg10))) Facts₀.shapeCasts_S128_S1x128 := by
  after_results_simp
  rfl
set_option maxHeartbeats 4000000 in
theorem entry7_member : after hostOps7 V (Proc.devRef .tc main_v136) = member (V (Proc.devRef .tc main_arg3)) := by
  after_results_simp
  rfl
set_option maxHeartbeats 4000000 in
theorem entry8_result : after hostOps8_2 (after hostOps8_1 (after hostOps8 V)) (Proc.devRef .tc main_v163)
    = tail (V (Proc.devRef .tc main_v137)) (colSums (V (Proc.devRef .tc main_v136))) (V (Proc.devRef .tc main_arg0)) (V (Proc.devRef .tc main_arg4)) (V (Proc.devRef .tc main_arg5)) (V (Proc.devRef .tc main_arg6))
        (V (Proc.devRef .tc main_arg7)) (V (Proc.devRef .tc main_arg11)) (V (Proc.devRef .tc main_arg12)) (V (Proc.devRef .tc main_arg13)) (V (Proc.devRef .tc main_arg14)) := by
  after_results_simp
  rfl

end Cert.KernelIdeal.Gen

end
-- ==== Proof.Spec.lean ====
/-
  The mathematics of the two kernels, as functions on whole arrays over the extended reals.

  A graph-convolution layer's dense step takes the aggregated neighbour features `agg`, the node features `h`
  (both 100000 × 128), two 128 × 128 weight matrices and a bias row, and returns
  `max (agg · W_rel + h · W_root + b) 0`, row by row. The pooling step takes a 100000 × 64 membership matrix and the
  node features and returns the 64 × 128 matrix of per-graph sums `∑ₙ member[n, g] · h[n, d]`.
-/
import Idealize.ShloMosaic.PureOps.Ideal
import Idealize.ShloMosaic.Lib.ValueIdx

noncomputable section

namespace Cert.GnnSpec

open Idealize.ShloMosaic Idealize.ShloMosaic.ValueIdx

abbrev SNodes : Shape := ⟨2, ![100000, 128]⟩
abbrev SWeight : Shape := ⟨2, ![128, 128]⟩
abbrev SBias : Shape := ⟨2, ![1, 128]⟩
abbrev SMember : Shape := ⟨2, ![100000, 64]⟩
abbrev SPooled : Shape := ⟨2, ![64, 128]⟩

/-- Entry `(n, d)` of one layer's dense step: the two matrix products are summed first, then the bias is added,
    then the rectifier is applied. -/
def combineAt (agg h : SNodes.Idx → EReal) (wrel wroot : SWeight.Idx → EReal) (b : SBias.Idx → EReal)
    (n : Fin 100000) (d : Fin 128) : EReal :=
  max (((∑ k : Fin 128, agg (ix2 n k) * wrel (ix2 k d)) + ∑ k : Fin 128, h (ix2 n k) * wroot (ix2 k d))
    + b (ix2 (0 : Fin 1) d)) 0

/-- One layer's dense step on whole arrays. -/
def combine (agg h : SNodes.Idx → EReal) (wrel wroot : SWeight.Idx → EReal) (b : SBias.Idx → EReal) :
    SNodes.Idx → EReal :=
  fun i => combineAt agg h wrel wroot b (i 0) (i 1)

theorem combine_ix2 (agg h : SNodes.Idx → EReal) (wrel wroot : SWeight.Idx → EReal) (b : SBias.Idx → EReal)
    (n : Fin 100000) (d : Fin 128) :
    combine agg h wrel wroot b (ix2 n d) = combineAt agg h wrel wroot b n d := rfl

/-- Entry `(g, d)` of the pooled sums. -/
def poolAt (member : SMember.Idx → EReal) (h : SNodes.Idx → EReal) (g : Fin 64) (d : Fin 128) : EReal :=
  ∑ n : Fin 100000, member (ix2 n g) * h (ix2 n d)

/-- The per-graph sums of the node features, as a product with the membership matrix. -/
def pool (member : SMember.Idx → EReal) (h : SNodes.Idx → EReal) : SPooled.Idx → EReal :=
  fun i => poolAt member h (i 0) (i 1)

theorem pool_ix2 (member : SMember.Idx → EReal) (h : SNodes.Idx → EReal) (g : Fin 64) (d : Fin 128) :
    pool member h (ix2 g d) = poolAt member h g d := rfl

end Cert.GnnSpec

end
-- ==== Proof.LayerValue.lean ====
/-
  One layer's dense step read entry by entry equals the reference's spelling of it: both are
  `max (agg · W_rel + h · W_root + b) 0` on the extended reals, the three summands added in a different order,
  and addition of extended reals is commutative and associative.
-/
import proofs.«424942_j10471130267878_1_alg».proof.Proof.Spec
import proofs.«424942_j10471130267878_1_alg».proof.Proof.HostTerms
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.LayerValue

open Idealize.ShloMosaic Idealize.ShloMosaic.ValueIdx Cert.ReferenceIdeal Cert.ReferenceIdeal.HostTerms Cert.GnnSpec

variable [Facts₀]

open Facts₀

/-! ## The contraction's operand indices, axis by axis

  The product contracts the left operand's axis 1 against the right operand's axis 0. At output index `i` and
  contraction index `q` the left operand is read at `(i 0, q)` and the right one at `(q, i 1)`. -/

/-- The contraction shape has one axis. -/
theorem contr_rank : dot_S100000x128_S128x128_S100000x128_1_0_0_1_n_n.contr.rank = 1 := rfl
/-- Its axis `0` exists. -/
theorem contr_pos : 0 < dot_S100000x128_S128x128_S100000x128_1_0_0_1_n_n.contr.rank := by rw [contr_rank]; exact Nat.one_pos

/-- The left operand's row is the output's row. -/
theorem lhs_axis0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
/-- The left operand's column is the contraction coordinate. -/
theorem lhs_axis1 (i : S100000x128.Idx) (q : dot_S100000x128_S128x128_S100000x128_1_0_0_1_n_n.contr.Idx) :
    (dot_S100000x128_S128x128_S100000x128_1_0_0_1_n_n.lhsIdx i q 1).val = (q ⟨0, contr_pos⟩).val :=
  dot_S100000x128_S128x128_S100000x128_1_0_0_1_n_n.lhsIdx_val_of_single rfl i q
/-- The right operand's row is the contraction coordinate. -/
theorem rhs_axis0 (i : S100000x128.Idx) (q : dot_S100000x128_S128x128_S100000x128_1_0_0_1_n_n.contr.Idx) :
    (dot_S100000x128_S128x128_S100000x128_1_0_0_1_n_n.rhsIdx i q 0).val = (q ⟨0, contr_pos⟩).val :=
  dot_S100000x128_S128x128_S100000x128_1_0_0_1_n_n.rhsIdx_val_of_single rfl i q
/-- The right operand's column is the output's column. -/
theorem rhs_axis1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- Entry `(n, d)` of the matrix product is the sum over `k` of row `n` of the left operand against column `d` of the
    right one: the exact product's sum over the one-axis contraction index, re-indexed through the bijection of that
    index set with `Fin 128`. -/
theorem dot_at (x : (⟨S100000x128, .f32⟩ : BufTy).Contents (Elt Ideal)) (w : (⟨S128x128, .f32⟩ : BufTy).Contents (Elt Ideal)) (n : Fin 100000) (d : Fin 128) :
    Host.dotGeneral (F := Ideal) (φ₁ := FTy.f32) (φ₂ := FTy.f32) dot_S100000x128_S128x128_S100000x128_1_0_0_1_n_n none x w (ix2 n d) = ∑ k : Fin 128, x (ix2 n k) * w (ix2 k d) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n d) ((contrEquiv1 dot_S100000x128_S128x128_S100000x128_1_0_0_1_n_n 128 rfl rfl).symm k) = ix2 n k := funext fun a => Fin.ext (by
    match a with
    | ⟨0, _⟩ => exact lhs_axis0 _ _
    | ⟨1, _⟩ => exact (lhs_axis1 _ _).trans hk)
  have er : dot_S100000x128_S128x128_S100000x128_1_0_0_1_n_n.rhsIdx (ix2 n d) ((contrEquiv1 dot_S100000x128_S128x128_S100000x128_1_0_0_1_n_n 128 rfl rfl).symm k) = ix2 k d := funext fun a => Fin.ext (by
    match a with
    | ⟨0, _⟩ => exact (rhs_axis0 _ _).trans hk
    | ⟨1, _⟩ => exact rhs_axis1 _ _)
  rw [el, er]

/-! ## The bias, the two broadcasts and the constant at an index -/

/-- The bias vector laid out as a 1 × 128 row, read at `(0, d)`, is the vector's entry `d`: the two indices have the
    same row-major position. -/
theorem bias_at (bv : (⟨S128, .f32⟩ : BufTy).Contents (Elt Ideal)) (hc : S128.ShapeCasts S1x128) (d : Fin 128) :
    shapeCast S1x128 bv hc (ix2 (0 : Fin 1) d) = bv (ix1 d) :=
  shapeCast_apply bv hc (ix2 (0 : Fin 1) d) (ix1 d)
    (by rewrite [Shape.rowMajor_val_one, Shape.rowMajor_val_two]; show d.val = 0 * 128 + d.val; omega)

/-- The bias vector broadcast to a 1 × 128 row and then along the 100000 rows, read at `(n, d)`, is its entry `d`. -/
theorem bcast_at (bv : (⟨S128, .f32⟩ : BufTy).Contents (Elt Ideal)) (n : Fin 100000) (d : Fin 128) :
    broadcastInDim S100000x128 ![0, 1] bcast_S1x128_S100000x128_0_1 (broadcastInDim S1x128 ![1] bcast_S128_S1x128_1 bv) (ix2 n d)
      = bv (ix1 d) := by
  refine (broadcastInDim_apply _ bcast_S1x128_S100000x128_0_1 _ (ix2 n d) (ix2 (0 : Fin 1) d) (fun a => match a with
    | ⟨0, _⟩ => by show 0 = if (1 : Nat) = 1 then 0 else n.val; rw [if_pos rfl]
    | ⟨1, _⟩ => by show d.val = if (128 : Nat) = 1 then 0 else d.val; rw [if_neg (by decide)])).trans ?_
  exact broadcastInDim_apply _ bcast_S128_S1x128_1 bv (ix2 (0 : Fin 1) d) (ix1 d) (fun a => match a with
    | ⟨0, _⟩ => by show d.val = if (128 : Nat) = 1 then 0 else d.val; rw [if_neg (by decide)])

/-- The scalar constant with the all-zero bit pattern, broadcast to every entry, is the extended real `0`. -/
theorem zero_at (i : S100000x128.Idx) :
    broadcastInDim S100000x128 ![] bcast_S_S100000x128 (constant (F := Ideal) S_ .f32 0x00000000#32) i = (0 : EReal) := by
  refine (broadcastInDim_apply _ bcast_S_S100000x128 _ i (fun a => a.elim0) (fun a => a.elim0)).trans ?_
  exact Ideal.ofBits_zero_f32

/-! ## The reference's spelling at an index, and the equation -/

/-- Entry `(n, d)` of the reference's spelling: the first product, plus the bias, plus the second product, against `0`. -/
theorem layer_at (a h : (⟨S100000x128, .f32⟩ : BufTy).Contents (Elt Ideal)) (wr wo : (⟨S128x128, .f32⟩ : BufTy).Contents (Elt Ideal)) (bv : (⟨S128, .f32⟩ : BufTy).Contents (Elt Ideal)) (n : Fin 100000) (d : Fin 128) :
    layer (F := Ideal) a h wr wo bv (ix2 n d)
      = max (((∑ k : Fin 128, a (ix2 n k) * wr (ix2 k d)) + bv (ix1 d)) + ∑ k : Fin 128, h (ix2 n k) * wo (ix2 k d)) 0 := by
  show max ((Host.dotGeneral (F := Ideal) (φ₁ := FTy.f32) (φ₂ := FTy.f32) dot_S100000x128_S128x128_S100000x128_1_0_0_1_n_n none a wr (ix2 n d)
        + broadcastInDim S100000x128 ![0, 1] bcast_S1x128_S100000x128_0_1 (broadcastInDim S1x128 ![1] bcast_S128_S1x128_1 bv) (ix2 n d))
      + Host.dotGeneral (F := Ideal) (φ₁ := FTy.f32) (φ₂ := FTy.f32) dot_S100000x128_S128x128_S100000x128_1_0_0_1_n_n none h wo (ix2 n d))
    (broadcastInDim S100000x128 ![] bcast_S_S100000x128 (constant (F := Ideal) S_ .f32 0x00000000#32) (ix2 n d)) = _
  rw [dot_at a wr n d, dot_at h wo n d, bcast_at bv n d, zero_at (ix2 n d)]

/-- The bias vector laid out as a 1 × 128 row (the layout the kernel's window takes it in). -/
theorem combine_eq_layer (a h : (⟨S100000x128, .f32⟩ : BufTy).Contents (Elt Ideal)) (wr wo : (⟨S128x128, .f32⟩ : BufTy).Contents (Elt Ideal)) (bv : (⟨S128, .f32⟩ : BufTy).Contents (Elt Ideal))
    (hc : S128.ShapeCasts S1x128) :
    combine a h wr wo (shapeCast S1x128 bv hc) = layer (F := Ideal) a h wr wo bv := by
  funext i
  obtain ⟨n, d, rfl⟩ : ∃ (n : Fin 100000) (d : Fin 128), i = ix2 n d := ⟨i 0, i 1, eq_ix2 i⟩
  rw [combine_ix2, layer_at a h wr wo bv n d]
  unfold combineAt
  rw [bias_at bv hc d, add_right_comm]

end Cert.ReferenceIdeal.LayerValue

end
-- ==== Proof.LibScatterSum.lean ====
/-
  An accumulating scatter along a column of signed index words, read at an index; the membership matrix of such words;
  column sums.

  Rows of an update array `upd : [N, D]` are added into an operand `x : [G, D]`, row `n` into the operand row that the word
  `col n` names when read signed; a word outside `[0, G)` names no row and its update is dropped. At `(g, d)` the result is
  `x (g, d)` plus the sum of `upd (n, d)` over the rows `n` with `col n = g`. The same for single elements added into a
  vector `x : [G]`. The membership matrix of the words (entry `(n, g)` one when word `n` is the word of `g`, else zero) and
  the host's column sums of an `[N, G]` array are read at an index beside them, so that "scatter the rows" and
  "multiply by the membership matrix" meet as one sum over `n`.
-/
import Idealize.ShloMosaic.PureOps.Ideal.Laws
import Idealize.ShloMosaic.Lib.ValueIdx
import Idealize.ShloMosaic.Lib.ValueIdxRank1
import Idealize.ShloMosaic.Lib.IdealHost
import Idealize.ShloMosaic.Lib.StableHlo.Predicate

noncomputable section

namespace Cert.LibScatterSum

open Idealize.ShloMosaic Idealize.ShloMosaic.ValueIdx

/-- The dimension numbers of a row scatter: one start index per update row, naming operand axis 0, which is inserted;
    the updates' axis 1 runs over the operand's whole axis 1. -/
abbrev rowScatterDims (G N D : Nat)
    (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ :=
  { updateWindowDims := [1], insertedWindowDims := [0], scatterDimsToOperandDims := [0], indexVectorDim := 1, wf := wf }

section Row
variable {G N D w : Nat} (wf : ScatterDims.WF ⟨2, ![G, D]⟩ ⟨2, ![N, 1]⟩ ⟨2, ![N, D]⟩ [1] [0] [0] 1)
  (col : IVec ⟨2, ![N, 1]⟩ w) (n : Fin N) (d' : Fin D)

/-- On the scattered axis the window starts at row `n`'s index word, read signed. -/
theorem row_start_zero : (rowScatterDims G N D wf).start (ix2 n d') col (0 : Fin 2) = (col (ix2 n (0 : Fin 1))).toInt := by
  unfold ScatterDims.start
  rw [dif_pos (show (0 : Fin 2) ∈ (rowScatterDims G N D wf).scatterDimsToOperandDims from List.mem_singleton.mpr rfl)]
  congr 2
  funext b; refine Fin.ext ?_
  match b with
  | ⟨0, _⟩ => rfl
  | ⟨1, _⟩ => rfl

/-- The other axis is not named by the index: its window starts at zero. -/
theorem row_start_one : (rowScatterDims G N D wf).start (ix2 n d') col (1 : Fin 2) = 0 := by
  unfold ScatterDims.start
  rw [dif_neg (show (1 : Fin 2) ∉ (rowScatterDims G N D wf).scatterDimsToOperandDims from
    fun h => absurd (List.mem_singleton.mp h) (by simp))]

/-- The scattered axis is inserted: no window coordinate on it. -/
theorem row_window_zero : (rowScatterDims G N D wf).window (ix2 n d') (0 : Fin 2) = 0 := by
  unfold ScatterDims.window
  rw [dif_neg]
  simp [ScatterDims.sKept, Shape.kept]

/-- The kept axis carries the update's column. -/
theorem row_window_one : (rowScatterDims G N D wf).window (ix2 n d') (1 : Fin 2) = d'.val := by
  unfold ScatterDims.window
  rw [dif_pos (by simp [ScatterDims.sKept, Shape.kept])]
  rfl

/-- Where update `(n, d')` of a row scatter lands: at `(g, d)` exactly when row `n`'s index word, read signed, is `g` and the
    columns agree. An index word outside `[0, G)` lands nowhere. -/
theorem row_resultIdx_iff (g : Fin G) (d : Fin D) :
    (rowScatterDims G N D wf).resultIdx? (ix2 n d') col = some (ix2 g d)
      ↔ (col (ix2 n (0 : Fin 1))).toInt = (g.val : Int) ∧ d' = d := by
  have hS0 : (rowScatterDims G N D wf).start (ix2 n d') col (0 : Fin 2) + ((rowScatterDims G N D wf).window (ix2 n d') (0 : Fin 2) : Nat)
      = (col (ix2 n (0 : Fin 1))).toInt := by
    rw [row_start_zero, row_window_zero]; simp
  have hS1 : (rowScatterDims G N D wf).start (ix2 n d') col (1 : Fin 2) + ((rowScatterDims G N D wf).window (ix2 n d') (1 : Fin 2) : Nat)
      = (d'.val : Int) := by
    rw [row_start_one, row_window_one]; simp
  have hG : (⟨2, ![G, D]⟩ : Shape).size (0 : Fin 2) = G := rfl
  have hD : (⟨2, ![G, D]⟩ : Shape).size (1 : Fin 2) = D := rfl
  have hg := g.isLt
  have hd := d'.isLt
  unfold ScatterDims.resultIdx?
  constructor
  · intro h
    split at h
    · next hb =>
      have h' := Option.some.inj h
      have h0 : ((rowScatterDims G N D wf).start (ix2 n d') col (0 : Fin 2)
          + ((rowScatterDims G N D wf).window (ix2 n d') (0 : Fin 2) : Nat)).toNat = g.val :=
        congrArg (fun f => (f (0 : Fin 2)).val) h'
      have h1 : ((rowScatterDims G N D wf).start (ix2 n d') col (1 : Fin 2)
          + ((rowScatterDims G N D wf).window (ix2 n d') (1 : Fin 2) : Nat)).toNat = d.val :=
        congrArg (fun f => (f (1 : Fin 2)).val) h'
      have hb0 := (hb 0).1
      rw [hS0] at h0 hb0
      rw [hS1] at h1
      exact ⟨by omega, Fin.ext (by omega)⟩
    · exact absurd h (by simp)
  · rintro ⟨hX, rfl⟩
    have hall : ∀ a, 0 ≤ (rowScatterDims G N D wf).start (ix2 n d') col a + ((rowScatterDims G N D wf).window (ix2 n d') a : Nat)
        ∧ (rowScatterDims G N D wf).start (ix2 n d') col a + ((rowScatterDims G N D wf).window (ix2 n d') a : Nat)
          < (⟨2, ![G, D]⟩ : Shape).size a :=
      Fin.forall_fin_two.mpr ⟨by rw [hS0, hG]; omega, by rw [hS1, hD]; omega⟩
    rw [dif_pos hall]
    congr 1
    funext a
    refine Fin.ext ?_
    have key : ∀ a : Fin 2, ((rowScatterDims G N D wf).start (ix2 n d') col a
        + ((rowScatterDims G N D wf).window (ix2 n d') a : Nat)).toNat = (ix2 g d' a).val :=
      Fin.forall_fin_two.mpr ⟨by rw [hS0]; show _ = g.val; omega, by rw [hS1]; show _ = d'.val; omega⟩
    exact key a

/-- THE ROW SCATTER READ AT `(g, d)`: the operand there plus the sum, over the update rows whose index word read signed is
    `g`, of the update at that row, column `d`. -/
theorem rowScatterAdd_apply (x : (⟨2, ![G, D]⟩ : Shape).Idx → EReal) (upd : (⟨2, ![N, D]⟩ : Shape).Idx → EReal)
    (g : Fin G) (d : Fin D) :
    Ideal.hostScatterAdd (rowScatterDims G N D wf) x col upd (ix2 g d)
      = x (ix2 g d) + ∑ n : Fin N, if (col (ix2 n (0 : Fin 1))).toInt = (g.val : Int) then upd (ix2 n d) else 0 := by
  unfold Ideal.hostScatterAdd
  congr 1
  rw [Finset.sum_filter, sum_idx2]
  refine Finset.sum_congr rfl fun n _ => ?_
  simp only [row_resultIdx_iff]
  by_cases hX : (col (ix2 n (0 : Fin 1))).toInt = (g.val : Int)
  · rw [if_pos hX]
    simp only [hX, true_and]
    rw [Finset.sum_ite_eq' Finset.univ d (fun j => upd (ix2 n j)), if_pos (Finset.mem_univ d)]
  · rw [if_neg hX]
    simp only [hX, false_and, if_false, Finset.sum_const_zero]

end Row

/-- The dimension numbers of an element scatter into a vector: one start index per update element, naming the operand's
    one axis. -/
abbrev vecScatterDims (G N : Nat)
    (wf : ScatterDims.WF ⟨1, ![G]⟩ ⟨2, ![N, 1]⟩ ⟨1, ![N]⟩ [] [0] [0] 1) :
    ScatterDims ⟨1, ![G]⟩ ⟨2, ![N, 1]⟩ ⟨1, ![N]⟩ :=
  { updateWindowDims := [], insertedWindowDims := [0], scatterDimsToOperandDims := [0], indexVectorDim := 1, wf := wf }

section Vec
variable {G N w : Nat} (wf : ScatterDims.WF ⟨1, ![G]⟩ ⟨2, ![N, 1]⟩ ⟨1, ![N]⟩ [] [0] [0] 1)
  (col : IVec ⟨2, ![N, 1]⟩ w) (n : Fin N)

/-- The window starts at update `n`'s index word, read signed. -/
theorem vec_start_zero : (vecScatterDims G N wf).start (ix1 n) col (0 : Fin 1) = (col (ix2 n (0 : Fin 1))).toInt := by
  unfold ScatterDims.start
  rw [dif_pos (show (0 : Fin 1) ∈ (vecScatterDims G N wf).scatterDimsToOperandDims from List.mem_singleton.mpr rfl)]
  congr 2
  funext b; refine Fin.ext ?_
  match b with
  | ⟨0, _⟩ => rfl
  | ⟨1, _⟩ => rfl

/-- The operand's one axis is inserted: no window coordinate. -/
theorem vec_window_zero : (vecScatterDims G N wf).window (ix1 n) (0 : Fin 1) = 0 := by
  unfold ScatterDims.window
  rw [dif_neg]
  simp [ScatterDims.sKept, Shape.kept]

/-- Where update `n` of an element scatter lands: at `g` exactly when its index word, read signed, is `g`. -/
theorem vec_resultIdx_iff (g : Fin G) :
    (vecScatterDims G N wf).resultIdx? (ix1 n) col = some (ix1 g) ↔ (col (ix2 n (0 : Fin 1))).toInt = (g.val : Int) := by
  have hS0 : (vecScatterDims G N wf).start (ix1 n) col (0 : Fin 1) + ((vecScatterDims G N wf).window (ix1 n) (0 : Fin 1) : Nat)
      = (col (ix2 n (0 : Fin 1))).toInt := by
    rw [vec_start_zero, vec_window_zero]; simp
  have hG : (⟨1, ![G]⟩ : Shape).size (0 : Fin 1) = G := rfl
  have hg := g.isLt
  unfold ScatterDims.resultIdx?
  constructor
  · intro h
    split at h
    · next hb =>
      have h' := Option.some.inj h
      have h0 : ((vecScatterDims G N wf).start (ix1 n) col (0 : Fin 1)
          + ((vecScatterDims G N wf).window (ix1 n) (0 : Fin 1) : Nat)).toNat = g.val :=
        congrArg (fun f => (f (0 : Fin 1)).val) h'
      have hb0 := (hb 0).1
      rw [hS0] at h0 hb0
      omega
    · exact absurd h (by simp)
  · intro hX
    have hall : ∀ a, 0 ≤ (vecScatterDims G N wf).start (ix1 n) col a + ((vecScatterDims G N wf).window (ix1 n) a : Nat)
        ∧ (vecScatterDims G N wf).start (ix1 n) col a + ((vecScatterDims G N wf).window (ix1 n) a : Nat)
          < (⟨1, ![G]⟩ : Shape).size a :=
      Fin.forall_fin_one.mpr (by rw [hS0, hG]; omega)
    rw [dif_pos hall]
    congr 1
    funext a
    refine Fin.ext ?_
    have key : ∀ a : Fin 1, ((vecScatterDims G N wf).start (ix1 n) col a
        + ((vecScatterDims G N wf).window (ix1 n) a : Nat)).toNat = (ix1 g a).val :=
      Fin.forall_fin_one.mpr (by rw [hS0]; show _ = g.val; omega)
    exact key a

/-- THE ELEMENT SCATTER READ AT `g`: the operand there plus the sum of the updates whose index word read signed is `g`. -/
theorem vecScatterAdd_apply (x : (⟨1, ![G]⟩ : Shape).Idx → EReal) (upd : (⟨1, ![N]⟩ : Shape).Idx → EReal) (g : Fin G) :
    Ideal.hostScatterAdd (vecScatterDims G N wf) x col upd (ix1 g)
      = x (ix1 g) + ∑ n : Fin N, if (col (ix2 n (0 : Fin 1))).toInt = (g.val : Int) then upd (ix1 n) else 0 := by
  unfold Ideal.hostScatterAdd
  congr 1
  rw [Finset.sum_filter, ← Equiv.sum_comp (idxEquiv1 (n := N)).symm]
  refine Finset.sum_congr rfl fun n _ => ?_
  show (if (vecScatterDims G N wf).resultIdx? (ix1 n) col = some (ix1 g) then upd (ix1 n) else 0) = _
  simp only [vec_resultIdx_iff]

end Vec

/-! ## A vector laid out as a column or along the rows, a row of positions laid out down the columns -/

/-- Three spellings of the small indices agree. -/
theorem ij_eq_ix2 {n m : Nat} (p : Fin n) (q : Fin m) : StableHlo.Predicate.ij p q = ix2 p q := by
  funext b
  match b with
  | ⟨0, _⟩ => rfl
  | ⟨1, _⟩ => rfl

theorem ixP_eq_ix2 {n : Nat} (p : Fin n) : StableHlo.Predicate.ixP p = ix2 p (0 : Fin 1) := by
  funext b
  match b with
  | ⟨0, _⟩ => rfl
  | ⟨1, _⟩ => rfl

theorem ofFin_eq_ix1 {n : Nat} (p : Fin n) : Shape.Idx.ofFin p = ix1 p := by
  funext a
  match a with
  | ⟨0, _⟩ => rfl

section Layout
variable {α : Type} {N G : Nat}
  (h₁ : (⟨1, ![N]⟩ : Shape).BroadcastsInDim ⟨2, ![N, 1]⟩ ![0])
  (h₂ : (⟨2, ![N, 1]⟩ : Shape).BroadcastsInDim ⟨2, ![N, G]⟩ ![0, 1])
  (h₃ : (⟨1, ![G]⟩ : Shape).BroadcastsInDim ⟨2, ![1, G]⟩ ![1])
  (h₄ : (⟨2, ![1, G]⟩ : Shape).BroadcastsInDim ⟨2, ![N, G]⟩ ![0, 1])

/-- A vector as an `[N, 1]` column reads, at row `n`, the vector at `n`. -/
theorem col_apply (v : (⟨1, ![N]⟩ : Shape).Idx → α) (n : Fin N) :
    broadcastInDim ⟨2, ![N, 1]⟩ ![0] h₁ v (ix2 n (0 : Fin 1)) = v (ix1 n) :=
  (congrArg (broadcastInDim ⟨2, ![N, 1]⟩ ![0] h₁ v) (ixP_eq_ix2 n).symm).trans
    ((StableHlo.Predicate.bcast_col1 h₁ v n).trans (congrArg v (ofFin_eq_ix1 n)))

/-- A vector laid along the rows of an `[N, G]` rectangle reads, at `(n, g)`, the vector at `n`. -/
theorem rows_apply (v : (⟨1, ![N]⟩ : Shape).Idx → α) (n : Fin N) (g : Fin G) :
    broadcastInDim ⟨2, ![N, G]⟩ ![0, 1] h₂ (broadcastInDim ⟨2, ![N, 1]⟩ ![0] h₁ v) (ix2 n g) = v (ix1 n) :=
  (congrArg (broadcastInDim ⟨2, ![N, G]⟩ ![0, 1] h₂ (broadcastInDim ⟨2, ![N, 1]⟩ ![0] h₁ v)) (ij_eq_ix2 n g).symm).trans
    ((StableHlo.Predicate.bcast_rows h₁ h₂ v n g).trans (congrArg v (ofFin_eq_ix1 n)))

/-- A vector laid down the columns of an `[N, G]` rectangle reads, at `(n, g)`, the vector at `g`. -/
theorem cols_apply (u : (⟨1, ![G]⟩ : Shape).Idx → α) (n : Fin N) (g : Fin G) :
    broadcastInDim ⟨2, ![N, G]⟩ ![0, 1] h₄ (broadcastInDim ⟨2, ![1, G]⟩ ![1] h₃ u) (ix2 n g) = u (ix1 g) :=
  (congrArg (broadcastInDim ⟨2, ![N, G]⟩ ![0, 1] h₄ (broadcastInDim ⟨2, ![1, G]⟩ ![1] h₃ u)) (ij_eq_ix2 n g).symm).trans
    ((StableHlo.Predicate.bcast_cols h₃ h₄ u n g).trans (congrArg u (ofFin_eq_ix1 g)))

/-- THE MEMBERSHIP MATRIX READ AT `(n, g)`: the words `v` laid along the rows, compared for equality with the positions
    `0 … G - 1` laid down the columns, the bit widened to a float: one when `v n` is the word of `g`, else zero. -/
theorem oneHot_apply (v : IVec ⟨1, ![N]⟩ 32) (n : Fin N) (g : Fin G) :
    (uitofp .f32
      (cmpi .eq (broadcastInDim ⟨2, ![N, G]⟩ ![0, 1] h₂ (broadcastInDim ⟨2, ![N, 1]⟩ ![0] h₁ v))
        (broadcastInDim ⟨2, ![N, G]⟩ ![0, 1] h₄ (broadcastInDim ⟨2, ![1, G]⟩ ![1] h₃ (iotaInDim ⟨1, ![G]⟩ 32 0))))
      : FVec Ideal ⟨2, ![N, G]⟩ .f32) (ix2 n g)
      = if v (ix1 n) = BitVec.ofNat 32 g.val then (1 : EReal) else 0 := by
  show (((IntOp.cmpi .eq
      (broadcastInDim ⟨2, ![N, G]⟩ ![0, 1] h₂ (broadcastInDim ⟨2, ![N, 1]⟩ ![0] h₁ v) (ix2 n g))
      (broadcastInDim ⟨2, ![N, G]⟩ ![0, 1] h₄ (broadcastInDim ⟨2, ![1, G]⟩ ![1] h₃ (iotaInDim ⟨1, ![G]⟩ 32 0)) (ix2 n g))).toNat : ℝ) : EReal) = _
  rw [rows_apply, cols_apply]
  show (((IntOp.cmpi .eq (v (ix1 n)) (BitVec.ofNat 32 g.val)).toNat : ℝ) : EReal) = _
  by_cases hv : v (ix1 n) = BitVec.ofNat 32 g.val
  · rw [if_pos hv, StableHlo.Predicate.cmpi_eq_iff.2 hv]
    simp
  · rw [if_neg hv, eq_zero_of_ne_one (fun h => hv (StableHlo.Predicate.cmpi_eq_iff.1 h))]
    simp

end Layout

/-- THE COLUMN SUMS READ AT `g`: the host's add-reduction of an `[N, G]` array over its rows is, at column `g`, the initial
    value plus the sum down that column. -/
theorem colSums_apply {N G : Nat} (h' : (⟨2, ![N, G]⟩ : Shape).ReducesTo [0] ⟨1, ![G]⟩)
    (h : (⟨2, ![N, G]⟩ : Shape).Reduces [0] ⟨1, ![G]⟩) (x : (⟨2, ![N, G]⟩ : Shape).Idx → EReal) (init : EReal) (g : Fin G) :
    Ideal.hostReduceAdd h' x init (ix1 g) = init + ∑ n : Fin N, x (ix2 n g) := by
  rw [Ideal.hostReduceAdd_single h' h]
  congr 1
  show ∑ k : Fin N, x (h.lift (ix1 g) k) = _
  refine Finset.sum_congr rfl fun k _ => congrArg x ?_
  funext c
  refine Fin.ext ?_
  match c with
  | ⟨0, _⟩ => rfl
  | ⟨1, _⟩ => rfl

/-- A 32-bit word is the word of a number below 2³¹ exactly when it reads, signed, as that number. -/
theorem eq_ofNat_iff_toInt (b : BitVec 32) (g : Nat) (hg : g < 2 ^ 31) : b = BitVec.ofNat 32 g ↔ b.toInt = (g : Int) := by
  constructor
  · rintro rfl
    exact StableHlo.Predicate.toInt_ofNat_small g hg
  · intro h
    apply BitVec.eq_of_toInt_eq
    rw [h, StableHlo.Predicate.toInt_ofNat_small g hg]

end Cert.LibScatterSum

end
-- ==== Proof.PoolValue.lean ====
/-
  The per-graph sums two ways: as the product of the membership matrix's transpose with the node features, and
  as an accumulating scatter of the feature rows along the graph ids; likewise the per-graph counts as the
  membership matrix's column sums and as an accumulating scatter of ones. A graph id outside `[0, 64)` matches no
  column of the membership matrix and is dropped by the scatter, so the two agree for every id.
-/
import proofs.«424942_j10471130267878_1_alg».proof.Proof.Spec
import proofs.«424942_j10471130267878_1_alg».proof.Proof.HostTerms
import proofs.«424942_j10471130267878_1_alg».proof.Proof.KHostTerms
import proofs.«424942_j10471130267878_1_alg».proof.Proof.LibScatterSum
import Idealize.ShloMosaic.PureOps.Ideal.Laws
import Idealize.ShloMosaic.Lib.ValueIdx
import Idealize.ShloMosaic.Lib.IdealHost

noncomputable section

namespace Cert.PoolValue

open Idealize.ShloMosaic Idealize.ShloMosaic.ValueIdx Cert.GnnSpec Cert.LibScatterSum

variable [Cert.KernelIdeal.Facts₀] [Cert.ReferenceIdeal.Facts₀]

/-- The graph ids as a column, as both scatters read them: row `n` holds `batch n`. -/
theorem batchCol_apply (batch : (⟨Cert.ReferenceIdeal.S100000, .i32⟩ : BufTy).Contents (Elt Ideal)) (n : Fin 100000) :
    (broadcastInDim Cert.ReferenceIdeal.S100000x1 ![0] Cert.ReferenceIdeal.Facts₀.bcast_S100000_S100000x1_0 batch
      : IVec ⟨2, ![100000, 1]⟩ 32) (ix2 n (0 : Fin 1)) = batch (ix1 n) :=
  col_apply (N := 100000) Cert.ReferenceIdeal.Facts₀.bcast_S100000_S100000x1_0 batch n

/-- Entry `(n, g)` of the membership matrix: one when `batch n`, read signed, is `g`, else zero. -/
theorem member_apply (batch : (⟨Cert.ReferenceIdeal.S100000, .i32⟩ : BufTy).Contents (Elt Ideal)) (n : Fin 100000) (g : Fin 64) :
    Cert.KernelIdeal.HostTerms.member (F := Ideal) batch (ix2 n g)
      = if (batch (ix1 n) : BitVec 32).toInt = (g.val : Int) then (1 : EReal) else 0 := by
  refine (oneHot_apply (N := 100000) (G := 64) Cert.KernelIdeal.Facts₀.bcast_S100000_S100000x1_0
    Cert.KernelIdeal.Facts₀.bcast_S100000x1_S100000x64_0_1 Cert.KernelIdeal.Facts₀.bcast_S64_S1x64_1
    Cert.KernelIdeal.Facts₀.bcast_S1x64_S100000x64_0_1 batch n g).trans ?_
  have hg : g.val < 2 ^ 31 := by have := g.isLt; omega
  by_cases hb : (batch (ix1 n) : BitVec 32).toInt = (g.val : Int)
  · rw [if_pos hb, if_pos ((eq_ofNat_iff_toInt _ _ hg).2 hb)]
  · rw [if_neg hb, if_neg (fun e => hb ((eq_ofNat_iff_toInt _ _ hg).1 e))]

theorem pool_member_eq_sums (h : (⟨Cert.ReferenceIdeal.S100000x128, .f32⟩ : BufTy).Contents (Elt Ideal)) (batch : (⟨Cert.ReferenceIdeal.S100000, .i32⟩ : BufTy).Contents (Elt Ideal)) :
    pool (Cert.KernelIdeal.HostTerms.member (F := Ideal) batch) h = Cert.ReferenceIdeal.HostTerms.sums (F := Ideal) h batch := by
  funext i
  obtain ⟨g, d, rfl⟩ : ∃ (g : Fin 64) (d : Fin 128), i = ix2 g d := ⟨i 0, i 1, eq_ix2 i⟩
  -- the scatter at (g, d): zero plus the feature rows whose graph id is g, at column d
  have hR : Cert.ReferenceIdeal.HostTerms.sums (F := Ideal) h batch (ix2 g d)
      = ∑ n : Fin 100000, if (batch (ix1 n) : BitVec 32).toInt = (g.val : Int) then h (ix2 n d) else 0 := by
    refine (rowScatterAdd_apply (G := 64) (N := 100000) (D := 128)
      Cert.ReferenceIdeal.Facts₀.scatter_S64x128_S100000x1_S100000x128_1_0_0_1_wf _ _ h g d).trans ?_
    rw [broadcastInDim_scalar_apply, constant_apply, Ideal.ofBits_zero_f32, zero_add]
    refine Finset.sum_congr rfl fun n _ => ?_
    rw [batchCol_apply]
  rw [hR, pool_ix2]
  unfold poolAt
  refine Finset.sum_congr rfl fun n _ => ?_
  rw [member_apply]
  by_cases hb : (batch (ix1 n) : BitVec 32).toInt = (g.val : Int)
  · rw [if_pos hb, if_pos hb, one_mul]
  · rw [if_neg hb, if_neg hb, zero_mul]

theorem colSums_member_eq_counts (batch : (⟨Cert.ReferenceIdeal.S100000, .i32⟩ : BufTy).Contents (Elt Ideal)) :
    Cert.KernelIdeal.HostTerms.colSums (F := Ideal) (Cert.KernelIdeal.HostTerms.member (F := Ideal) batch)
      = Cert.ReferenceIdeal.HostTerms.counts (F := Ideal) batch := by
  funext i
  obtain ⟨g, rfl⟩ : ∃ g : Fin 64, i = ix1 g := ⟨i 0, eq_ix1 i⟩
  -- the scatter at g: zero plus a one for every node whose graph id is g
  have hR : Cert.ReferenceIdeal.HostTerms.counts (F := Ideal) batch (ix1 g)
      = ∑ n : Fin 100000, if (batch (ix1 n) : BitVec 32).toInt = (g.val : Int) then (1 : EReal) else 0 := by
    refine (vecScatterAdd_apply (G := 64) (N := 100000)
      Cert.ReferenceIdeal.Facts₀.scatter_S64_S100000x1_S100000_n_0_0_1_wf _ _ _ g).trans ?_
    rw [broadcastInDim_scalar_apply, constant_apply, Ideal.ofBits_zero_f32, zero_add]
    refine Finset.sum_congr rfl fun n _ => ?_
    rw [batchCol_apply, broadcastInDim_scalar_apply, constant_apply, Ideal.ofBits_one_f32]
  -- the column sum at g: zero plus the membership matrix's column g
  have hred : Shape.Reduces ⟨2, ![100000, 64]⟩ [0] ⟨1, ![64]⟩ := by decide
  have hL : Cert.KernelIdeal.HostTerms.colSums (F := Ideal) (Cert.KernelIdeal.HostTerms.member (F := Ideal) batch) (ix1 g)
      = ∑ n : Fin 100000, Cert.KernelIdeal.HostTerms.member (F := Ideal) batch (ix2 n g) := by
    refine (colSums_apply (N := 100000) (G := 64) Cert.KernelIdeal.Facts₀.reducesTo_S100000x64_S64_d0 hred _ _ g).trans ?_
    rw [constant_apply, Ideal.ofBits_zero_f32, zero_add]
  rw [hL, hR]
  exact Finset.sum_congr rfl fun n _ => member_apply batch n g

end Cert.PoolValue

end
-- ==== Proof.KRegion0.lean ====
/-
  Region 0 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue0

open Cert.KernelIdeal Cert.KernelIdeal.Gen Cert.GnnSpec

variable (V : (c : Dev nD) → (b : Ref sig .tc) → Buf (Elt Ideal) ((c : Thread nD τ).loc b))

/-- The five arrays region 0 reads, at their literal types. -/
abbrev aggArr (c : Dev nD) : SNodes.Idx → EReal := V c (Pipeline.arrRef spec0 0)
abbrev hArr (c : Dev nD) : SNodes.Idx → EReal := V c (Pipeline.arrRef spec0 1)
abbrev wrelArr (c : Dev nD) : SWeight.Idx → EReal := V c (Pipeline.arrRef spec0 2)
abbrev wrootArr (c : Dev nD) : SWeight.Idx → EReal := V c (Pipeline.arrRef spec0 3)
abbrev biasArr (c : Dev nD) : SBias.Idx → EReal := V c (Pipeline.arrRef spec0 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k0_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k0_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out0_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out0_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the first row window's block at point t is entry (5000 t + p, k) of its array. -/
theorem agg_block_at (c : Dev nD) (t : Fin cfg0.N) (p : Fin 5000) (k : Fin 128) (n : Fin 100000)
    (hn : n.val = t.val * 5000 + p.val) :
    (iblk0 V c 0 t : S5000x128.Idx → EReal) (ix2 p k) = aggArr V c (ix2 n k) := by
  obtain ⟨e0, e1, -⟩ := idx_facts t
  show V c (Pipeline.arrRef spec0 0) (((cfg0.win 0).blk t).view.emb (ix2 p k)) = V c (Pipeline.arrRef spec0 0) (ix2 n k)
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The same for the second row window. -/
theorem h_block_at (c : Dev nD) (t : Fin cfg0.N) (p : Fin 5000) (k : Fin 128) (n : Fin 100000)
    (hn : n.val = t.val * 5000 + p.val) :
    (iblk0 V c 1 t : S5000x128.Idx → EReal) (ix2 p k) = hArr V c (ix2 n k) := by
  obtain ⟨-, -, e0, e1, -⟩ := idx_facts t
  show V c (Pipeline.arrRef spec0 1) (((cfg0.win 1).blk t).view.emb (ix2 p k)) = V c (Pipeline.arrRef spec0 1) (ix2 n k)
  refine congrArg _ (funext fun a => Fin.ext ?_)
  match a with
  | ⟨0, _⟩ => show win0_1.index t (0 : Fin 2) * 5000 + 1 * p.val = n.val; omega
  | ⟨1, _⟩ => show win0_1.index t (1 : Fin 2) * 128 + 1 * k.val = k.val; omega

/-- The weight windows' one block is the whole matrix. -/
theorem wrel_block_at (c : Dev nD) (t : Fin cfg0.N) (k q : Fin 128) :
    (iblk0 V c 2 t : S128x128.Idx → EReal) (ix2 k q) = wrelArr V c (ix2 k q) := by
  obtain ⟨-, -, -, -, e0, e1, -⟩ := idx_facts t
  show V c (Pipeline.arrRef spec0 2) (((cfg0.win 2).blk t).view.emb (ix2 k q)) = V c (Pipeline.arrRef spec0 2) (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem wroot_block_at (c : Dev nD) (t : Fin cfg0.N) (k q : Fin 128) :
    (iblk0 V c 3 t : S128x128.Idx → EReal) (ix2 k q) = wrootArr V c (ix2 k q) := by
  obtain ⟨-, -, -, -, -, -, e0, e1, -⟩ := idx_facts t
  show V c (Pipeline.arrRef spec0 3) (((cfg0.win 3).blk t).view.emb (ix2 k q)) = V c (Pipeline.arrRef spec0 3) (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias window's one block is the whole row. -/
theorem bias_block_at (c : Dev nD) (t : Fin cfg0.N) (q : Fin 128) :
    (iblk0 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec0 4) (((cfg0.win 4).blk t).view.emb (ix2 (0 : Fin 1) q)) = V c (Pipeline.arrRef spec0 4) (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry (p, q) of the output window's block at point t sits at entry (5000 t + p, q) of the output array. -/
theorem out_emb (t : Fin cfg0.N) (p : Fin 5000) (q : Fin 128) (n : Fin 100000) (hn : n.val = t.val * 5000 + p.val) :
    (((cfg0.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win0_5.index t (0 : Fin 2) * 5000 + 1 * p.val = n.val; omega
  | ⟨1, _⟩ => show win0_5.index t (1 : Fin 2) * 128 + 1 * q.val = q.val; omega

/-- What the body leaves at point t, entry by entry, is the dense step at the array entry the block entry sits at. -/
theorem flushed_at (c : Dev nD) (t : Fin cfg0.N) (j : S5000x128.Idx) :
    (out0_5 (F := Ideal) (iblk0 V c 0 t) (iblk0 V c 1 t) (iblk0 V c 2 t) (iblk0 V c 3 t) (iblk0 V c 4 t) : S5000x128.Idx → EReal) j
      = combine (aggArr V c) (hArr V c) (wrelArr V c) (wrootArr V c) (biasArr V c) (((cfg0.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_0
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk0 V c 0 t) (iblk0 V c 1 t) (iblk0 V c 2 t) (iblk0 V c 3 t) (iblk0 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg0.N) :
    (dat0 (F := Ideal) V c).flushed 5 t
      = ((cfg0.win 5).blk t).view.read (Elt Ideal)
          (combine (aggArr V c) (hArr V c) (wrelArr V c) (wrootArr V c) (biasArr V c)) := by
  show (cfg0.win 5).cut (grid0.coords t) ((dat0 V c).after 5 t) = _
  rw [after0_5]
  funext j
  exact flushed_at V c t j

/-- An index of the output array is in point t's block iff each coordinate is in the block's range on its axis. -/
theorem mem_blk (t : Fin cfg0.N) (i : SNodes.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Row r of the output array is written back by point r / 5000. -/
theorem covered (i : SNodes.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_5 _, ?_⟩
  obtain ⟨-, -, -, -, -, -, -, -, -, -, e0, e1⟩ := idx_facts ⟨(i 0).val / 5000, by rw [hN]; omega⟩
  rw [mem_blk]
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [e1]; omega

/-- After region 0 its output array holds the layer's dense step of the arrays it read. -/
theorem out_array (c : Dev nD) :
    ((dat0 (F := Ideal) V c).arrAt 5 cfg0.N : SNodes.Idx → EReal)
      = combine (aggArr V c) (hArr V c) (wrelArr V c) (wrootArr V c) (biasArr V c) :=
  (dat0 (F := Ideal) V c).arrAt_eq_of_cover 5
    (combine (aggArr V c) (hArr V c) (wrelArr V c) (wrootArr V c) (biasArr V c))
    (fun t _ => flushed_eq V c t) covered

end Cert.KernelIdeal.RegionValue0

end
-- ==== Proof.KRegion1.lean ====
/-
  Region 1 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue1

open Cert.KernelIdeal Cert.KernelIdeal.Gen Cert.GnnSpec

variable (V : (c : Dev nD) → (b : Ref sig .tc) → Buf (Elt Ideal) ((c : Thread nD τ).loc b))

/-- The five arrays region 1 reads, at their literal types. -/
abbrev aggArr (c : Dev nD) : SNodes.Idx → EReal := V c (Pipeline.arrRef spec1 0)
abbrev hArr (c : Dev nD) : SNodes.Idx → EReal := V c (Pipeline.arrRef spec1 1)
abbrev wrelArr (c : Dev nD) : SWeight.Idx → EReal := V c (Pipeline.arrRef spec1 2)
abbrev wrootArr (c : Dev nD) : SWeight.Idx → EReal := V c (Pipeline.arrRef spec1 3)
abbrev biasArr (c : Dev nD) : SBias.Idx → EReal := V c (Pipeline.arrRef spec1 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k1_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k1_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out1_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out1_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the first row window's block at point t is entry (5000 t + p, k) of its array. -/
theorem agg_block_at (c : Dev nD) (t : Fin cfg1.N) (p : Fin 5000) (k : Fin 128) (n : Fin 100000)
    (hn : n.val = t.val * 5000 + p.val) :
    (iblk1 V c 0 t : S5000x128.Idx → EReal) (ix2 p k) = aggArr V c (ix2 n k) := by
  obtain ⟨e0, e1, -⟩ := idx_facts t
  show V c (Pipeline.arrRef spec1 0) (((cfg1.win 0).blk t).view.emb (ix2 p k)) = V c (Pipeline.arrRef spec1 0) (ix2 n k)
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- The same for the second row window. -/
theorem h_block_at (c : Dev nD) (t : Fin cfg1.N) (p : Fin 5000) (k : Fin 128) (n : Fin 100000)
    (hn : n.val = t.val * 5000 + p.val) :
    (iblk1 V c 1 t : S5000x128.Idx → EReal) (ix2 p k) = hArr V c (ix2 n k) := by
  obtain ⟨-, -, e0, e1, -⟩ := idx_facts t
  show V c (Pipeline.arrRef spec1 1) (((cfg1.win 1).blk t).view.emb (ix2 p k)) = V c (Pipeline.arrRef spec1 1) (ix2 n k)
  refine congrArg _ (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- The weight windows' one block is the whole matrix. -/
theorem wrel_block_at (c : Dev nD) (t : Fin cfg1.N) (k q : Fin 128) :
    (iblk1 V c 2 t : S128x128.Idx → EReal) (ix2 k q) = wrelArr V c (ix2 k q) := by
  obtain ⟨-, -, -, -, e0, e1, -⟩ := idx_facts t
  show V c (Pipeline.arrRef spec1 2) (((cfg1.win 2).blk t).view.emb (ix2 k q)) = V c (Pipeline.arrRef spec1 2) (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem wroot_block_at (c : Dev nD) (t : Fin cfg1.N) (k q : Fin 128) :
    (iblk1 V c 3 t : S128x128.Idx → EReal) (ix2 k q) = wrootArr V c (ix2 k q) := by
  obtain ⟨-, -, -, -, -, -, e0, e1, -⟩ := idx_facts t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias window's one block is the whole row. -/
theorem bias_block_at (c : Dev nD) (t : Fin cfg1.N) (q : Fin 128) :
    (iblk1 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec1 4) (((cfg1.win 4).blk t).view.emb (ix2 (0 : Fin 1) q)) = V c (Pipeline.arrRef spec1 4) (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Entry (p, q) of the output window's block at point t sits at entry (5000 t + p, q) of the output array. -/
theorem out_emb (t : Fin cfg1.N) (p : Fin 5000) (q : Fin 128) (n : Fin 100000) (hn : n.val = t.val * 5000 + p.val) :
    (((cfg1.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win1_5.index t (0 : Fin 2) * 5000 + 1 * p.val = n.val; omega
  | ⟨1, _⟩ => show win1_5.index t (1 : Fin 2) * 128 + 1 * q.val = q.val; omega

/-- What the body leaves at point t, entry by entry, is the dense step at the array entry the block entry sits at. -/
theorem flushed_at (c : Dev nD) (t : Fin cfg1.N) (j : S5000x128.Idx) :
    (out1_5 (F := Ideal) (iblk1 V c 0 t) (iblk1 V c 1 t) (iblk1 V c 2 t) (iblk1 V c 3 t) (iblk1 V c 4 t) : S5000x128.Idx → EReal) j
      = combine (aggArr V c) (hArr V c) (wrelArr V c) (wrootArr V c) (biasArr V c) (((cfg1.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk1 V c 0 t) (iblk1 V c 1 t) (iblk1 V c 2 t) (iblk1 V c 3 t) (iblk1 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg1.N) :
    (dat1 (F := Ideal) V c).flushed 5 t
      = ((cfg1.win 5).blk t).view.read (Elt Ideal)
          (combine (aggArr V c) (hArr V c) (wrelArr V c) (wrootArr V c) (biasArr V c)) := by
  show (cfg1.win 5).cut (grid1.coords t) ((dat1 V c).after 5 t) = _
  rw [after1_5]
  funext j
  exact flushed_at V c t j

/-- An index of the output array is in point t's block iff each coordinate is in the block's range on its axis. -/
theorem mem_blk (t : Fin cfg1.N) (i : SNodes.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Row r of the output array is written back by point r / 5000. -/
theorem covered (i : SNodes.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 20 := N_1
  refine ⟨⟨(i 0).val / 5000, by rw [hN]; omega⟩, flush1_5 _, ?_⟩
  obtain ⟨-, -, -, -, -, -, -, -, -, -, e0, e1⟩ := idx_facts ⟨(i 0).val / 5000, by rw [hN]; omega⟩
  rw [mem_blk]
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- After region 1 its output array holds the layer's dense step of the arrays it read. -/
theorem out_array (c : Dev nD) :
    ((dat1 (F := Ideal) V c).arrAt 5 cfg1.N : SNodes.Idx → EReal)
      = combine (aggArr V c) (hArr V c) (wrelArr V c) (wrootArr V c) (biasArr V c) :=
  (dat1 (F := Ideal) V c).arrAt_eq_of_cover 5
    (combine (aggArr V c) (hArr V c) (wrelArr V c) (wrootArr V c) (biasArr V c))
    (fun t _ => flushed_eq V c t) covered

end Cert.KernelIdeal.RegionValue1

end
-- ==== Proof.KRegion2.lean ====
/-
  Region 2 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue2

open Cert.KernelIdeal Cert.KernelIdeal.Gen Cert.GnnSpec

variable (V : (c : Dev nD) → (b : Ref sig .tc) → Buf (Elt Ideal) ((c : Thread nD τ).loc b))

/-- The five arrays region 2 reads, at their literal types. -/
abbrev aggArr (c : Dev nD) : SNodes.Idx → EReal := V c (Pipeline.arrRef spec2 0)
abbrev hArr (c : Dev nD) : SNodes.Idx → EReal := V c (Pipeline.arrRef spec2 1)
abbrev wrelArr (c : Dev nD) : SWeight.Idx → EReal := V c (Pipeline.arrRef spec2 2)
abbrev wrootArr (c : Dev nD) : SWeight.Idx → EReal := V c (Pipeline.arrRef spec2 3)
abbrev biasArr (c : Dev nD) : SBias.Idx → EReal := V c (Pipeline.arrRef spec2 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k2_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k2_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out2_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out2_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, k) of the first row window's block at point t is entry (5000 t + p, k) of its array. -/
theorem agg_block_at (c : Dev nD) (t : Fin cfg2.N) (p : Fin 5000) (k : Fin 128) (n : Fin 100000)
    (hn : n.val = t.val * 5000 + p.val) :
    (iblk2 V c 0 t : S5000x128.Idx → EReal) (ix2 p k) = aggArr V c (ix2 n k) := by
  obtain ⟨e0, e1, -⟩ := idx_facts t
  show V c (Pipeline.arrRef spec2 0) (((cfg2.win 0).blk t).view.emb (ix2 p k)) = V c (Pipeline.arrRef spec2 0) (ix2 n k)
  refine congrArg _ (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

/-- The same for the second row window. -/
theorem h_block_at (c : Dev nD) (t : Fin cfg2.N) (p : Fin 5000) (k : Fin 128) (n : Fin 100000)
    (hn : n.val = t.val * 5000 + p.val) :
    (iblk2 V c 1 t : S5000x128.Idx → EReal) (ix2 p k) = hArr V c (ix2 n k) := by
  obtain ⟨-, -, e0, e1, -⟩ := idx_facts t
  show V c (Pipeline.arrRef spec2 1) (((cfg2.win 1).blk t).view.emb (ix2 p k)) = V c (Pipeline.arrRef spec2 1) (ix2 n k)
  refine congrArg _ (funext fun a => Fin.ext ?_)
  match a with
  | ⟨0, _⟩ => show win2_1.index t (0 : Fin 2) * 5000 + 1 * p.val = n.val; omega
  | ⟨1, _⟩ => show win2_1.index t (1 : Fin 2) * 128 + 1 * k.val = k.val; omega

/-- The weight windows' one block is the whole matrix. -/
theorem wrel_block_at (c : Dev nD) (t : Fin cfg2.N) (k q : Fin 128) :
    (iblk2 V c 2 t : S128x128.Idx → EReal) (ix2 k q) = wrelArr V c (ix2 k q) := by
  obtain ⟨-, -, -, -, e0, e1, -⟩ := idx_facts t
  show V c (Pipeline.arrRef spec2 2) (((cfg2.win 2).blk t).view.emb (ix2 k q)) = V c (Pipeline.arrRef spec2 2) (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem wroot_block_at (c : Dev nD) (t : Fin cfg2.N) (k q : Fin 128) :
    (iblk2 V c 3 t : S128x128.Idx → EReal) (ix2 k q) = wrootArr V c (ix2 k q) := by
  obtain ⟨-, -, -, -, -, -, e0, e1, -⟩ := idx_facts t
  show V c (Pipeline.arrRef spec2 3) (((cfg2.win 3).blk t).view.emb (ix2 k q)) = V c (Pipeline.arrRef spec2 3) (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias window's one block is the whole row. -/
theorem bias_block_at (c : Dev nD) (t : Fin cfg2.N) (q : Fin 128) :
    (iblk2 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec2 4) (((cfg2.win 4).blk t).view.emb (ix2 (0 : Fin 1) q)) = V c (Pipeline.arrRef spec2 4) (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Entry (p, q) of the output window's block at point t sits at entry (5000 t + p, q) of the output array. -/
theorem out_emb (t : Fin cfg2.N) (p : Fin 5000) (q : Fin 128) (n : Fin 100000) (hn : n.val = t.val * 5000 + p.val) :
    (((cfg2.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win2_5.index t (0 : Fin 2) * 5000 + 1 * p.val = n.val; omega
  | ⟨1, _⟩ => show win2_5.index t (1 : Fin 2) * 128 + 1 * q.val = q.val; omega

/-- What the body leaves at point t, entry by entry, is the dense step at the array entry the block entry sits at. -/
theorem flushed_at (c : Dev nD) (t : Fin cfg2.N) (j : S5000x128.Idx) :
    (out2_5 (F := Ideal) (iblk2 V c 0 t) (iblk2 V c 1 t) (iblk2 V c 2 t) (iblk2 V c 3 t) (iblk2 V c 4 t) : S5000x128.Idx → EReal) j
      = combine (aggArr V c) (hArr V c) (wrelArr V c) (wrootArr V c) (biasArr V c) (((cfg2.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_2
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk2 V c 0 t) (iblk2 V c 1 t) (iblk2 V c 2 t) (iblk2 V c 3 t) (iblk2 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg2.N) :
    (dat2 (F := Ideal) V c).flushed 5 t
      = ((cfg2.win 5).blk t).view.read (Elt Ideal)
          (combine (aggArr V c) (hArr V c) (wrelArr V c) (wrootArr V c) (biasArr V c)) := by
  show (cfg2.win 5).cut (grid2.coords t) ((dat2 V c).after 5 t) = _
  rw [after2_5]
  funext j
  exact flushed_at V c t j

/-- An index of the output array is in point t's block iff each coordinate is in the block's range on its axis. -/
theorem mem_blk (t : Fin cfg2.N) (i : SNodes.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Row r of the output array is written back by point r / 5000. -/
theorem covered (i : SNodes.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  refine ⟨⟨(i 0).val / 5000, by rw [hN]; omega⟩, flush2_5 _, ?_⟩
  obtain ⟨-, -, -, -, -, -, -, -, -, -, e0, e1⟩ := idx_facts ⟨(i 0).val / 5000, by rw [hN]; omega⟩
  rw [mem_blk]
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ (i 0).val ∧ (i 0).val < (i 0).val / 5000 * 5000 + 5000; omega
  | ⟨1, _⟩ => show win2_5.index _ (1 : Fin 2) * 128 ≤ (i 1).val ∧ (i 1).val < win2_5.index _ (1 : Fin 2) * 128 + 128; rw [e1]; omega

/-- After region 2 its output array holds the layer's dense step of the arrays it read. -/
theorem out_array (c : Dev nD) :
    ((dat2 (F := Ideal) V c).arrAt 5 cfg2.N : SNodes.Idx → EReal)
      = combine (aggArr V c) (hArr V c) (wrelArr V c) (wrootArr V c) (biasArr V c) :=
  (dat2 (F := Ideal) V c).arrAt_eq_of_cover 5
    (combine (aggArr V c) (hArr V c) (wrelArr V c) (wrootArr V c) (biasArr V c))
    (fun t _ => flushed_eq V c t) covered

end Cert.KernelIdeal.RegionValue2

end
-- ==== Proof.KRegion3.lean ====
/-
  Region 3 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue3

open Cert.KernelIdeal Cert.KernelIdeal.Gen Cert.GnnSpec

variable (V : (c : Dev nD) → (b : Ref sig .tc) → Buf (Elt Ideal) ((c : Thread nD τ).loc b))

/-- The five arrays region 3 reads, at their literal types. -/
abbrev aggArr (c : Dev nD) : SNodes.Idx → EReal := V c (Pipeline.arrRef spec3 0)
abbrev hArr (c : Dev nD) : SNodes.Idx → EReal := V c (Pipeline.arrRef spec3 1)
abbrev wrelArr (c : Dev nD) : SWeight.Idx → EReal := V c (Pipeline.arrRef spec3 2)
abbrev wrootArr (c : Dev nD) : SWeight.Idx → EReal := V c (Pipeline.arrRef spec3 3)
abbrev biasArr (c : Dev nD) : SBias.Idx → EReal := V c (Pipeline.arrRef spec3 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k3_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k3_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out3_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out3_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, k) of the first row window's block at point t is entry (5000 t + p, k) of its array. -/
theorem agg_block_at (c : Dev nD) (t : Fin cfg3.N) (p : Fin 5000) (k : Fin 128) (n : Fin 100000)
    (hn : n.val = t.val * 5000 + p.val) :
    (iblk3 V c 0 t : S5000x128.Idx → EReal) (ix2 p k) = aggArr V c (ix2 n k) := by
  obtain ⟨e0, e1, -⟩ := idx_facts t
  show V c (Pipeline.arrRef spec3 0) (((cfg3.win 0).blk t).view.emb (ix2 p k)) = V c (Pipeline.arrRef spec3 0) (ix2 n k)
  refine congrArg _ (funext fun a => Fin.ext ?_)
  match a with
  | ⟨0, _⟩ => show win3_0.index t (0 : Fin 2) * 5000 + 1 * p.val = n.val; omega
  | ⟨1, _⟩ => show win3_0.index t (1 : Fin 2) * 128 + 1 * k.val = k.val; omega

/-- The same for the second row window. -/
theorem h_block_at (c : Dev nD) (t : Fin cfg3.N) (p : Fin 5000) (k : Fin 128) (n : Fin 100000)
    (hn : n.val = t.val * 5000 + p.val) :
    (iblk3 V c 1 t : S5000x128.Idx → EReal) (ix2 p k) = hArr V c (ix2 n k) := by
  obtain ⟨-, -, e0, e1, -⟩ := idx_facts t
  show V c (Pipeline.arrRef spec3 1) (((cfg3.win 1).blk t).view.emb (ix2 p k)) = V c (Pipeline.arrRef spec3 1) (ix2 n k)
  refine congrArg _ (funext fun a => Fin.ext ?_)
  match a with
  | ⟨0, _⟩ => show win3_1.index t (0 : Fin 2) * 5000 + 1 * p.val = n.val; omega
  | ⟨1, _⟩ => show win3_1.index t (1 : Fin 2) * 128 + 1 * k.val = k.val; omega

/-- The weight windows' one block is the whole matrix. -/
theorem wrel_block_at (c : Dev nD) (t : Fin cfg3.N) (k q : Fin 128) :
    (iblk3 V c 2 t : S128x128.Idx → EReal) (ix2 k q) = wrelArr V c (ix2 k q) := by
  obtain ⟨-, -, -, -, e0, e1, -⟩ := idx_facts t
  show V c (Pipeline.arrRef spec3 2) (((cfg3.win 2).blk t).view.emb (ix2 k q)) = V c (Pipeline.arrRef spec3 2) (ix2 k q)
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem wroot_block_at (c : Dev nD) (t : Fin cfg3.N) (k q : Fin 128) :
    (iblk3 V c 3 t : S128x128.Idx → EReal) (ix2 k q) = wrootArr V c (ix2 k q) := by
  obtain ⟨-, -, -, -, -, -, e0, e1, -⟩ := idx_facts t
  show V c (Pipeline.arrRef spec3 3) (((cfg3.win 3).blk t).view.emb (ix2 k q)) = V c (Pipeline.arrRef spec3 3) (ix2 k q)
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias window's one block is the whole row. -/
theorem bias_block_at (c : Dev nD) (t : Fin cfg3.N) (q : Fin 128) :
    (iblk3 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec3 4) (((cfg3.win 4).blk t).view.emb (ix2 (0 : Fin 1) q)) = V c (Pipeline.arrRef spec3 4) (ix2 (0 : Fin 1) q)
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- Entry (p, q) of the output window's block at point t sits at entry (5000 t + p, q) of the output array. -/
theorem out_emb (t : Fin cfg3.N) (p : Fin 5000) (q : Fin 128) (n : Fin 100000) (hn : n.val = t.val * 5000 + p.val) :
    (((cfg3.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win3_5.index t (0 : Fin 2) * 5000 + 1 * p.val = n.val; omega
  | ⟨1, _⟩ => show win3_5.index t (1 : Fin 2) * 128 + 1 * q.val = q.val; omega

/-- What the body leaves at point t, entry by entry, is the dense step at the array entry the block entry sits at. -/
theorem flushed_at (c : Dev nD) (t : Fin cfg3.N) (j : S5000x128.Idx) :
    (out3_5 (F := Ideal) (iblk3 V c 0 t) (iblk3 V c 1 t) (iblk3 V c 2 t) (iblk3 V c 3 t) (iblk3 V c 4 t) : S5000x128.Idx → EReal) j
      = combine (aggArr V c) (hArr V c) (wrelArr V c) (wrootArr V c) (biasArr V c) (((cfg3.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_3
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk3 V c 0 t) (iblk3 V c 1 t) (iblk3 V c 2 t) (iblk3 V c 3 t) (iblk3 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg3.N) :
    (dat3 (F := Ideal) V c).flushed 5 t
      = ((cfg3.win 5).blk t).view.read (Elt Ideal)
          (combine (aggArr V c) (hArr V c) (wrelArr V c) (wrootArr V c) (biasArr V c)) := by
  show (cfg3.win 5).cut (grid3.coords t) ((dat3 V c).after 5 t) = _
  rw [after3_5]
  funext j
  exact flushed_at V c t j

/-- An index of the output array is in point t's block iff each coordinate is in the block's range on its axis. -/
theorem mem_blk (t : Fin cfg3.N) (i : SNodes.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Row r of the output array is written back by point r / 5000. -/
theorem covered (i : SNodes.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 20 := N_3
  refine ⟨⟨(i 0).val / 5000, by rw [hN]; omega⟩, flush3_5 _, ?_⟩
  obtain ⟨-, -, -, -, -, -, -, -, -, -, e0, e1⟩ := idx_facts ⟨(i 0).val / 5000, by rw [hN]; omega⟩
  rw [mem_blk]
  intro a
  match a with
  | ⟨0, _⟩ => show win3_5.index _ (0 : Fin 2) * 5000 ≤ (i 0).val ∧ (i 0).val < win3_5.index _ (0 : Fin 2) * 5000 + 5000; rw [e0]; show (i 0).val / 5000 * 5000 ≤ (i 0).val ∧ (i 0).val < (i 0).val / 5000 * 5000 + 5000; omega
  | ⟨1, _⟩ => show win3_5.index _ (1 : Fin 2) * 128 ≤ (i 1).val ∧ (i 1).val < win3_5.index _ (1 : Fin 2) * 128 + 128; rw [e1]; omega

/-- After region 3 its output array holds the layer's dense step of the arrays it read. -/
theorem out_array (c : Dev nD) :
    ((dat3 (F := Ideal) V c).arrAt 5 cfg3.N : SNodes.Idx → EReal)
      = combine (aggArr V c) (hArr V c) (wrelArr V c) (wrootArr V c) (biasArr V c) :=
  (dat3 (F := Ideal) V c).arrAt_eq_of_cover 5
    (combine (aggArr V c) (hArr V c) (wrelArr V c) (wrootArr V c) (biasArr V c))
    (fun t _ => flushed_eq V c t) covered

end Cert.KernelIdeal.RegionValue3

end
-- ==== Proof.KRegion4.lean ====
/-
  Region 4 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue4

open Cert.KernelIdeal Cert.KernelIdeal.Gen Cert.GnnSpec

variable (V : (c : Dev nD) → (b : Ref sig .tc) → Buf (Elt Ideal) ((c : Thread nD τ).loc b))

/-- The five arrays region 4 reads, at their literal types. -/
abbrev aggArr (c : Dev nD) : SNodes.Idx → EReal := V c (Pipeline.arrRef spec4 0)
abbrev hArr (c : Dev nD) : SNodes.Idx → EReal := V c (Pipeline.arrRef spec4 1)
abbrev wrelArr (c : Dev nD) : SWeight.Idx → EReal := V c (Pipeline.arrRef spec4 2)
abbrev wrootArr (c : Dev nD) : SWeight.Idx → EReal := V c (Pipeline.arrRef spec4 3)
abbrev biasArr (c : Dev nD) : SBias.Idx → EReal := V c (Pipeline.arrRef spec4 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k4_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k4_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out4_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out4_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Entry (p, k) of the first row window's block at point t is entry (5000 t + p, k) of its array. -/
theorem agg_block_at (c : Dev nD) (t : Fin cfg4.N) (p : Fin 5000) (k : Fin 128) (n : Fin 100000)
    (hn : n.val = t.val * 5000 + p.val) :
    (iblk4 V c 0 t : S5000x128.Idx → EReal) (ix2 p k) = aggArr V c (ix2 n k) := by
  obtain ⟨e0, e1, -⟩ := idx_facts t
  show V c (Pipeline.arrRef spec4 0) (((cfg4.win 0).blk t).view.emb (ix2 p k)) = V c (Pipeline.arrRef spec4 0) (ix2 n k)
  refine congrArg _ (funext fun a => Fin.ext ?_)
  match a with
  | ⟨0, _⟩ => show win4_0.index t (0 : Fin 2) * 5000 + 1 * p.val = n.val; omega
  | ⟨1, _⟩ => show win4_0.index t (1 : Fin 2) * 128 + 1 * k.val = k.val; omega

/-- The same for the second row window. -/
theorem h_block_at (c : Dev nD) (t : Fin cfg4.N) (p : Fin 5000) (k : Fin 128) (n : Fin 100000)
    (hn : n.val = t.val * 5000 + p.val) :
    (iblk4 V c 1 t : S5000x128.Idx → EReal) (ix2 p k) = hArr V c (ix2 n k) := by
  obtain ⟨-, -, e0, e1, -⟩ := idx_facts t
  show V c (Pipeline.arrRef spec4 1) (((cfg4.win 1).blk t).view.emb (ix2 p k)) = V c (Pipeline.arrRef spec4 1) (ix2 n k)
  refine congrArg _ (funext fun a => Fin.ext ?_)
  match a with
  | ⟨0, _⟩ => show win4_1.index t (0 : Fin 2) * 5000 + 1 * p.val = n.val; omega
  | ⟨1, _⟩ => show win4_1.index t (1 : Fin 2) * 128 + 1 * k.val = k.val; omega

/-- The weight windows' one block is the whole matrix. -/
theorem wrel_block_at (c : Dev nD) (t : Fin cfg4.N) (k q : Fin 128) :
    (iblk4 V c 2 t : S128x128.Idx → EReal) (ix2 k q) = wrelArr V c (ix2 k q) := by
  obtain ⟨-, -, -, -, e0, e1, -⟩ := idx_facts t
  show V c (Pipeline.arrRef spec4 2) (((cfg4.win 2).blk t).view.emb (ix2 k q)) = V c (Pipeline.arrRef spec4 2) (ix2 k q)
  refine congrArg _ (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

theorem wroot_block_at (c : Dev nD) (t : Fin cfg4.N) (k q : Fin 128) :
    (iblk4 V c 3 t : S128x128.Idx → EReal) (ix2 k q) = wrootArr V c (ix2 k q) := by
  obtain ⟨-, -, -, -, -, -, e0, e1, -⟩ := idx_facts t
  show V c (Pipeline.arrRef spec4 3) (((cfg4.win 3).blk t).view.emb (ix2 k q)) = V c (Pipeline.arrRef spec4 3) (ix2 k q)
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-- The bias window's one block is the whole row. -/
theorem bias_block_at (c : Dev nD) (t : Fin cfg4.N) (q : Fin 128) :
    (iblk4 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec4 4) (((cfg4.win 4).blk t).view.emb (ix2 (0 : Fin 1) q)) = V c (Pipeline.arrRef spec4 4) (ix2 (0 : Fin 1) q)
  refine congrArg _ (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

/-- Entry (p, q) of the output window's block at point t sits at entry (5000 t + p, q) of the output array. -/
theorem out_emb (t : Fin cfg4.N) (p : Fin 5000) (q : Fin 128) (n : Fin 100000) (hn : n.val = t.val * 5000 + p.val) :
    (((cfg4.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win4_5.index t (0 : Fin 2) * 5000 + 1 * p.val = n.val; omega
  | ⟨1, _⟩ => show win4_5.index t (1 : Fin 2) * 128 + 1 * q.val = q.val; omega

/-- What the body leaves at point t, entry by entry, is the dense step at the array entry the block entry sits at. -/
theorem flushed_at (c : Dev nD) (t : Fin cfg4.N) (j : S5000x128.Idx) :
    (out4_5 (F := Ideal) (iblk4 V c 0 t) (iblk4 V c 1 t) (iblk4 V c 2 t) (iblk4 V c 3 t) (iblk4 V c 4 t) : S5000x128.Idx → EReal) j
      = combine (aggArr V c) (hArr V c) (wrelArr V c) (wrootArr V c) (biasArr V c) (((cfg4.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_4
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk4 V c 0 t) (iblk4 V c 1 t) (iblk4 V c 2 t) (iblk4 V c 3 t) (iblk4 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg4.N) :
    (dat4 (F := Ideal) V c).flushed 5 t
      = ((cfg4.win 5).blk t).view.read (Elt Ideal)
          (combine (aggArr V c) (hArr V c) (wrelArr V c) (wrootArr V c) (biasArr V c)) := by
  show (cfg4.win 5).cut (grid4.coords t) ((dat4 V c).after 5 t) = _
  rw [after4_5]
  funext j
  exact flushed_at V c t j

/-- An index of the output array is in point t's block iff each coordinate is in the block's range on its axis. -/
theorem mem_blk (t : Fin cfg4.N) (i : SNodes.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole (Pipeline.arrRef spec4 5)).slice (win4_5.rect t)).set ↔ _
  rw [View.set_slice_whole, Rect.mem_set_unit]
  exact Iff.rfl

/-- Row r of the output array is written back by point r / 5000. -/
theorem covered (i : SNodes.Idx) :
    ∃ t : Fin cfg4.N, (cfg4.win 5).flush t = true ∧ i ∈ ((cfg4.win 5).blk t).view.set := by
  have hi0 : (i 0).val < 100000 := idx2_lt0 i
  have hi1 : (i 1).val < 128 := idx2_lt1 i
  have hN : cfg4.N = 20 := N_4
  refine ⟨⟨(i 0).val / 5000, by rw [hN]; omega⟩, flush4_5 _, ?_⟩
  obtain ⟨-, -, -, -, -, -, -, -, -, -, e0, e1⟩ := idx_facts ⟨(i 0).val / 5000, by rw [hN]; omega⟩
  rw [mem_blk]
  intro a
  match a with
  | ⟨0, _⟩ => show win4_5.index _ (0 : Fin 2) * 5000 ≤ (i 0).val ∧ (i 0).val < win4_5.index _ (0 : Fin 2) * 5000 + 5000; rw [e0]; show (i 0).val / 5000 * 5000 ≤ (i 0).val ∧ (i 0).val < (i 0).val / 5000 * 5000 + 5000; omega
  | ⟨1, _⟩ => show win4_5.index _ (1 : Fin 2) * 128 ≤ (i 1).val ∧ (i 1).val < win4_5.index _ (1 : Fin 2) * 128 + 128; rw [e1]; omega

/-- After region 4 its output array holds the layer's dense step of the arrays it read. -/
theorem out_array (c : Dev nD) :
    ((dat4 (F := Ideal) V c).arrAt 5 cfg4.N : SNodes.Idx → EReal)
      = combine (aggArr V c) (hArr V c) (wrelArr V c) (wrootArr V c) (biasArr V c) :=
  (dat4 (F := Ideal) V c).arrAt_eq_of_cover 5
    (combine (aggArr V c) (hArr V c) (wrelArr V c) (wrootArr V c) (biasArr V c))
    (fun t _ => flushed_eq V c t) covered

end Cert.KernelIdeal.RegionValue4

end
-- ==== Proof.KRegion5.lean ====
/-
  Region 5 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue5

open Cert.KernelIdeal Cert.KernelIdeal.Gen Cert.GnnSpec

variable (V : (c : Dev nD) → (b : Ref sig .tc) → Buf (Elt Ideal) ((c : Thread nD τ).loc b))

/-- The five arrays region 5 reads, at their literal types. -/
abbrev aggArr (c : Dev nD) : SNodes.Idx → EReal := V c (Pipeline.arrRef spec5 0)
abbrev hArr (c : Dev nD) : SNodes.Idx → EReal := V c (Pipeline.arrRef spec5 1)
abbrev wrelArr (c : Dev nD) : SWeight.Idx → EReal := V c (Pipeline.arrRef spec5 2)
abbrev wrootArr (c : Dev nD) : SWeight.Idx → EReal := V c (Pipeline.arrRef spec5 3)
abbrev biasArr (c : Dev nD) : SBias.Idx → EReal := V c (Pipeline.arrRef spec5 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k5_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k5_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out5_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out5_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, k) of the first row window's block at point t is entry (5000 t + p, k) of its array. -/
theorem agg_block_at (c : Dev nD) (t : Fin cfg5.N) (p : Fin 5000) (k : Fin 128) (n : Fin 100000)
    (hn : n.val = t.val * 5000 + p.val) :
    (iblk5 V c 0 t : S5000x128.Idx → EReal) (ix2 p k) = aggArr V c (ix2 n k) := by
  obtain ⟨e0, e1, -⟩ := idx_facts t
  show V c (Pipeline.arrRef spec5 0) (((cfg5.win 0).blk t).view.emb (ix2 p k)) = V c (Pipeline.arrRef spec5 0) (ix2 n k)
  refine congrArg _ (funext fun a => Fin.ext ?_)
  match a with
  | ⟨0, _⟩ => show win5_0.index t (0 : Fin 2) * 5000 + 1 * p.val = n.val; omega
  | ⟨1, _⟩ => show win5_0.index t (1 : Fin 2) * 128 + 1 * k.val = k.val; omega

/-- The same for the second row window. -/
theorem h_block_at (c : Dev nD) (t : Fin cfg5.N) (p : Fin 5000) (k : Fin 128) (n : Fin 100000)
    (hn : n.val = t.val * 5000 + p.val) :
    (iblk5 V c 1 t : S5000x128.Idx → EReal) (ix2 p k) = hArr V c (ix2 n k) := by
  obtain ⟨-, -, e0, e1, -⟩ := idx_facts t
  show V c (Pipeline.arrRef spec5 1) (((cfg5.win 1).blk t).view.emb (ix2 p k)) = V c (Pipeline.arrRef spec5 1) (ix2 n k)
  refine congrArg _ (funext fun a => Fin.ext ?_)
  match a with
  | ⟨0, _⟩ => show win5_1.index t (0 : Fin 2) * 5000 + 1 * p.val = n.val; omega
  | ⟨1, _⟩ => show win5_1.index t (1 : Fin 2) * 128 + 1 * k.val = k.val; omega

/-- The weight windows' one block is the whole matrix. -/
theorem wrel_block_at (c : Dev nD) (t : Fin cfg5.N) (k q : Fin 128) :
    (iblk5 V c 2 t : S128x128.Idx → EReal) (ix2 k q) = wrelArr V c (ix2 k q) := by
  obtain ⟨-, -, -, -, e0, e1, -⟩ := idx_facts t
  show V c (Pipeline.arrRef spec5 2) (((cfg5.win 2).blk t).view.emb (ix2 k q)) = V c (Pipeline.arrRef spec5 2) (ix2 k q)
  refine congrArg _ (funext fun a => Fin.ext ?_)
  match a with
  | ⟨0, _⟩ => show win5_2.index t (0 : Fin 2) * 128 + 1 * k.val = k.val; omega
  | ⟨1, _⟩ => show win5_2.index t (1 : Fin 2) * 128 + 1 * q.val = q.val; omega

theorem wroot_block_at (c : Dev nD) (t : Fin cfg5.N) (k q : Fin 128) :
    (iblk5 V c 3 t : S128x128.Idx → EReal) (ix2 k q) = wrootArr V c (ix2 k q) := by
  obtain ⟨-, -, -, -, -, -, e0, e1, -⟩ := idx_facts t
  show V c (Pipeline.arrRef spec5 3) (((cfg5.win 3).blk t).view.emb (ix2 k q)) = V c (Pipeline.arrRef spec5 3) (ix2 k q)
  refine congrArg _ (funext fun a => Fin.ext ?_)
  match a with
  | ⟨0, _⟩ => show win5_3.index t (0 : Fin 2) * 128 + 1 * k.val = k.val; omega
  | ⟨1, _⟩ => show win5_3.index t (1 : Fin 2) * 128 + 1 * q.val = q.val; omega

/-- The bias window's one block is the whole row. -/
theorem bias_block_at (c : Dev nD) (t : Fin cfg5.N) (q : Fin 128) :
    (iblk5 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec5 4) (((cfg5.win 4).blk t).view.emb (ix2 (0 : Fin 1) q)) = V c (Pipeline.arrRef spec5 4) (ix2 (0 : Fin 1) q)
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- Entry (p, q) of the output window's block at point t sits at entry (5000 t + p, q) of the output array. -/
theorem out_emb (t : Fin cfg5.N) (p : Fin 5000) (q : Fin 128) (n : Fin 100000) (hn : n.val = t.val * 5000 + p.val) :
    (((cfg5.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win5_5.index t (0 : Fin 2) * 5000 + 1 * p.val = n.val; omega
  | ⟨1, _⟩ => show win5_5.index t (1 : Fin 2) * 128 + 1 * q.val = q.val; omega

/-- What the body leaves at point t, entry by entry, is the dense step at the array entry the block entry sits at. -/
theorem flushed_at (c : Dev nD) (t : Fin cfg5.N) (j : S5000x128.Idx) :
    (out5_5 (F := Ideal) (iblk5 V c 0 t) (iblk5 V c 1 t) (iblk5 V c 2 t) (iblk5 V c 3 t) (iblk5 V c 4 t) : S5000x128.Idx → EReal) j
      = combine (aggArr V c) (hArr V c) (wrelArr V c) (wrootArr V c) (biasArr V c) (((cfg5.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_5
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk5 V c 0 t) (iblk5 V c 1 t) (iblk5 V c 2 t) (iblk5 V c 3 t) (iblk5 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg5.N) :
    (dat5 (F := Ideal) V c).flushed 5 t
      = ((cfg5.win 5).blk t).view.read (Elt Ideal)
          (combine (aggArr V c) (hArr V c) (wrelArr V c) (wrootArr V c) (biasArr V c)) := by
  show (cfg5.win 5).cut (grid5.coords t) ((dat5 V c).after 5 t) = _
  rw [after5_5]
  funext j
  exact flushed_at V c t j

/-- An index of the output array is in point t's block iff each coordinate is in the block's range on its axis. -/
theorem mem_blk (t : Fin cfg5.N) (i : SNodes.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Row r of the output array is written back by point r / 5000. -/
theorem covered (i : SNodes.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  have hN : cfg5.N = 20 := N_5
  refine ⟨⟨(i 0).val / 5000, by rw [hN]; omega⟩, flush5_5 _, ?_⟩
  obtain ⟨-, -, -, -, -, -, -, -, -, -, e0, e1⟩ := idx_facts ⟨(i 0).val / 5000, by rw [hN]; omega⟩
  rw [mem_blk]
  intro a
  match a with
  | ⟨0, _⟩ => show win5_5.index _ (0 : Fin 2) * 5000 ≤ (i 0).val ∧ (i 0).val < win5_5.index _ (0 : Fin 2) * 5000 + 5000; rw [e0]; show (i 0).val / 5000 * 5000 ≤ (i 0).val ∧ (i 0).val < (i 0).val / 5000 * 5000 + 5000; omega
  | ⟨1, _⟩ => show win5_5.index _ (1 : Fin 2) * 128 ≤ (i 1).val ∧ (i 1).val < win5_5.index _ (1 : Fin 2) * 128 + 128; rw [e1]; omega

/-- After region 5 its output array holds the layer's dense step of the arrays it read. -/
theorem out_array (c : Dev nD) :
    ((dat5 (F := Ideal) V c).arrAt 5 cfg5.N : SNodes.Idx → EReal)
      = combine (aggArr V c) (hArr V c) (wrelArr V c) (wrootArr V c) (biasArr V c) :=
  (dat5 (F := Ideal) V c).arrAt_eq_of_cover 5
    (combine (aggArr V c) (hArr V c) (wrelArr V c) (wrootArr V c) (biasArr V c))
    (fun t _ => flushed_eq V c t) covered

end Cert.KernelIdeal.RegionValue5

end
-- ==== Proof.KRegion6.lean ====
/-
  Region 6 of the idealized kernel program (one layer's dense step over 20 blocks of 5000 rows): the output array
  after the region, as one function of the five arrays the region reads.
-/
import proofs.«424942_j10471130267878_1_alg».proof.Proof.Gen.KernelIdeal.Frame
import proofs.«424942_j10471130267878_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx

namespace Cert.KernelIdeal.RegionValue6

open Cert.KernelIdeal Cert.KernelIdeal.Gen Cert.GnnSpec

variable (V : (c : Dev nD) → (b : Ref sig .tc) → Buf (Elt Ideal) ((c : Thread nD τ).loc b))

/-- The five arrays region 6 reads, at their literal types. -/
abbrev aggArr (c : Dev nD) : SNodes.Idx → EReal := V c (Pipeline.arrRef spec6 0)
abbrev hArr (c : Dev nD) : SNodes.Idx → EReal := V c (Pipeline.arrRef spec6 1)
abbrev wrelArr (c : Dev nD) : SWeight.Idx → EReal := V c (Pipeline.arrRef spec6 2)
abbrev wrootArr (c : Dev nD) : SWeight.Idx → EReal := V c (Pipeline.arrRef spec6 3)
abbrev biasArr (c : Dev nD) : SBias.Idx → EReal := V c (Pipeline.arrRef spec6 4)

/-! ## The body's arithmetic at one entry of a block -/

/-- The block product's dimension numbers: rows of the left operand against columns of the right one. -/
abbrev blockDot : DotDims S5000x128 S128x128 S5000x128 := dot_S5000x128_S128x128_S5000x128_1_0_0_1_n_n

/-- The operands' indices of the block product at an output index and a contraction index, axis by axis: the left
    operand is read at (output row, contraction coordinate), the right one at (contraction coordinate, output column). -/
theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (q : blockDot.contr.Idx) : (blockDot.lhsIdx i q 1).val = (q ⟨0, by decide⟩).val :=
  blockDot.lhsIdx_val_of_single rfl i q
theorem rhs_row (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, entry by entry: row p of the left block against column q of the right one. -/
theorem blockProduct_at {φ₁ φ₂ : FTy} (x : FVec Ideal S5000x128 φ₁) (w : FVec Ideal S128x128 φ₂) (p : Fin 5000) (q : Fin 128) :
    matmul blockDot none x w (constant S5000x128 .f32 0x00000000#32) (ix2 p q) = ∑ k : Fin 128, x (ix2 p k) * w (ix2 k q) := by
  refine (Ideal.matmul_constant_zero_apply blockDot none x w (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The body's arithmetic at entry (p, q) of the block: the two block products added, the bias row added, the rectifier. -/
theorem payload_at (x0 x1 : Vec Ideal S5000x128 .f32) (x2 x3 : Vec Ideal S128x128 .f32) (x4 : Vec Ideal S1x128 .f32)
    (p : Fin 5000) (q : Fin 128) :
    (k6_pay1 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold k6_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S5000x128 p q)
  refine (addf_apply _ _ (ix2 p q)).trans ?_
  exact congrArg₂ (· + ·) (blockProduct_at _ _ p q) (blockProduct_at _ _ p q)

/-! ## From the blocks to the array -/

/-- Zero offsets, as the constant function. -/
theorem hz : (![0, 0] : Fin 2 → Nat) = fun _ => 0 := funext fun a => by fin_cases a <;> rfl

/-- What the body leaves in the output block, entry by entry: its one store covers the block, and every load reads a whole block. -/
theorem stored_at (x0 x1 : Vec Ideal S5000x128 .f32) (x2 x3 : Vec Ideal S128x128 .f32) (x4 : Vec Ideal S1x128 .f32)
    (p : Fin 5000) (q : Fin 128) :
    (out6_5 (F := Ideal) x0 x1 x2 x3 x4 : S5000x128.Idx → EReal) (ix2 p q)
      = max (((∑ k : Fin 128, x0 (ix2 p k) * x2 (ix2 k q)) + ∑ k : Fin 128, x1 (ix2 p k) * x3 (ix2 k q))
          + x4 (ix2 (0 : Fin 1) q)) 0 := by
  unfold out6_5
  rw [View.canon_unit_zero hz]
  simp only [View.ld_unit_zero (S := S5000x128) hz, View.ld_unit_zero (S := S128x128) hz, View.ld_unit_zero (S := S1x128) hz]
  exact payload_at x0 x1 x2 x3 x4 p q

/-- The block index of every window at every grid point: the row windows sit at block row t, the weights and the bias at block (0, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Entry (p, k) of the first row window's block at point t is entry (5000 t + p, k) of its array. -/
theorem agg_block_at (c : Dev nD) (t : Fin cfg6.N) (p : Fin 5000) (k : Fin 128) (n : Fin 100000)
    (hn : n.val = t.val * 5000 + p.val) :
    (iblk6 V c 0 t : S5000x128.Idx → EReal) (ix2 p k) = aggArr V c (ix2 n k) := by
  obtain ⟨e0, e1, -⟩ := idx_facts t
  show V c (Pipeline.arrRef spec6 0) (((cfg6.win 0).blk t).view.emb (ix2 p k)) = V c (Pipeline.arrRef spec6 0) (ix2 n k)
  refine congrArg _ (funext fun a => Fin.ext ?_)
  match a with
  | ⟨0, _⟩ => show win6_0.index t (0 : Fin 2) * 5000 + 1 * p.val = n.val; omega
  | ⟨1, _⟩ => show win6_0.index t (1 : Fin 2) * 128 + 1 * k.val = k.val; omega

/-- The same for the second row window. -/
theorem h_block_at (c : Dev nD) (t : Fin cfg6.N) (p : Fin 5000) (k : Fin 128) (n : Fin 100000)
    (hn : n.val = t.val * 5000 + p.val) :
    (iblk6 V c 1 t : S5000x128.Idx → EReal) (ix2 p k) = hArr V c (ix2 n k) := by
  obtain ⟨-, -, e0, e1, -⟩ := idx_facts t
  show V c (Pipeline.arrRef spec6 1) (((cfg6.win 1).blk t).view.emb (ix2 p k)) = V c (Pipeline.arrRef spec6 1) (ix2 n k)
  refine congrArg _ (funext fun a => Fin.ext ?_)
  match a with
  | ⟨0, _⟩ => show win6_1.index t (0 : Fin 2) * 5000 + 1 * p.val = n.val; omega
  | ⟨1, _⟩ => show win6_1.index t (1 : Fin 2) * 128 + 1 * k.val = k.val; omega

/-- The weight windows' one block is the whole matrix. -/
theorem wrel_block_at (c : Dev nD) (t : Fin cfg6.N) (k q : Fin 128) :
    (iblk6 V c 2 t : S128x128.Idx → EReal) (ix2 k q) = wrelArr V c (ix2 k q) := by
  obtain ⟨-, -, -, -, e0, e1, -⟩ := idx_facts t
  show V c (Pipeline.arrRef spec6 2) (((cfg6.win 2).blk t).view.emb (ix2 k q)) = V c (Pipeline.arrRef spec6 2) (ix2 k q)
  refine congrArg _ (funext fun a => Fin.ext ?_)
  match a with
  | ⟨0, _⟩ => show win6_2.index t (0 : Fin 2) * 128 + 1 * k.val = k.val; omega
  | ⟨1, _⟩ => show win6_2.index t (1 : Fin 2) * 128 + 1 * q.val = q.val; omega

theorem wroot_block_at (c : Dev nD) (t : Fin cfg6.N) (k q : Fin 128) :
    (iblk6 V c 3 t : S128x128.Idx → EReal) (ix2 k q) = wrootArr V c (ix2 k q) := by
  obtain ⟨-, -, -, -, -, -, e0, e1, -⟩ := idx_facts t
  show V c (Pipeline.arrRef spec6 3) (((cfg6.win 3).blk t).view.emb (ix2 k q)) = V c (Pipeline.arrRef spec6 3) (ix2 k q)
  refine congrArg _ (funext fun a => Fin.ext ?_)
  match a with
  | ⟨0, _⟩ => show win6_3.index t (0 : Fin 2) * 128 + 1 * k.val = k.val; omega
  | ⟨1, _⟩ => show win6_3.index t (1 : Fin 2) * 128 + 1 * q.val = q.val; omega

/-- The bias window's one block is the whole row. -/
theorem bias_block_at (c : Dev nD) (t : Fin cfg6.N) (q : Fin 128) :
    (iblk6 V c 4 t : S1x128.Idx → EReal) (ix2 (0 : Fin 1) q) = biasArr V c (ix2 (0 : Fin 1) q) := by
  obtain ⟨-, -, -, -, -, -, -, -, e0, e1, -⟩ := idx_facts t
  show V c (Pipeline.arrRef spec6 4) (((cfg6.win 4).blk t).view.emb (ix2 (0 : Fin 1) q)) = V c (Pipeline.arrRef spec6 4) (ix2 (0 : Fin 1) q)
  refine congrArg _ (funext fun a => Fin.ext ?_)
  match a with
  | ⟨0, _⟩ => show win6_4.index t (0 : Fin 2) * 1 + 1 * 0 = 0; omega
  | ⟨1, _⟩ => show win6_4.index t (1 : Fin 2) * 128 + 1 * q.val = q.val; omega

/-- Entry (p, q) of the output window's block at point t sits at entry (5000 t + p, q) of the output array. -/
theorem out_emb (t : Fin cfg6.N) (p : Fin 5000) (q : Fin 128) (n : Fin 100000) (hn : n.val = t.val * 5000 + p.val) :
    (((cfg6.win 5).blk t).view.emb (ix2 p q) : SNodes.Idx) = ix2 n q := by
  obtain ⟨-, -, -, -, -, -, -, -, -, -, e0, e1⟩ := idx_facts t
  refine funext fun a => Fin.ext ?_
  match a with
  | ⟨0, _⟩ => show win6_5.index t (0 : Fin 2) * 5000 + 1 * p.val = n.val; omega
  | ⟨1, _⟩ => show win6_5.index t (1 : Fin 2) * 128 + 1 * q.val = q.val; omega

/-- What the body leaves at point t, entry by entry, is the dense step at the array entry the block entry sits at. -/
theorem flushed_at (c : Dev nD) (t : Fin cfg6.N) (j : S5000x128.Idx) :
    (out6_5 (F := Ideal) (iblk6 V c 0 t) (iblk6 V c 1 t) (iblk6 V c 2 t) (iblk6 V c 3 t) (iblk6 V c 4 t) : S5000x128.Idx → EReal) j
      = combine (aggArr V c) (hArr V c) (wrelArr V c) (wrootArr V c) (biasArr V c) (((cfg6.win 5).blk t).view.emb j) := by
  obtain ⟨p, q, rfl⟩ : ∃ (p : Fin 5000) (q : Fin 128), j = ix2 p q := ⟨j 0, j 1, eq_ix2 j⟩
  have ht : t.val < 20 := lt_of_lt_of_eq t.isLt N_6
  have hp : p.val < 5000 := p.isLt
  have hn : (⟨t.val * 5000 + p.val, by omega⟩ : Fin 100000).val = t.val * 5000 + p.val := rfl
  rw [out_emb t p q ⟨t.val * 5000 + p.val, by omega⟩ hn, combine_ix2]
  refine (stored_at (iblk6 V c 0 t) (iblk6 V c 1 t) (iblk6 V c 2 t) (iblk6 V c 3 t) (iblk6 V c 4 t) p q).trans ?_
  unfold combineAt
  refine congrArg₂ max (congrArg₂ (· + ·) (congrArg₂ (· + ·) ?_ ?_) (bias_block_at V c t q)) rfl
  · exact Finset.sum_congr rfl fun k _ => congrArg₂ (· * ·) (agg_block_at V c t p k _ hn) (wrel_block_at V c t k q)
  · exact Finset.sum_congr rfl fun k _ => congrArg₂ (· * ·) (h_block_at V c t p k _ hn) (wroot_block_at V c t k q)

/-- What point t writes back is block t of the dense step of the arrays the region reads. -/
theorem flushed_eq (c : Dev nD) (t : Fin cfg6.N) :
    (dat6 (F := Ideal) V c).flushed 5 t
      = ((cfg6.win 5).blk t).view.read (Elt Ideal)
          (combine (aggArr V c) (hArr V c) (wrelArr V c) (wrootArr V c) (biasArr V c)) := by
  show (cfg6.win 5).cut (grid6.coords t) ((dat6 V c).after 5 t) = _
  rw [after6_5]
  funext j
  exact flushed_at V c t j

/-- An index of the output array is in point t's block iff each coordinate is in the block's range on its axis. -/
theorem mem_blk (t : Fin cfg6.N) (i : SNodes.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole (Pipeline.arrRef spec6 5)).slice (win6_5.rect t)).set ↔ _
  rw [View.set_slice_whole, Rect.mem_set_unit]
  exact Iff.rfl

/-- Row r of the output array is written back by point r / 5000. -/
theorem covered (i : SNodes.Idx) :
    ∃ t : Fin cfg6.N, (cfg6.win 5).flush t = true ∧ i ∈ ((cfg6.win 5).blk t).view.set := by
  have hi0 : (i 0).val < 100000 := idx2_lt0 i
  have hi1 : (i 1).val < 128 := idx2_lt1 i
  have hN : cfg6.N = 20 := N_6
  refine ⟨⟨(i 0).val / 5000, by rw [hN]; omega⟩, flush6_5 _, ?_⟩
  obtain ⟨-, -, -, -, -, -, -, -, -, -, e0, e1⟩ := idx_facts ⟨(i 0).val / 5000, by rw [hN]; omega⟩
  rw [mem_blk]
  intro a
  match a with
  | ⟨0, _⟩ => show win6_5.index _ (0 : Fin 2) * 5000 ≤ (i 0).val ∧ (i 0).val < win6_5.index _ (0 : Fin 2) * 5000 + 5000; rw [e0]; show (i 0).val / 5000 * 5000 ≤ (i 0).val ∧ (i 0).val < (i 0).val / 5000 * 5000 + 5000; omega
  | ⟨1, _⟩ => show win6_5.index _ (1 : Fin 2) * 128 ≤ (i 1).val ∧ (i 1).val < win6_5.index _ (1 : Fin 2) * 128 + 128; rw [e1]; omega

/-- After region 6 its output array holds the layer's dense step of the arrays it read. -/
theorem out_array (c : Dev nD) :
    ((dat6 (F := Ideal) V c).arrAt 5 cfg6.N : SNodes.Idx → EReal)
      = combine (aggArr V c) (hArr V c) (wrelArr V c) (wrootArr V c) (biasArr V c) :=
  (dat6 (F := Ideal) V c).arrAt_eq_of_cover 5
    (combine (aggArr V c) (hArr V c) (wrelArr V c) (wrootArr V c) (biasArr V c))
    (fun t _ => flushed_eq V c t) covered

end Cert.KernelIdeal.RegionValue6

end
-- ==== Proof.KRegion7.lean ====
/-
  Region 7 of the idealized kernel program (the pooled sums accumulated over 20 blocks of 5000 rows, the
  accumulator reset at the first block): the output array after the region.
-/
import proofs.«424942_j10471130267878_1_alg».proof.Proof.Gen.KernelIdeal.Frame
import proofs.«424942_j10471130267878_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat Cfg Window)

namespace Cert.KernelIdeal.RegionValue7

open Cert.KernelIdeal Cert.KernelIdeal.Gen Cert.GnnSpec
open Idealize.ShloMosaic.Tactic Idealize.ShloMosaic.ValueIdx

variable (V : (c : Dev nD) → (b : Ref sig .tc) → Buf (Elt Ideal) ((c : Thread nD τ).loc b))

abbrev memberArr (c : Dev nD) : SMember.Idx → EReal := V c (Pipeline.arrRef spec7 0)
abbrev hArr (c : Dev nD) : SNodes.Idx → EReal := V c (Pipeline.arrRef spec7 1)

section Pieces
variable {F : FTy → Type} [FloatOps F]

/-- The zero offsets of a whole-buffer access. -/
theorem hz : (![0, 0] : Fin 2 → Nat) = fun _ => 0 := funext fun a => by fin_cases a <;> rfl

/-- At a later block the body leaves, in the output buffer holding `xo`, the update of `xo` by the two input
    blocks: its one store covers the buffer and its loads read the whole buffers. -/
theorem out_B (c : Dev nD) (i : grid7.Coords) (a1 : Memref sig .tc .vmem S5000x64 .f32) (h1 : a1.IsWhole)
    (a2 : Memref sig .tc .vmem S5000x128 .f32) (h2 : a2.IsWhole) (a3 : Memref sig .tc .vmem S64x128 .f32) (h3 : a3.IsWhole)
    (hc : ¬cond7_0 i) (x0 : Vec F S5000x64 .f32) (x1 : Vec F S5000x128 .f32) (xo : Vec F S64x128 .f32) :
    out7_B_2 c i a1 h1 a2 h2 a3 h3 hc x0 x1 xo = k7_pay2 x0 x1 xo := by
  unfold out7_B_2
  rw [View.read_writes_eq_canon _ _ _ (cover7_B_2 c i a1 h1 a2 h2 a3 h3 hc x0 x1 xo)]
  unfold kernelRun7_B
  dsimp only
  sl_unfold_words
  rw [View.canon_unit_zero hz]
  simp only [View.readAt_eq_ld, h1.read_unread, h2.read_unread, h3.read_unread, View.ld_unit_zero (S := S5000x64) hz,
    View.ld_unit_zero (S := S5000x128) hz, View.ld_unit_zero (S := S64x128) hz]

/-- At the first block the body stores the zero block, reads it back, and leaves its update by the two input
    blocks. -/
theorem out_A (c : Dev nD) (i : grid7.Coords) (a1 : Memref sig .tc .vmem S5000x64 .f32) (h1 : a1.IsWhole)
    (a2 : Memref sig .tc .vmem S5000x128 .f32) (h2 : a2.IsWhole) (a3 : Memref sig .tc .vmem S64x128 .f32) (h3 : a3.IsWhole)
    (hc : cond7_0 i) (x0 : Vec F S5000x64 .f32) (x1 : Vec F S5000x128 .f32) :
    out7_A_2 c i a1 h1 a2 h2 a3 h3 hc x0 x1 = k7_pay2 x0 x1 (k7_pay1 (F := F)) := by
  unfold out7_A_2
  rw [View.read_writes_eq_canon _ _ _ (cover7_A_2 c i a1 h1 a2 h2 a3 h3 hc x0 x1)]
  unfold kernelRun7_A
  dsimp only
  sl_unfold_words
  rw [View.canon_cons_unit_zero (S := S64x128) hz, View.readCov_unit_zero (S := S64x128) _ hz]
  simp only [View.readAt_eq_ld, h1.read_unread, h2.read_unread, View.ld_unit_zero (S := S5000x64) hz,
    View.ld_unit_zero (S := S5000x128) hz, View.ld_unit_zero (S := S64x128) hz]

end Pieces

section Payload

/-- The operand indices of the block product, axis by axis: both operands are contracted along their rows, the
    left operand's columns are the result's rows and the right operand's columns the result's columns. -/
theorem lhs_axis0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhs_axis1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_axis0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhs_axis1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The block product into the zero accumulator, at entry `(g, d)`: the sum over the block's 5000 rows of the
    products of the two blocks' entries in columns `g` and `d`. -/
theorem blockProduct_at (l : FVec Ideal S5000x64 .bf16) (r : FVec Ideal S5000x128 .bf16) (g : Fin 64) (d : Fin 128) :
    matmul dot_S5000x64_S5000x128_S64x128_0_0_1_1_n_n none l r (constant (F := Ideal) S64x128 .f32 0x00000000#32) (ix2 g d)
      = ∑ k : Fin 5000, l (ix2 k g) * r (ix2 k d) := by
  simp only [matmul]
  rw [Ideal.matmul_constant_zero_apply, ← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g d) ((ValueIdx.contrEquiv1 dot_S5000x64_S5000x128_S64x128_0_0_1_1_n_n 5000 rfl rfl).symm k) = ix2 k g := funext fun a => Fin.ext (by
    match a with
    | ⟨0, _⟩ => exact (lhs_axis0 _ _).trans hk
    | ⟨1, _⟩ => exact lhs_axis1 _ _)
  have er : dot_S5000x64_S5000x128_S64x128_0_0_1_1_n_n.rhsIdx (ix2 g d) ((ValueIdx.contrEquiv1 dot_S5000x64_S5000x128_S64x128_0_0_1_1_n_n 5000 rfl rfl).symm k) = ix2 k d := funext fun a => Fin.ext (by
    match a with
    | ⟨0, _⟩ => exact (rhs_axis0 _ _).trans hk
    | ⟨1, _⟩ => exact rhs_axis1 _ _)
  rw [el, er]

/-- The reset block is zero everywhere. -/
theorem pay1_at (j : S64x128.Idx) : k7_pay1 (F := Ideal) j = 0 := by
  unfold k7_pay1
  exact Ideal.ofBits_zero_f32

/-- The update at entry `(g, d)`: the accumulator's entry plus the block product's. -/
theorem pay2_at (x0 : Vec Ideal S5000x64 .f32) (x1 : Vec Ideal S5000x128 .f32) (acc : Vec Ideal S64x128 .f32)
    (g : Fin 64) (d : Fin 128) :
    k7_pay2 (F := Ideal) x0 x1 acc (ix2 g d) = acc (ix2 g d) + ∑ k : Fin 5000, x0 (ix2 k g) * x1 (ix2 k d) := by
  unfold k7_pay2
  simp only [shapeCast_self]
  refine (addf_apply _ _ _).trans ?_
  exact congrArg (acc (ix2 g d) + ·) (blockProduct_at _ _ g d)

end Payload

section Blocks

/-- The membership block and the feature block the body reads at point `t`. -/
abbrev memberBlk (c : Dev nD) (t : Fin cfg7.N) : Vec Ideal S5000x64 .f32 := iblk7 V c 0 t
abbrev featBlk (c : Dev nD) (t : Fin cfg7.N) : Vec Ideal S5000x128 .f32 := iblk7 V c 1 t

/-- Block `t` of either input starts at row block `t` and column block 0; the output's block is always block (0, 0). -/
theorem index_facts : ∀ t : Fin cfg7.N, (win7_0.index t 0 = t.val ∧ win7_0.index t 1 = 0)
    ∧ (win7_1.index t 0 = t.val ∧ win7_1.index t 1 = 0) ∧ (win7_2.index t 0 = 0 ∧ win7_2.index t 1 = 0) :=
  (by decide +kernel : ∀ t : Fin grid7.N, (win7_0.index t 0 = t.val ∧ win7_0.index t 1 = 0)
    ∧ (win7_1.index t 0 = t.val ∧ win7_1.index t 1 = 0) ∧ (win7_2.index t 0 = 0 ∧ win7_2.index t 1 = 0))

/-- Row `r` of the membership block at point `t` is row `5000 t + r` of the membership matrix. -/
theorem memberBlk_at (c : Dev nD) (t : Fin cfg7.N) (r : Fin 5000) (g : Fin 64) (hr : 5000 * t.val + r.val < 100000) :
    memberBlk V c t (ix2 r g) = memberArr V c (ix2 ⟨5000 * t.val + r.val, hr⟩ g) := by
  unfold memberBlk iblk7
  rw [View.read_apply]
  show V c (Pipeline.arrRef spec7 0) _ = V c (Pipeline.arrRef spec7 0) _
  congr 1
  funext a
  apply Fin.ext
  match a with
  | ⟨0, _⟩ => show win7_0.index t 0 * 5000 + 1 * r.val = 5000 * t.val + r.val; rw [(index_facts t).1.1]; omega
  | ⟨1, _⟩ => show win7_0.index t 1 * 64 + 1 * g.val = g.val; rw [(index_facts t).1.2]; omega

/-- Row `r` of the feature block at point `t` is row `5000 t + r` of the node features. -/
theorem featBlk_at (c : Dev nD) (t : Fin cfg7.N) (r : Fin 5000) (d : Fin 128) (hr : 5000 * t.val + r.val < 100000) :
    featBlk V c t (ix2 r d) = hArr V c (ix2 ⟨5000 * t.val + r.val, hr⟩ d) := by
  unfold featBlk iblk7
  rw [View.read_apply]
  show V c (Pipeline.arrRef spec7 1) _ = V c (Pipeline.arrRef spec7 1) _
  congr 1
  funext a
  apply Fin.ext
  match a with
  | ⟨0, _⟩ => show win7_1.index t 0 * 5000 + 1 * r.val = 5000 * t.val + r.val; rw [(index_facts t).2.1.1]; omega
  | ⟨1, _⟩ => show win7_1.index t 1 * 128 + 1 * d.val = d.val; rw [(index_facts t).2.1.2]; omega

end Blocks

section Invariant

/-- Row `k`'s contribution to entry `(g, d)` of the pooled sums (zero past the last row). -/
def term (c : Dev nD) (g : Fin 64) (d : Fin 128) (k : ℕ) : EReal :=
  if h : k < 100000 then memberArr V c (ix2 ⟨k, h⟩ g) * hArr V c (ix2 ⟨k, h⟩ d) else 0

/-- The block product at point `t` sums the contributions of rows `5000 t … 5000 t + 4999`. -/
theorem block_sum (c : Dev nD) (t : Fin cfg7.N) (g : Fin 64) (d : Fin 128) :
    ∑ r : Fin 5000, memberBlk V c t (ix2 r g) * featBlk V c t (ix2 r d)
      = ∑ r ∈ Finset.range 5000, term V c g d (5000 * t.val + r) := by
  have hN : t.val < 20 := lt_of_lt_of_eq t.isLt (show cfg7.N = 20 from N_7)
  rw [Finset.sum_range]
  refine Finset.sum_congr rfl fun r _ => ?_
  have hr : 5000 * t.val + r.val < 100000 := by have := r.isLt; omega
  rw [term, dif_pos hr, memberBlk_at V c t r g hr, featBlk_at V c t r d hr]

/-- At the first point the output buffer holds the first block's product. -/
theorem step_first (c : Dev nD) (t : Fin cfg7.N) (h0 : t.val % 20 = 0) (g : Fin 64) (d : Fin 128) :
    outsAt7 V c t.val t.isLt (ix2 g d) = ∑ r ∈ Finset.range 5000, term V c g d (5000 * t.val + r) := by
  rw [outsAt7_A V c t h0]
  refine (congrFun (out_A (F := Ideal) c (grid7.coords t) (ms7_0 t) (hs7_0 t) (ms7_1 t) (hs7_1 t) (ms7_2 t) (hs7_2 t)
    ((hcond7_0 t).mpr h0) (memberBlk V c t) (featBlk V c t)) (ix2 g d)).trans ?_
  rw [pay2_at, pay1_at, zero_add, block_sum]

/-- At a later point it holds what the point before left plus this block's product. -/
theorem step_later (c : Dev nD) (t : Fin cfg7.N) (h0 : ¬t.val % 20 = 0) (g : Fin 64) (d : Fin 128) :
    outsAt7 V c t.val t.isLt (ix2 g d)
      = outsAt7 V c (t.val - 1) (Nat.lt_of_le_of_lt (Nat.sub_le _ _) t.isLt) (ix2 g d)
        + ∑ r ∈ Finset.range 5000, term V c g d (5000 * t.val + r) := by
  rw [outsAt7_B V c t h0]
  refine (congrFun (out_B (F := Ideal) c (grid7.coords t) (ms7_0 t) (hs7_0 t) (ms7_1 t) (hs7_1 t) (ms7_2 t) (hs7_2 t)
    (fun h => h0 ((hcond7_0 t).mp h)) (memberBlk V c t) (featBlk V c t)
    (outsAt7 V c (t.val - 1) (Nat.lt_of_le_of_lt (Nat.sub_le _ _) t.isLt))) (ix2 g d)).trans ?_
  rw [pay2_at, block_sum]

/-- THE INVARIANT: after point `n` entry `(g, d)` of the output buffer is the sum of the contributions of the rows
    of blocks `0 … n`, that is of rows below `5000 (n + 1)`. -/
theorem outsAt_eq (c : Dev nD) (g : Fin 64) (d : Fin 128) : ∀ (n : ℕ) (hn : n < cfg7.N),
    outsAt7 V c n hn (ix2 g d) = ∑ k ∈ Finset.range (5000 * (n + 1)), term V c g d k
  | 0, hn => by
    refine (step_first V c ⟨0, hn⟩ rfl g d).trans ?_
    refine Finset.sum_congr rfl fun r _ => ?_
    show term V c g d (5000 * 0 + r) = _
    rw [Nat.mul_zero, Nat.zero_add]
  | n + 1, hn => by
    have hN : n + 1 < 20 := lt_of_lt_of_eq hn (show cfg7.N = 20 from N_7)
    have hB : ¬(⟨n + 1, hn⟩ : Fin cfg7.N).val % 20 = 0 := by dsimp only; omega
    refine (step_later V c ⟨n + 1, hn⟩ hB g d).trans ?_
    show outsAt7 V c n _ (ix2 g d) + ∑ r ∈ Finset.range 5000, term V c g d (5000 * (n + 1) + r) = _
    rw [outsAt_eq c g d n (Nat.lt_of_succ_lt hn), show 5000 * (n + 1 + 1) = 5000 * (n + 1) + 5000 from by omega,
      Finset.sum_range_add]

end Invariant

section WholeArray

/-- The last point. -/
abbrev lastPt : Fin cfg7.N := ⟨19, by rw [show cfg7.N = 20 from N_7]; decide⟩

/-- What the output buffer holds after the last point, as contents of the output array (its one block is the array). -/
abbrev result (c : Dev nD) : Buf (Elt Ideal) ((c : Thread nD τ).loc main_v137) := outsAt7 V c lastPt.val lastPt.isLt

/-- The one write-back, at the last point, writes it: block (0, 0) of the [64,128] array read at zero offsets is
    the array. -/
theorem flushed_eq (c : Dev nD) (t : Fin cfg7.N) (hf : (cfg7.win 2).flush t = true) :
    (dat7 V c).flushed 2 t = ((cfg7.win 2).blk t).view.read (Elt Ideal) (result V c) := by
  have hN : cfg7.N = 20 := N_7
  have h19 : t.val = 19 := by have := (flush7_2 t).mp hf; have := t.isLt; omega
  obtain rfl : t = lastPt := Fin.ext h19
  show (cfg7.win 2).cut (grid7.coords lastPt) ((dat7 V c).after 2 lastPt) = _
  rw [after7_2]
  have hz' : (fun a => win7_2.index lastPt a * main_v137.ty.shape.size a) = fun _ => 0 := funext fun a => by fin_cases a <;> decide
  exact (Memref.read_access_unit_zero (Elt Ideal) main_v137 hz' (fun a => by rw [congrFun hz' a]; simp) (result V c)).symm

/-- So the output array ends holding the output buffer's contents after the last point. -/
theorem arrAt_eq (c : Dev nD) : (dat7 V c).arrAt 2 cfg7.N = result V c :=
  (dat7 V c).arrAt_eq_of_cover 2 (result V c) (flushed_eq V c) fun i =>
    ⟨lastPt, (flush7_2 lastPt).mpr rfl, by
      show i ∈ ((View.whole main_v137).slice (win7_2.rect lastPt)).set
      rw [View.set_slice_whole, Rect.mem_set_unit]
      intro a
      have h0 : (i 0 : Nat) < 64 := (i 0).isLt
      have h1 : (i 1 : Nat) < 128 := (i 1).isLt
      match a with
      | ⟨0, _⟩ => show win7_2.index lastPt 0 * win7_2.size 0 ≤ (i 0 : Nat) ∧ (i 0 : Nat) < win7_2.index lastPt 0 * win7_2.size 0 + win7_2.xsize (grid7.coords lastPt) 0
                  rw [show win7_2.index lastPt 0 * win7_2.size 0 = 0 from by decide +kernel, show win7_2.xsize (grid7.coords lastPt) 0 = 64 from by decide +kernel]; omega
      | ⟨1, _⟩ => show win7_2.index lastPt 1 * win7_2.size 1 ≤ (i 1 : Nat) ∧ (i 1 : Nat) < win7_2.index lastPt 1 * win7_2.size 1 + win7_2.xsize (grid7.coords lastPt) 1
                  rw [show win7_2.index lastPt 1 * win7_2.size 1 = 0 from by decide +kernel, show win7_2.xsize (grid7.coords lastPt) 1 = 128 from by decide +kernel]; omega⟩

end WholeArray

/-- After region 7 its output array holds the per-graph sums of the node features. -/
theorem out_array (c : Dev nD) :
    ((dat7 (F := Ideal) V c).arrAt 2 cfg7.N : SPooled.Idx → EReal) = pool (memberArr V c) (hArr V c) := by
  rw [arrAt_eq V c]
  funext i
  obtain ⟨g, d, rfl⟩ : ∃ (g : Fin 64) (d : Fin 128), i = ix2 g d := ⟨i 0, i 1, eq_ix2 i⟩
  rw [pool_ix2]
  show outsAt7 V c 19 _ (ix2 g d) = poolAt (memberArr V c) (hArr V c) g d
  rw [outsAt_eq V c g d 19 _, show 5000 * (19 + 1) = 100000 from rfl, Finset.sum_range]
  unfold poolAt
  refine Finset.sum_congr rfl fun k _ => ?_
  rw [term, dif_pos k.isLt]

end Cert.KernelIdeal.RegionValue7

end
-- ==== Proof.KNet.lean ====
/-
  The idealized kernel program's result as the shared network of its arguments, over the extended reals: layer by
  layer, a region's output array is the layer's dense step of the arrays it read (the region's value), those arrays
  are the shared host-side pieces of the features so far and the arguments (the stretch before it), and the dense
  step equals the reference's spelling of it; the pooling region's sums are the accumulating scatter's, the column
  sums of the membership matrix the scatter's counts; the last stretches apply the shared tail.
-/
import proofs.«424942_j10471130267878_1_alg».proof.Proof.Gen.KernelIdeal.Frame
import proofs.«424942_j10471130267878_1_alg».proof.Proof.HostNet
import proofs.«424942_j10471130267878_1_alg».proof.Proof.KHostTerms
import proofs.«424942_j10471130267878_1_alg».proof.Proof.KKeep
import proofs.«424942_j10471130267878_1_alg».proof.Proof.KEntry
import proofs.«424942_j10471130267878_1_alg».proof.Proof.LayerValue
import proofs.«424942_j10471130267878_1_alg».proof.Proof.PoolValue
import proofs.«424942_j10471130267878_1_alg».proof.Proof.KRegion0
import proofs.«424942_j10471130267878_1_alg».proof.Proof.KRegion1
import proofs.«424942_j10471130267878_1_alg».proof.Proof.KRegion2
import proofs.«424942_j10471130267878_1_alg».proof.Proof.KRegion3
import proofs.«424942_j10471130267878_1_alg».proof.Proof.KRegion4
import proofs.«424942_j10471130267878_1_alg».proof.Proof.KRegion5
import proofs.«424942_j10471130267878_1_alg».proof.Proof.KRegion6
import proofs.«424942_j10471130267878_1_alg».proof.Proof.KRegion7
import Idealize.ShloMosaic.Lib.StableHlo.Run

set_option maxRecDepth 16384

noncomputable section

open Idealize.ShloMosaic Idealize.ShloMosaic.TcCoe Idealize.ShloMosaic.Tactic Idealize.SL.Sem Idealize.ShloMosaic.StableHlo

namespace Cert.KernelIdeal.Gen

variable [Cert.ReferenceIdeal.Facts₀]
variable (m : (ℓ : Loc nD τ sig) → Buf (Elt Ideal) ℓ) (ρ : Dev nD → PrngReg)

open Cert.ReferenceIdeal.HostTerms Cert.KernelIdeal.HostTerms Cert.GnnSpec

/-- After region 0 its output array holds the features after 1 layer. -/
theorem feat_after1 (c : Dev nD) : W2 m ρ c (Proc.devRef .tc main_v21) = feat1 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W0 m ρ c (Proc.devRef .tc main_arg1) = (m ((c : Thread nD τ).loc main_arg1)) := rfl
  have e0 : Cert.KernelIdeal.RegionValue0.aggArr (V1 m ρ) c = agg (m ((c : Thread nD τ).loc main_arg1)) (srcIdx (m ((c : Thread nD τ).loc main_arg2))) (dstIdx (m ((c : Thread nD τ).loc main_arg2))) := by
    exact entry0_agg (W0 m ρ c)
  have e1 : Cert.KernelIdeal.RegionValue0.hArr (V1 m ρ) c = (m ((c : Thread nD τ).loc main_arg1)) := (keep_V1_main_arg1 m ρ c).trans hh
  have e2 : Cert.KernelIdeal.RegionValue0.wrelArr (V1 m ρ) c = wslice0 (m ((c : Thread nD τ).loc main_arg8)) :=
    (entry0_wrel (W0 m ρ c)).trans (congrArg wslice0 (keep_W0_main_arg8 m ρ c))
  have e3 : Cert.KernelIdeal.RegionValue0.wrootArr (V1 m ρ) c = wslice0 (m ((c : Thread nD τ).loc main_arg9)) :=
    (entry0_wroot (W0 m ρ c)).trans (congrArg wslice0 (keep_W0_main_arg9 m ρ c))
  have e4 : Cert.KernelIdeal.RegionValue0.biasArr (V1 m ρ) c = shapeCast S1x128 (bslice0 (m ((c : Thread nD τ).loc main_arg10))) Facts₀.shapeCasts_S128_S1x128 :=
    (entry0_bias (W0 m ρ c)).trans (congrArg (fun b => shapeCast S1x128 (bslice0 b) Facts₀.shapeCasts_S128_S1x128) (keep_W0_main_arg10 m ρ c))
  refine (W2_arr m ρ c 5).trans ((Cert.KernelIdeal.RegionValue0.out_array (V1 m ρ) c).trans ?_)
  rw [e0, e1, e2, e3, e4]
  exact Cert.ReferenceIdeal.LayerValue.combine_eq_layer _ _ _ _ _ _

/-- After region 1 its output array holds the features after 2 layers. -/
theorem feat_after2 (c : Dev nD) : W4 m ρ c (Proc.devRef .tc main_v39) = feat2 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W2 m ρ c (Proc.devRef .tc main_v21) = (feat1 (m ((c : Thread nD τ).loc main_arg1)) (m ((c : Thread nD τ).loc main_arg2)) (m ((c : Thread nD τ).loc main_arg8)) (m ((c : Thread nD τ).loc main_arg9)) (m ((c : Thread nD τ).loc main_arg10))) := feat_after1 m ρ c
  have e0 : Cert.KernelIdeal.RegionValue1.aggArr (V3 m ρ) c = agg (feat1 (m ((c : Thread nD τ).loc main_arg1)) (m ((c : Thread nD τ).loc main_arg2)) (m ((c : Thread nD τ).loc main_arg8)) (m ((c : Thread nD τ).loc main_arg9)) (m ((c : Thread nD τ).loc main_arg10))) (srcIdx (m ((c : Thread nD τ).loc main_arg2))) (dstIdx (m ((c : Thread nD τ).loc main_arg2))) := by
    refine (entry1_agg (W2 m ρ c)).trans ?_
    rw [hh, keep_W2_main_v1 m ρ c, keep_W2_main_v3 m ρ c]
    exact congrArg₂ (agg _) (entry0_src (W0 m ρ c)) (entry0_dst (W0 m ρ c))
  have e1 : Cert.KernelIdeal.RegionValue1.hArr (V3 m ρ) c = (feat1 (m ((c : Thread nD τ).loc main_arg1)) (m ((c : Thread nD τ).loc main_arg2)) (m ((c : Thread nD τ).loc main_arg8)) (m ((c : Thread nD τ).loc main_arg9)) (m ((c : Thread nD τ).loc main_arg10))) := (keep_V3_main_v21 m ρ c).trans hh
  have e2 : Cert.KernelIdeal.RegionValue1.wrelArr (V3 m ρ) c = wslice1 (m ((c : Thread nD τ).loc main_arg8)) :=
    (entry1_wrel (W2 m ρ c)).trans (congrArg wslice1 (keep_W2_main_arg8 m ρ c))
  have e3 : Cert.KernelIdeal.RegionValue1.wrootArr (V3 m ρ) c = wslice1 (m ((c : Thread nD τ).loc main_arg9)) :=
    (entry1_wroot (W2 m ρ c)).trans (congrArg wslice1 (keep_W2_main_arg9 m ρ c))
  have e4 : Cert.KernelIdeal.RegionValue1.biasArr (V3 m ρ) c = shapeCast S1x128 (bslice1 (m ((c : Thread nD τ).loc main_arg10))) Facts₀.shapeCasts_S128_S1x128 :=
    (entry1_bias (W2 m ρ c)).trans (congrArg (fun b => shapeCast S1x128 (bslice1 b) Facts₀.shapeCasts_S128_S1x128) (keep_W2_main_arg10 m ρ c))
  refine (W4_arr m ρ c 5).trans ((Cert.KernelIdeal.RegionValue1.out_array (V3 m ρ) c).trans ?_)
  rw [e0, e1, e2, e3, e4]
  exact Cert.ReferenceIdeal.LayerValue.combine_eq_layer _ _ _ _ _ _

/-- After region 2 its output array holds the features after 3 layers. -/
theorem feat_after3 (c : Dev nD) : W6 m ρ c (Proc.devRef .tc main_v57) = feat3 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W4 m ρ c (Proc.devRef .tc main_v39) = (feat2 (m ((c : Thread nD τ).loc main_arg1)) (m ((c : Thread nD τ).loc main_arg2)) (m ((c : Thread nD τ).loc main_arg8)) (m ((c : Thread nD τ).loc main_arg9)) (m ((c : Thread nD τ).loc main_arg10))) := feat_after2 m ρ c
  have e0 : Cert.KernelIdeal.RegionValue2.aggArr (V5 m ρ) c = agg (feat2 (m ((c : Thread nD τ).loc main_arg1)) (m ((c : Thread nD τ).loc main_arg2)) (m ((c : Thread nD τ).loc main_arg8)) (m ((c : Thread nD τ).loc main_arg9)) (m ((c : Thread nD τ).loc main_arg10))) (srcIdx (m ((c : Thread nD τ).loc main_arg2))) (dstIdx (m ((c : Thread nD τ).loc main_arg2))) := by
    refine (entry2_agg (W4 m ρ c)).trans ?_
    rw [hh, keep_W4_main_v1 m ρ c, keep_W4_main_v3 m ρ c]
    exact congrArg₂ (agg _) (entry0_src (W0 m ρ c)) (entry0_dst (W0 m ρ c))
  have e1 : Cert.KernelIdeal.RegionValue2.hArr (V5 m ρ) c = (feat2 (m ((c : Thread nD τ).loc main_arg1)) (m ((c : Thread nD τ).loc main_arg2)) (m ((c : Thread nD τ).loc main_arg8)) (m ((c : Thread nD τ).loc main_arg9)) (m ((c : Thread nD τ).loc main_arg10))) := (keep_V5_main_v39 m ρ c).trans hh
  have e2 : Cert.KernelIdeal.RegionValue2.wrelArr (V5 m ρ) c = wslice2 (m ((c : Thread nD τ).loc main_arg8)) :=
    (entry2_wrel (W4 m ρ c)).trans (congrArg wslice2 (keep_W4_main_arg8 m ρ c))
  have e3 : Cert.KernelIdeal.RegionValue2.wrootArr (V5 m ρ) c = wslice2 (m ((c : Thread nD τ).loc main_arg9)) :=
    (entry2_wroot (W4 m ρ c)).trans (congrArg wslice2 (keep_W4_main_arg9 m ρ c))
  have e4 : Cert.KernelIdeal.RegionValue2.biasArr (V5 m ρ) c = shapeCast S1x128 (bslice2 (m ((c : Thread nD τ).loc main_arg10))) Facts₀.shapeCasts_S128_S1x128 :=
    (entry2_bias (W4 m ρ c)).trans (congrArg (fun b => shapeCast S1x128 (bslice2 b) Facts₀.shapeCasts_S128_S1x128) (keep_W4_main_arg10 m ρ c))
  refine (W6_arr m ρ c 5).trans ((Cert.KernelIdeal.RegionValue2.out_array (V5 m ρ) c).trans ?_)
  rw [e0, e1, e2, e3, e4]
  exact Cert.ReferenceIdeal.LayerValue.combine_eq_layer _ _ _ _ _ _

/-- After region 3 its output array holds the features after 4 layers. -/
theorem feat_after4 (c : Dev nD) : W8 m ρ c (Proc.devRef .tc main_v75) = feat4 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W6 m ρ c (Proc.devRef .tc main_v57) = (feat3 (m ((c : Thread nD τ).loc main_arg1)) (m ((c : Thread nD τ).loc main_arg2)) (m ((c : Thread nD τ).loc main_arg8)) (m ((c : Thread nD τ).loc main_arg9)) (m ((c : Thread nD τ).loc main_arg10))) := feat_after3 m ρ c
  have e0 : Cert.KernelIdeal.RegionValue3.aggArr (V7 m ρ) c = agg (feat3 (m ((c : Thread nD τ).loc main_arg1)) (m ((c : Thread nD τ).loc main_arg2)) (m ((c : Thread nD τ).loc main_arg8)) (m ((c : Thread nD τ).loc main_arg9)) (m ((c : Thread nD τ).loc main_arg10))) (srcIdx (m ((c : Thread nD τ).loc main_arg2))) (dstIdx (m ((c : Thread nD τ).loc main_arg2))) := by
    refine (entry3_agg (W6 m ρ c)).trans ?_
    rw [hh, keep_W6_main_v1 m ρ c, keep_W6_main_v3 m ρ c]
    exact congrArg₂ (agg _) (entry0_src (W0 m ρ c)) (entry0_dst (W0 m ρ c))
  have e1 : Cert.KernelIdeal.RegionValue3.hArr (V7 m ρ) c = (feat3 (m ((c : Thread nD τ).loc main_arg1)) (m ((c : Thread nD τ).loc main_arg2)) (m ((c : Thread nD τ).loc main_arg8)) (m ((c : Thread nD τ).loc main_arg9)) (m ((c : Thread nD τ).loc main_arg10))) := (keep_V7_main_v57 m ρ c).trans hh
  have e2 : Cert.KernelIdeal.RegionValue3.wrelArr (V7 m ρ) c = wslice3 (m ((c : Thread nD τ).loc main_arg8)) :=
    (entry3_wrel (W6 m ρ c)).trans (congrArg wslice3 (keep_W6_main_arg8 m ρ c))
  have e3 : Cert.KernelIdeal.RegionValue3.wrootArr (V7 m ρ) c = wslice3 (m ((c : Thread nD τ).loc main_arg9)) :=
    (entry3_wroot (W6 m ρ c)).trans (congrArg wslice3 (keep_W6_main_arg9 m ρ c))
  have e4 : Cert.KernelIdeal.RegionValue3.biasArr (V7 m ρ) c = shapeCast S1x128 (bslice3 (m ((c : Thread nD τ).loc main_arg10))) Facts₀.shapeCasts_S128_S1x128 :=
    (entry3_bias (W6 m ρ c)).trans (congrArg (fun b => shapeCast S1x128 (bslice3 b) Facts₀.shapeCasts_S128_S1x128) (keep_W6_main_arg10 m ρ c))
  refine (W8_arr m ρ c 5).trans ((Cert.KernelIdeal.RegionValue3.out_array (V7 m ρ) c).trans ?_)
  rw [e0, e1, e2, e3, e4]
  exact Cert.ReferenceIdeal.LayerValue.combine_eq_layer _ _ _ _ _ _

/-- After region 4 its output array holds the features after 5 layers. -/
theorem feat_after5 (c : Dev nD) : W10 m ρ c (Proc.devRef .tc main_v93) = feat5 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W8 m ρ c (Proc.devRef .tc main_v75) = (feat4 (m ((c : Thread nD τ).loc main_arg1)) (m ((c : Thread nD τ).loc main_arg2)) (m ((c : Thread nD τ).loc main_arg8)) (m ((c : Thread nD τ).loc main_arg9)) (m ((c : Thread nD τ).loc main_arg10))) := feat_after4 m ρ c
  have e0 : Cert.KernelIdeal.RegionValue4.aggArr (V9 m ρ) c = agg (feat4 (m ((c : Thread nD τ).loc main_arg1)) (m ((c : Thread nD τ).loc main_arg2)) (m ((c : Thread nD τ).loc main_arg8)) (m ((c : Thread nD τ).loc main_arg9)) (m ((c : Thread nD τ).loc main_arg10))) (srcIdx (m ((c : Thread nD τ).loc main_arg2))) (dstIdx (m ((c : Thread nD τ).loc main_arg2))) := by
    refine (entry4_agg (W8 m ρ c)).trans ?_
    rw [hh, keep_W8_main_v1 m ρ c, keep_W8_main_v3 m ρ c]
    exact congrArg₂ (agg _) (entry0_src (W0 m ρ c)) (entry0_dst (W0 m ρ c))
  have e1 : Cert.KernelIdeal.RegionValue4.hArr (V9 m ρ) c = (feat4 (m ((c : Thread nD τ).loc main_arg1)) (m ((c : Thread nD τ).loc main_arg2)) (m ((c : Thread nD τ).loc main_arg8)) (m ((c : Thread nD τ).loc main_arg9)) (m ((c : Thread nD τ).loc main_arg10))) := (keep_V9_main_v75 m ρ c).trans hh
  have e2 : Cert.KernelIdeal.RegionValue4.wrelArr (V9 m ρ) c = wslice4 (m ((c : Thread nD τ).loc main_arg8)) :=
    (entry4_wrel (W8 m ρ c)).trans (congrArg wslice4 (keep_W8_main_arg8 m ρ c))
  have e3 : Cert.KernelIdeal.RegionValue4.wrootArr (V9 m ρ) c = wslice4 (m ((c : Thread nD τ).loc main_arg9)) :=
    (entry4_wroot (W8 m ρ c)).trans (congrArg wslice4 (keep_W8_main_arg9 m ρ c))
  have e4 : Cert.KernelIdeal.RegionValue4.biasArr (V9 m ρ) c = shapeCast S1x128 (bslice4 (m ((c : Thread nD τ).loc main_arg10))) Facts₀.shapeCasts_S128_S1x128 :=
    (entry4_bias (W8 m ρ c)).trans (congrArg (fun b => shapeCast S1x128 (bslice4 b) Facts₀.shapeCasts_S128_S1x128) (keep_W8_main_arg10 m ρ c))
  refine (W10_arr m ρ c 5).trans ((Cert.KernelIdeal.RegionValue4.out_array (V9 m ρ) c).trans ?_)
  rw [e0, e1, e2, e3, e4]
  exact Cert.ReferenceIdeal.LayerValue.combine_eq_layer _ _ _ _ _ _

/-- After region 5 its output array holds the features after 6 layers. -/
theorem feat_after6 (c : Dev nD) : W12 m ρ c (Proc.devRef .tc main_v111) = feat6 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W10 m ρ c (Proc.devRef .tc main_v93) = (feat5 (m ((c : Thread nD τ).loc main_arg1)) (m ((c : Thread nD τ).loc main_arg2)) (m ((c : Thread nD τ).loc main_arg8)) (m ((c : Thread nD τ).loc main_arg9)) (m ((c : Thread nD τ).loc main_arg10))) := feat_after5 m ρ c
  have e0 : Cert.KernelIdeal.RegionValue5.aggArr (V11 m ρ) c = agg (feat5 (m ((c : Thread nD τ).loc main_arg1)) (m ((c : Thread nD τ).loc main_arg2)) (m ((c : Thread nD τ).loc main_arg8)) (m ((c : Thread nD τ).loc main_arg9)) (m ((c : Thread nD τ).loc main_arg10))) (srcIdx (m ((c : Thread nD τ).loc main_arg2))) (dstIdx (m ((c : Thread nD τ).loc main_arg2))) := by
    refine (entry5_agg (W10 m ρ c)).trans ?_
    rw [hh, keep_W10_main_v1 m ρ c, keep_W10_main_v3 m ρ c]
    exact congrArg₂ (agg _) (entry0_src (W0 m ρ c)) (entry0_dst (W0 m ρ c))
  have e1 : Cert.KernelIdeal.RegionValue5.hArr (V11 m ρ) c = (feat5 (m ((c : Thread nD τ).loc main_arg1)) (m ((c : Thread nD τ).loc main_arg2)) (m ((c : Thread nD τ).loc main_arg8)) (m ((c : Thread nD τ).loc main_arg9)) (m ((c : Thread nD τ).loc main_arg10))) := (keep_V11_main_v93 m ρ c).trans hh
  have e2 : Cert.KernelIdeal.RegionValue5.wrelArr (V11 m ρ) c = wslice5 (m ((c : Thread nD τ).loc main_arg8)) :=
    (entry5_wrel (W10 m ρ c)).trans (congrArg wslice5 (keep_W10_main_arg8 m ρ c))
  have e3 : Cert.KernelIdeal.RegionValue5.wrootArr (V11 m ρ) c = wslice5 (m ((c : Thread nD τ).loc main_arg9)) :=
    (entry5_wroot (W10 m ρ c)).trans (congrArg wslice5 (keep_W10_main_arg9 m ρ c))
  have e4 : Cert.KernelIdeal.RegionValue5.biasArr (V11 m ρ) c = shapeCast S1x128 (bslice5 (m ((c : Thread nD τ).loc main_arg10))) Facts₀.shapeCasts_S128_S1x128 :=
    (entry5_bias (W10 m ρ c)).trans (congrArg (fun b => shapeCast S1x128 (bslice5 b) Facts₀.shapeCasts_S128_S1x128) (keep_W10_main_arg10 m ρ c))
  refine (W12_arr m ρ c 5).trans ((Cert.KernelIdeal.RegionValue5.out_array (V11 m ρ) c).trans ?_)
  rw [e0, e1, e2, e3, e4]
  exact Cert.ReferenceIdeal.LayerValue.combine_eq_layer _ _ _ _ _ _

/-- After region 6 its output array holds the features after 7 layers. -/
theorem feat_after7 (c : Dev nD) : W14 m ρ c (Proc.devRef .tc main_v129) = feat7 (m ((c : Thread nD τ).loc main_arg1)) (m ((c : Thread nD τ).loc main_arg2)) (m ((c : Thread nD τ).loc main_arg8)) (m ((c : Thread nD τ).loc main_arg9)) (m ((c : Thread nD τ).loc main_arg10)) := by
  have hh : W12 m ρ c (Proc.devRef .tc main_v111) = (feat6 (m ((c : Thread nD τ).loc main_arg1)) (m ((c : Thread nD τ).loc main_arg2)) (m ((c : Thread nD τ).loc main_arg8)) (m ((c : Thread nD τ).loc main_arg9)) (m ((c : Thread nD τ).loc main_arg10))) := feat_after6 m ρ c
  have e0 : Cert.KernelIdeal.RegionValue6.aggArr (V13 m ρ) c = agg (feat6 (m ((c : Thread nD τ).loc main_arg1)) (m ((c : Thread nD τ).loc main_arg2)) (m ((c : Thread nD τ).loc main_arg8)) (m ((c : Thread nD τ).loc main_arg9)) (m ((c : Thread nD τ).loc main_arg10))) (srcIdx (m ((c : Thread nD τ).loc main_arg2))) (dstIdx (m ((c : Thread nD τ).loc main_arg2))) := by
    refine (entry6_agg (W12 m ρ c)).trans ?_
    rw [hh, keep_W12_main_v1 m ρ c, keep_W12_main_v3 m ρ c]
    exact congrArg₂ (agg _) (entry0_src (W0 m ρ c)) (entry0_dst (W0 m ρ c))
  have e1 : Cert.KernelIdeal.RegionValue6.hArr (V13 m ρ) c = (feat6 (m ((c : Thread nD τ).loc main_arg1)) (m ((c : Thread nD τ).loc main_arg2)) (m ((c : Thread nD τ).loc main_arg8)) (m ((c : Thread nD τ).loc main_arg9)) (m ((c : Thread nD τ).loc main_arg10))) := (keep_V13_main_v111 m ρ c).trans hh
  have e2 : Cert.KernelIdeal.RegionValue6.wrelArr (V13 m ρ) c = wslice6 (m ((c : Thread nD τ).loc main_arg8)) :=
    (entry6_wrel (W12 m ρ c)).trans (congrArg wslice6 (keep_W12_main_arg8 m ρ c))
  have e3 : Cert.KernelIdeal.RegionValue6.wrootArr (V13 m ρ) c = wslice6 (m ((c : Thread nD τ).loc main_arg9)) :=
    (entry6_wroot (W12 m ρ c)).trans (congrArg wslice6 (keep_W12_main_arg9 m ρ c))
  have e4 : Cert.KernelIdeal.RegionValue6.biasArr (V13 m ρ) c = shapeCast S1x128 (bslice6 (m ((c : Thread nD τ).loc main_arg10))) Facts₀.shapeCasts_S128_S1x128 :=
    (entry6_bias (W12 m ρ c)).trans (congrArg (fun b => shapeCast S1x128 (bslice6 b) Facts₀.shapeCasts_S128_S1x128) (keep_W12_main_arg10 m ρ c))
  refine (W14_arr m ρ c 5).trans ((Cert.KernelIdeal.RegionValue6.out_array (V13 m ρ) c).trans ?_)
  rw [e0, e1, e2, e3, e4]
  exact Cert.ReferenceIdeal.LayerValue.combine_eq_layer _ _ _ _ _ _

/-- After the pooling region its output array holds the per-graph sums of the features after seven layers. -/
theorem sums_after (c : Dev nD) : W16 m ρ c (Proc.devRef .tc main_v137) = sums (feat7 (m ((c : Thread nD τ).loc main_arg1)) (m ((c : Thread nD τ).loc main_arg2)) (m ((c : Thread nD τ).loc main_arg8)) (m ((c : Thread nD τ).loc main_arg9)) (m ((c : Thread nD τ).loc main_arg10))) (m ((c : Thread nD τ).loc main_arg3)) := by
  have e0 : Cert.KernelIdeal.RegionValue7.memberArr (V15 m ρ) c = member (m ((c : Thread nD τ).loc main_arg3)) :=
    (entry7_member (W14 m ρ c)).trans (congrArg member (keep_W14_main_arg3 m ρ c))
  have e1 : Cert.KernelIdeal.RegionValue7.hArr (V15 m ρ) c = feat7 (m ((c : Thread nD τ).loc main_arg1)) (m ((c : Thread nD τ).loc main_arg2)) (m ((c : Thread nD τ).loc main_arg8)) (m ((c : Thread nD τ).loc main_arg9)) (m ((c : Thread nD τ).loc main_arg10)) :=
    (keep_V15_main_v129 m ρ c).trans (feat_after7 m ρ c)
  refine (W16_arr m ρ c 2).trans ((Cert.KernelIdeal.RegionValue7.out_array (V15 m ρ) c).trans ?_)
  rw [e0, e1]
  exact Cert.PoolValue.pool_member_eq_sums _ _

/-- The result buffer after the whole fold holds the shared network of the arguments. -/
theorem result_eq (c : Dev nD) : W19 m ρ c (Proc.devRef .tc main_v163)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have hm : W16 m ρ c (Proc.devRef .tc main_v136) = member (m ((c : Thread nD τ).loc main_arg3)) :=
    (keep_W16_main_v136 m ρ c).trans ((entry7_member (W14 m ρ c)).trans (congrArg member (keep_W14_main_arg3 m ρ c)))
  refine (entry8_result (W16 m ρ c)).trans ?_
  rw [sums_after m ρ c, hm, keep_W16_main_arg0 m ρ c, keep_W16_main_arg4 m ρ c, keep_W16_main_arg5 m ρ c, keep_W16_main_arg6 m ρ c, keep_W16_main_arg7 m ρ c, keep_W16_main_arg11 m ρ c, keep_W16_main_arg12 m ρ c, keep_W16_main_arg13 m ρ c, keep_W16_main_arg14 m ρ c,
    Cert.PoolValue.colSums_member_eq_counts]
  rfl

end Cert.KernelIdeal.Gen

end
-- ==== Proof.REntry.lean ====
/-
  What each list of the reference program's operations leaves in the buffers later lists read, from ANY contents V
  of the buffers before it, in the shared spelling of the host-side pieces: the two rows of the edge list, a layer's
  output from the features before it, and, for the last two lists together, the result from the features after
  seven layers.
-/
import proofs.«424942_j10471130267878_1_alg».proof.Proof.RefRun
import proofs.«424942_j10471130267878_1_alg».proof.Proof.HostNet
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.RefRun

open Cert.ReferenceIdeal Cert.ReferenceIdeal.Gen Cert.ReferenceIdeal.HostTerms

variable {F : FTy → Type} [FloatOps F]
variable (V : Valuation τ sig (Elt F))

set_option maxHeartbeats 4000000 in
theorem entryR0_src : after rops0 V (Proc.devRef .tc main_v1) = srcIdx (V (Proc.devRef .tc main_arg2)) := by
  after_results_simp
  rfl
set_option maxHeartbeats 4000000 in
theorem entryR0_dst : after rops0 V (Proc.devRef .tc main_v3) = dstIdx (V (Proc.devRef .tc main_arg2)) := by
  after_results_simp
  rfl
set_option maxHeartbeats 4000000 in
theorem entryR0_out : after rops0 V (Proc.devRef .tc main_v26) = layerOut0 (V (Proc.devRef .tc main_arg1)) (V (Proc.devRef .tc main_arg2)) (V (Proc.devRef .tc main_arg8)) (V (Proc.devRef .tc main_arg9)) (V (Proc.devRef .tc main_arg10)) := by
  after_results_simp
  rfl
set_option maxHeartbeats 4000000 in
theorem entryR1_out : after rops1 V (Proc.devRef .tc main_v49)
    = layer (agg (V (Proc.devRef .tc main_v26)) (V (Proc.devRef .tc main_v1)) (V (Proc.devRef .tc main_v3))) (V (Proc.devRef .tc main_v26)) (wslice1 (V (Proc.devRef .tc main_arg8))) (wslice1 (V (Proc.devRef .tc main_arg9))) (bslice1 (V (Proc.devRef .tc main_arg10))) := by
  after_results_simp
  rfl
set_option maxHeartbeats 4000000 in
theorem entryR2_out : after rops2 V (Proc.devRef .tc main_v72)
    = layer (agg (V (Proc.devRef .tc main_v49)) (V (Proc.devRef .tc main_v1)) (V (Proc.devRef .tc main_v3))) (V (Proc.devRef .tc main_v49)) (wslice2 (V (Proc.devRef .tc main_arg8))) (wslice2 (V (Proc.devRef .tc main_arg9))) (bslice2 (V (Proc.devRef .tc main_arg10))) := by
  after_results_simp
  rfl
set_option maxHeartbeats 4000000 in
theorem entryR3_out : after rops3 V (Proc.devRef .tc main_v95)
    = layer (agg (V (Proc.devRef .tc main_v72)) (V (Proc.devRef .tc main_v1)) (V (Proc.devRef .tc main_v3))) (V (Proc.devRef .tc main_v72)) (wslice3 (V (Proc.devRef .tc main_arg8))) (wslice3 (V (Proc.devRef .tc main_arg9))) (bslice3 (V (Proc.devRef .tc main_arg10))) := by
  after_results_simp
  rfl
set_option maxHeartbeats 4000000 in
theorem entryR4_out : after rops4 V (Proc.devRef .tc main_v118)
    = layer (agg (V (Proc.devRef .tc main_v95)) (V (Proc.devRef .tc main_v1)) (V (Proc.devRef .tc main_v3))) (V (Proc.devRef .tc main_v95)) (wslice4 (V (Proc.devRef .tc main_arg8))) (wslice4 (V (Proc.devRef .tc main_arg9))) (bslice4 (V (Proc.devRef .tc main_arg10))) := by
  after_results_simp
  rfl
set_option maxHeartbeats 4000000 in
theorem entryR5_out : after rops5 V (Proc.devRef .tc main_v141)
    = layer (agg (V (Proc.devRef .tc main_v118)) (V (Proc.devRef .tc main_v1)) (V (Proc.devRef .tc main_v3))) (V (Proc.devRef .tc main_v118)) (wslice5 (V (Proc.devRef .tc main_arg8))) (wslice5 (V (Proc.devRef .tc main_arg9))) (bslice5 (V (Proc.devRef .tc main_arg10))) := by
  after_results_simp
  rfl
set_option maxHeartbeats 4000000 in
theorem entryR6_out : after rops6 V (Proc.devRef .tc main_v164)
    = layer (agg (V (Proc.devRef .tc main_v141)) (V (Proc.devRef .tc main_v1)) (V (Proc.devRef .tc main_v3))) (V (Proc.devRef .tc main_v141)) (wslice6 (V (Proc.devRef .tc main_arg8))) (wslice6 (V (Proc.devRef .tc main_arg9))) (bslice6 (V (Proc.devRef .tc main_arg10))) := by
  after_results_simp
  rfl
set_option maxHeartbeats 4000000 in
theorem entryR7_result : after rops8 (after rops7 V) (Proc.devRef .tc main_v196)
    = tail (sums (V (Proc.devRef .tc main_v164)) (V (Proc.devRef .tc main_arg3))) (counts (V (Proc.devRef .tc main_arg3))) (V (Proc.devRef .tc main_arg0)) (V (Proc.devRef .tc main_arg4)) (V (Proc.devRef .tc main_arg5)) (V (Proc.devRef .tc main_arg6))
        (V (Proc.devRef .tc main_arg7)) (V (Proc.devRef .tc main_arg11)) (V (Proc.devRef .tc main_arg12)) (V (Proc.devRef .tc main_arg13)) (V (Proc.devRef .tc main_arg14)) := by
  after_results_simp
  rfl

end Cert.ReferenceIdeal.RefRun

end
-- ==== Proof.RNet.lean ====
/-
  The reference program's result as the shared network of its arguments: the fold of its operation lists read list by
  list. A buffer no later list writes (the edge list's rows once cut out, the arguments) keeps its contents; each list's
  output is the layer's dense step of the features so far; the last two lists apply the sums, the counts and the tail.
-/
import proofs.«424942_j10471130267878_1_alg».proof.Proof.RefRun
import proofs.«424942_j10471130267878_1_alg».proof.Proof.HostNet
import proofs.«424942_j10471130267878_1_alg».proof.Proof.REntry
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.RefRun

open Cert.ReferenceIdeal Cert.ReferenceIdeal.Gen Cert.ReferenceIdeal.HostTerms

variable {F : FTy → Type} [FloatOps F]
variable (V : Valuation τ sig (Elt F))

theorem keepR1_main_v1 : (after rops0 V) (Proc.devRef .tc main_v1) = srcIdx (V (Proc.devRef .tc main_arg2)) := entryR0_src V
theorem keepR2_main_v1 : (after rops1 (after rops0 V)) (Proc.devRef .tc main_v1) = srcIdx (V (Proc.devRef .tc main_arg2)) :=
  (after_of_writes_sub rops1 _ rops1_writes (by decide)).trans (keepR1_main_v1 V)
theorem keepR3_main_v1 : (after rops2 (after rops1 (after rops0 V))) (Proc.devRef .tc main_v1) = srcIdx (V (Proc.devRef .tc main_arg2)) :=
  (after_of_writes_sub rops2 _ rops2_writes (by decide)).trans (keepR2_main_v1 V)
theorem keepR4_main_v1 : (after rops3 (after rops2 (after rops1 (after rops0 V)))) (Proc.devRef .tc main_v1) = srcIdx (V (Proc.devRef .tc main_arg2)) :=
  (after_of_writes_sub rops3 _ rops3_writes (by decide)).trans (keepR3_main_v1 V)
theorem keepR5_main_v1 : (after rops4 (after rops3 (after rops2 (after rops1 (after rops0 V))))) (Proc.devRef .tc main_v1) = srcIdx (V (Proc.devRef .tc main_arg2)) :=
  (after_of_writes_sub rops4 _ rops4_writes (by decide)).trans (keepR4_main_v1 V)
theorem keepR6_main_v1 : (after rops5 (after rops4 (after rops3 (after rops2 (after rops1 (after rops0 V)))))) (Proc.devRef .tc main_v1) = srcIdx (V (Proc.devRef .tc main_arg2)) :=
  (after_of_writes_sub rops5 _ rops5_writes (by decide)).trans (keepR5_main_v1 V)
theorem keepR1_main_v3 : (after rops0 V) (Proc.devRef .tc main_v3) = dstIdx (V (Proc.devRef .tc main_arg2)) := entryR0_dst V
theorem keepR2_main_v3 : (after rops1 (after rops0 V)) (Proc.devRef .tc main_v3) = dstIdx (V (Proc.devRef .tc main_arg2)) :=
  (after_of_writes_sub rops1 _ rops1_writes (by decide)).trans (keepR1_main_v3 V)
theorem keepR3_main_v3 : (after rops2 (after rops1 (after rops0 V))) (Proc.devRef .tc main_v3) = dstIdx (V (Proc.devRef .tc main_arg2)) :=
  (after_of_writes_sub rops2 _ rops2_writes (by decide)).trans (keepR2_main_v3 V)
theorem keepR4_main_v3 : (after rops3 (after rops2 (after rops1 (after rops0 V)))) (Proc.devRef .tc main_v3) = dstIdx (V (Proc.devRef .tc main_arg2)) :=
  (after_of_writes_sub rops3 _ rops3_writes (by decide)).trans (keepR3_main_v3 V)
theorem keepR5_main_v3 : (after rops4 (after rops3 (after rops2 (after rops1 (after rops0 V))))) (Proc.devRef .tc main_v3) = dstIdx (V (Proc.devRef .tc main_arg2)) :=
  (after_of_writes_sub rops4 _ rops4_writes (by decide)).trans (keepR4_main_v3 V)
theorem keepR6_main_v3 : (after rops5 (after rops4 (after rops3 (after rops2 (after rops1 (after rops0 V)))))) (Proc.devRef .tc main_v3) = dstIdx (V (Proc.devRef .tc main_arg2)) :=
  (after_of_writes_sub rops5 _ rops5_writes (by decide)).trans (keepR5_main_v3 V)
theorem keepR1_main_arg8 : (after rops0 V) (Proc.devRef .tc main_arg8) = V (Proc.devRef .tc main_arg8) := (after_of_writes_sub rops0 _ rops0_writes (by decide))
theorem keepR2_main_arg8 : (after rops1 (after rops0 V)) (Proc.devRef .tc main_arg8) = V (Proc.devRef .tc main_arg8) :=
  (after_of_writes_sub rops1 _ rops1_writes (by decide)).trans (keepR1_main_arg8 V)
theorem keepR3_main_arg8 : (after rops2 (after rops1 (after rops0 V))) (Proc.devRef .tc main_arg8) = V (Proc.devRef .tc main_arg8) :=
  (after_of_writes_sub rops2 _ rops2_writes (by decide)).trans (keepR2_main_arg8 V)
theorem keepR4_main_arg8 : (after rops3 (after rops2 (after rops1 (after rops0 V)))) (Proc.devRef .tc main_arg8) = V (Proc.devRef .tc main_arg8) :=
  (after_of_writes_sub rops3 _ rops3_writes (by decide)).trans (keepR3_main_arg8 V)
theorem keepR5_main_arg8 : (after rops4 (after rops3 (after rops2 (after rops1 (after rops0 V))))) (Proc.devRef .tc main_arg8) = V (Proc.devRef .tc main_arg8) :=
  (after_of_writes_sub rops4 _ rops4_writes (by decide)).trans (keepR4_main_arg8 V)
theorem keepR6_main_arg8 : (after rops5 (after rops4 (after rops3 (after rops2 (after rops1 (after rops0 V)))))) (Proc.devRef .tc main_arg8) = V (Proc.devRef .tc main_arg8) :=
  (after_of_writes_sub rops5 _ rops5_writes (by decide)).trans (keepR5_main_arg8 V)
theorem keepR7_main_arg8 : (after rops6 (after rops5 (after rops4 (after rops3 (after rops2 (after rops1 (after rops0 V))))))) (Proc.devRef .tc main_arg8) = V (Proc.devRef .tc main_arg8) :=
  (after_of_writes_sub rops6 _ rops6_writes (by decide)).trans (keepR6_main_arg8 V)
theorem keepR1_main_arg9 : (after rops0 V) (Proc.devRef .tc main_arg9) = V (Proc.devRef .tc main_arg9) := (after_of_writes_sub rops0 _ rops0_writes (by decide))
theorem keepR2_main_arg9 : (after rops1 (after rops0 V)) (Proc.devRef .tc main_arg9) = V (Proc.devRef .tc main_arg9) :=
  (after_of_writes_sub rops1 _ rops1_writes (by decide)).trans (keepR1_main_arg9 V)
theorem keepR3_main_arg9 : (after rops2 (after rops1 (after rops0 V))) (Proc.devRef .tc main_arg9) = V (Proc.devRef .tc main_arg9) :=
  (after_of_writes_sub rops2 _ rops2_writes (by decide)).trans (keepR2_main_arg9 V)
theorem keepR4_main_arg9 : (after rops3 (after rops2 (after rops1 (after rops0 V)))) (Proc.devRef .tc main_arg9) = V (Proc.devRef .tc main_arg9) :=
  (after_of_writes_sub rops3 _ rops3_writes (by decide)).trans (keepR3_main_arg9 V)
theorem keepR5_main_arg9 : (after rops4 (after rops3 (after rops2 (after rops1 (after rops0 V))))) (Proc.devRef .tc main_arg9) = V (Proc.devRef .tc main_arg9) :=
  (after_of_writes_sub rops4 _ rops4_writes (by decide)).trans (keepR4_main_arg9 V)
theorem keepR6_main_arg9 : (after rops5 (after rops4 (after rops3 (after rops2 (after rops1 (after rops0 V)))))) (Proc.devRef .tc main_arg9) = V (Proc.devRef .tc main_arg9) :=
  (after_of_writes_sub rops5 _ rops5_writes (by decide)).trans (keepR5_main_arg9 V)
theorem keepR7_main_arg9 : (after rops6 (after rops5 (after rops4 (after rops3 (after rops2 (after rops1 (after rops0 V))))))) (Proc.devRef .tc main_arg9) = V (Proc.devRef .tc main_arg9) :=
  (after_of_writes_sub rops6 _ rops6_writes (by decide)).trans (keepR6_main_arg9 V)
theorem keepR1_main_arg10 : (after rops0 V) (Proc.devRef .tc main_arg10) = V (Proc.devRef .tc main_arg10) := (after_of_writes_sub rops0 _ rops0_writes (by decide))
theorem keepR2_main_arg10 : (after rops1 (after rops0 V)) (Proc.devRef .tc main_arg10) = V (Proc.devRef .tc main_arg10) :=
  (after_of_writes_sub rops1 _ rops1_writes (by decide)).trans (keepR1_main_arg10 V)
theorem keepR3_main_arg10 : (after rops2 (after rops1 (after rops0 V))) (Proc.devRef .tc main_arg10) = V (Proc.devRef .tc main_arg10) :=
  (after_of_writes_sub rops2 _ rops2_writes (by decide)).trans (keepR2_main_arg10 V)
theorem keepR4_main_arg10 : (after rops3 (after rops2 (after rops1 (after rops0 V)))) (Proc.devRef .tc main_arg10) = V (Proc.devRef .tc main_arg10) :=
  (after_of_writes_sub rops3 _ rops3_writes (by decide)).trans (keepR3_main_arg10 V)
theorem keepR5_main_arg10 : (after rops4 (after rops3 (after rops2 (after rops1 (after rops0 V))))) (Proc.devRef .tc main_arg10) = V (Proc.devRef .tc main_arg10) :=
  (after_of_writes_sub rops4 _ rops4_writes (by decide)).trans (keepR4_main_arg10 V)
theorem keepR6_main_arg10 : (after rops5 (after rops4 (after rops3 (after rops2 (after rops1 (after rops0 V)))))) (Proc.devRef .tc main_arg10) = V (Proc.devRef .tc main_arg10) :=
  (after_of_writes_sub rops5 _ rops5_writes (by decide)).trans (keepR5_main_arg10 V)
theorem keepR7_main_arg10 : (after rops6 (after rops5 (after rops4 (after rops3 (after rops2 (after rops1 (after rops0 V))))))) (Proc.devRef .tc main_arg10) = V (Proc.devRef .tc main_arg10) :=
  (after_of_writes_sub rops6 _ rops6_writes (by decide)).trans (keepR6_main_arg10 V)
theorem keepR1_main_arg3 : (after rops0 V) (Proc.devRef .tc main_arg3) = V (Proc.devRef .tc main_arg3) := (after_of_writes_sub rops0 _ rops0_writes (by decide))
theorem keepR2_main_arg3 : (after rops1 (after rops0 V)) (Proc.devRef .tc main_arg3) = V (Proc.devRef .tc main_arg3) :=
  (after_of_writes_sub rops1 _ rops1_writes (by decide)).trans (keepR1_main_arg3 V)
theorem keepR3_main_arg3 : (after rops2 (after rops1 (after rops0 V))) (Proc.devRef .tc main_arg3) = V (Proc.devRef .tc main_arg3) :=
  (after_of_writes_sub rops2 _ rops2_writes (by decide)).trans (keepR2_main_arg3 V)
theorem keepR4_main_arg3 : (after rops3 (after rops2 (after rops1 (after rops0 V)))) (Proc.devRef .tc main_arg3) = V (Proc.devRef .tc main_arg3) :=
  (after_of_writes_sub rops3 _ rops3_writes (by decide)).trans (keepR3_main_arg3 V)
theorem keepR5_main_arg3 : (after rops4 (after rops3 (after rops2 (after rops1 (after rops0 V))))) (Proc.devRef .tc main_arg3) = V (Proc.devRef .tc main_arg3) :=
  (after_of_writes_sub rops4 _ rops4_writes (by decide)).trans (keepR4_main_arg3 V)
theorem keepR6_main_arg3 : (after rops5 (after rops4 (after rops3 (after rops2 (after rops1 (after rops0 V)))))) (Proc.devRef .tc main_arg3) = V (Proc.devRef .tc main_arg3) :=
  (after_of_writes_sub rops5 _ rops5_writes (by decide)).trans (keepR5_main_arg3 V)
theorem keepR7_main_arg3 : (after rops6 (after rops5 (after rops4 (after rops3 (after rops2 (after rops1 (after rops0 V))))))) (Proc.devRef .tc main_arg3) = V (Proc.devRef .tc main_arg3) :=
  (after_of_writes_sub rops6 _ rops6_writes (by decide)).trans (keepR6_main_arg3 V)
theorem keepR1_main_arg0 : (after rops0 V) (Proc.devRef .tc main_arg0) = V (Proc.devRef .tc main_arg0) := (after_of_writes_sub rops0 _ rops0_writes (by decide))
theorem keepR2_main_arg0 : (after rops1 (after rops0 V)) (Proc.devRef .tc main_arg0) = V (Proc.devRef .tc main_arg0) :=
  (after_of_writes_sub rops1 _ rops1_writes (by decide)).trans (keepR1_main_arg0 V)
theorem keepR3_main_arg0 : (after rops2 (after rops1 (after rops0 V))) (Proc.devRef .tc main_arg0) = V (Proc.devRef .tc main_arg0) :=
  (after_of_writes_sub rops2 _ rops2_writes (by decide)).trans (keepR2_main_arg0 V)
theorem keepR4_main_arg0 : (after rops3 (after rops2 (after rops1 (after rops0 V)))) (Proc.devRef .tc main_arg0) = V (Proc.devRef .tc main_arg0) :=
  (after_of_writes_sub rops3 _ rops3_writes (by decide)).trans (keepR3_main_arg0 V)
theorem keepR5_main_arg0 : (after rops4 (after rops3 (after rops2 (after rops1 (after rops0 V))))) (Proc.devRef .tc main_arg0) = V (Proc.devRef .tc main_arg0) :=
  (after_of_writes_sub rops4 _ rops4_writes (by decide)).trans (keepR4_main_arg0 V)
theorem keepR6_main_arg0 : (after rops5 (after rops4 (after rops3 (after rops2 (after rops1 (after rops0 V)))))) (Proc.devRef .tc main_arg0) = V (Proc.devRef .tc main_arg0) :=
  (after_of_writes_sub rops5 _ rops5_writes (by decide)).trans (keepR5_main_arg0 V)
theorem keepR7_main_arg0 : (after rops6 (after rops5 (after rops4 (after rops3 (after rops2 (after rops1 (after rops0 V))))))) (Proc.devRef .tc main_arg0) = V (Proc.devRef .tc main_arg0) :=
  (after_of_writes_sub rops6 _ rops6_writes (by decide)).trans (keepR6_main_arg0 V)
theorem keepR1_main_arg4 : (after rops0 V) (Proc.devRef .tc main_arg4) = V (Proc.devRef .tc main_arg4) := (after_of_writes_sub rops0 _ rops0_writes (by decide))
theorem keepR2_main_arg4 : (after rops1 (after rops0 V)) (Proc.devRef .tc main_arg4) = V (Proc.devRef .tc main_arg4) :=
  (after_of_writes_sub rops1 _ rops1_writes (by decide)).trans (keepR1_main_arg4 V)
theorem keepR3_main_arg4 : (after rops2 (after rops1 (after rops0 V))) (Proc.devRef .tc main_arg4) = V (Proc.devRef .tc main_arg4) :=
  (after_of_writes_sub rops2 _ rops2_writes (by decide)).trans (keepR2_main_arg4 V)
theorem keepR4_main_arg4 : (after rops3 (after rops2 (after rops1 (after rops0 V)))) (Proc.devRef .tc main_arg4) = V (Proc.devRef .tc main_arg4) :=
  (after_of_writes_sub rops3 _ rops3_writes (by decide)).trans (keepR3_main_arg4 V)
theorem keepR5_main_arg4 : (after rops4 (after rops3 (after rops2 (after rops1 (after rops0 V))))) (Proc.devRef .tc main_arg4) = V (Proc.devRef .tc main_arg4) :=
  (after_of_writes_sub rops4 _ rops4_writes (by decide)).trans (keepR4_main_arg4 V)
theorem keepR6_main_arg4 : (after rops5 (after rops4 (after rops3 (after rops2 (after rops1 (after rops0 V)))))) (Proc.devRef .tc main_arg4) = V (Proc.devRef .tc main_arg4) :=
  (after_of_writes_sub rops5 _ rops5_writes (by decide)).trans (keepR5_main_arg4 V)
theorem keepR7_main_arg4 : (after rops6 (after rops5 (after rops4 (after rops3 (after rops2 (after rops1 (after rops0 V))))))) (Proc.devRef .tc main_arg4) = V (Proc.devRef .tc main_arg4) :=
  (after_of_writes_sub rops6 _ rops6_writes (by decide)).trans (keepR6_main_arg4 V)
theorem keepR1_main_arg5 : (after rops0 V) (Proc.devRef .tc main_arg5) = V (Proc.devRef .tc main_arg5) := (after_of_writes_sub rops0 _ rops0_writes (by decide))
theorem keepR2_main_arg5 : (after rops1 (after rops0 V)) (Proc.devRef .tc main_arg5) = V (Proc.devRef .tc main_arg5) :=
  (after_of_writes_sub rops1 _ rops1_writes (by decide)).trans (keepR1_main_arg5 V)
theorem keepR3_main_arg5 : (after rops2 (after rops1 (after rops0 V))) (Proc.devRef .tc main_arg5) = V (Proc.devRef .tc main_arg5) :=
  (after_of_writes_sub rops2 _ rops2_writes (by decide)).trans (keepR2_main_arg5 V)
theorem keepR4_main_arg5 : (after rops3 (after rops2 (after rops1 (after rops0 V)))) (Proc.devRef .tc main_arg5) = V (Proc.devRef .tc main_arg5) :=
  (after_of_writes_sub rops3 _ rops3_writes (by decide)).trans (keepR3_main_arg5 V)
theorem keepR5_main_arg5 : (after rops4 (after rops3 (after rops2 (after rops1 (after rops0 V))))) (Proc.devRef .tc main_arg5) = V (Proc.devRef .tc main_arg5) :=
  (after_of_writes_sub rops4 _ rops4_writes (by decide)).trans (keepR4_main_arg5 V)
theorem keepR6_main_arg5 : (after rops5 (after rops4 (after rops3 (after rops2 (after rops1 (after rops0 V)))))) (Proc.devRef .tc main_arg5) = V (Proc.devRef .tc main_arg5) :=
  (after_of_writes_sub rops5 _ rops5_writes (by decide)).trans (keepR5_main_arg5 V)
theorem keepR7_main_arg5 : (after rops6 (after rops5 (after rops4 (after rops3 (after rops2 (after rops1 (after rops0 V))))))) (Proc.devRef .tc main_arg5) = V (Proc.devRef .tc main_arg5) :=
  (after_of_writes_sub rops6 _ rops6_writes (by decide)).trans (keepR6_main_arg5 V)
theorem keepR1_main_arg6 : (after rops0 V) (Proc.devRef .tc main_arg6) = V (Proc.devRef .tc main_arg6) := (after_of_writes_sub rops0 _ rops0_writes (by decide))
theorem keepR2_main_arg6 : (after rops1 (after rops0 V)) (Proc.devRef .tc main_arg6) = V (Proc.devRef .tc main_arg6) :=
  (after_of_writes_sub rops1 _ rops1_writes (by decide)).trans (keepR1_main_arg6 V)
theorem keepR3_main_arg6 : (after rops2 (after rops1 (after rops0 V))) (Proc.devRef .tc main_arg6) = V (Proc.devRef .tc main_arg6) :=
  (after_of_writes_sub rops2 _ rops2_writes (by decide)).trans (keepR2_main_arg6 V)
theorem keepR4_main_arg6 : (after rops3 (after rops2 (after rops1 (after rops0 V)))) (Proc.devRef .tc main_arg6) = V (Proc.devRef .tc main_arg6) :=
  (after_of_writes_sub rops3 _ rops3_writes (by decide)).trans (keepR3_main_arg6 V)
theorem keepR5_main_arg6 : (after rops4 (after rops3 (after rops2 (after rops1 (after rops0 V))))) (Proc.devRef .tc main_arg6) = V (Proc.devRef .tc main_arg6) :=
  (after_of_writes_sub rops4 _ rops4_writes (by decide)).trans (keepR4_main_arg6 V)
theorem keepR6_main_arg6 : (after rops5 (after rops4 (after rops3 (after rops2 (after rops1 (after rops0 V)))))) (Proc.devRef .tc main_arg6) = V (Proc.devRef .tc main_arg6) :=
  (after_of_writes_sub rops5 _ rops5_writes (by decide)).trans (keepR5_main_arg6 V)
theorem keepR7_main_arg6 : (after rops6 (after rops5 (after rops4 (after rops3 (after rops2 (after rops1 (after rops0 V))))))) (Proc.devRef .tc main_arg6) = V (Proc.devRef .tc main_arg6) :=
  (after_of_writes_sub rops6 _ rops6_writes (by decide)).trans (keepR6_main_arg6 V)
theorem keepR1_main_arg7 : (after rops0 V) (Proc.devRef .tc main_arg7) = V (Proc.devRef .tc main_arg7) := (after_of_writes_sub rops0 _ rops0_writes (by decide))
theorem keepR2_main_arg7 : (after rops1 (after rops0 V)) (Proc.devRef .tc main_arg7) = V (Proc.devRef .tc main_arg7) :=
  (after_of_writes_sub rops1 _ rops1_writes (by decide)).trans (keepR1_main_arg7 V)
theorem keepR3_main_arg7 : (after rops2 (after rops1 (after rops0 V))) (Proc.devRef .tc main_arg7) = V (Proc.devRef .tc main_arg7) :=
  (after_of_writes_sub rops2 _ rops2_writes (by decide)).trans (keepR2_main_arg7 V)
theorem keepR4_main_arg7 : (after rops3 (after rops2 (after rops1 (after rops0 V)))) (Proc.devRef .tc main_arg7) = V (Proc.devRef .tc main_arg7) :=
  (after_of_writes_sub rops3 _ rops3_writes (by decide)).trans (keepR3_main_arg7 V)
theorem keepR5_main_arg7 : (after rops4 (after rops3 (after rops2 (after rops1 (after rops0 V))))) (Proc.devRef .tc main_arg7) = V (Proc.devRef .tc main_arg7) :=
  (after_of_writes_sub rops4 _ rops4_writes (by decide)).trans (keepR4_main_arg7 V)
theorem keepR6_main_arg7 : (after rops5 (after rops4 (after rops3 (after rops2 (after rops1 (after rops0 V)))))) (Proc.devRef .tc main_arg7) = V (Proc.devRef .tc main_arg7) :=
  (after_of_writes_sub rops5 _ rops5_writes (by decide)).trans (keepR5_main_arg7 V)
theorem keepR7_main_arg7 : (after rops6 (after rops5 (after rops4 (after rops3 (after rops2 (after rops1 (after rops0 V))))))) (Proc.devRef .tc main_arg7) = V (Proc.devRef .tc main_arg7) :=
  (after_of_writes_sub rops6 _ rops6_writes (by decide)).trans (keepR6_main_arg7 V)
theorem keepR1_main_arg11 : (after rops0 V) (Proc.devRef .tc main_arg11) = V (Proc.devRef .tc main_arg11) := (after_of_writes_sub rops0 _ rops0_writes (by decide))
theorem keepR2_main_arg11 : (after rops1 (after rops0 V)) (Proc.devRef .tc main_arg11) = V (Proc.devRef .tc main_arg11) :=
  (after_of_writes_sub rops1 _ rops1_writes (by decide)).trans (keepR1_main_arg11 V)
theorem keepR3_main_arg11 : (after rops2 (after rops1 (after rops0 V))) (Proc.devRef .tc main_arg11) = V (Proc.devRef .tc main_arg11) :=
  (after_of_writes_sub rops2 _ rops2_writes (by decide)).trans (keepR2_main_arg11 V)
theorem keepR4_main_arg11 : (after rops3 (after rops2 (after rops1 (after rops0 V)))) (Proc.devRef .tc main_arg11) = V (Proc.devRef .tc main_arg11) :=
  (after_of_writes_sub rops3 _ rops3_writes (by decide)).trans (keepR3_main_arg11 V)
theorem keepR5_main_arg11 : (after rops4 (after rops3 (after rops2 (after rops1 (after rops0 V))))) (Proc.devRef .tc main_arg11) = V (Proc.devRef .tc main_arg11) :=
  (after_of_writes_sub rops4 _ rops4_writes (by decide)).trans (keepR4_main_arg11 V)
theorem keepR6_main_arg11 : (after rops5 (after rops4 (after rops3 (after rops2 (after rops1 (after rops0 V)))))) (Proc.devRef .tc main_arg11) = V (Proc.devRef .tc main_arg11) :=
  (after_of_writes_sub rops5 _ rops5_writes (by decide)).trans (keepR5_main_arg11 V)
theorem keepR7_main_arg11 : (after rops6 (after rops5 (after rops4 (after rops3 (after rops2 (after rops1 (after rops0 V))))))) (Proc.devRef .tc main_arg11) = V (Proc.devRef .tc main_arg11) :=
  (after_of_writes_sub rops6 _ rops6_writes (by decide)).trans (keepR6_main_arg11 V)
theorem keepR1_main_arg12 : (after rops0 V) (Proc.devRef .tc main_arg12) = V (Proc.devRef .tc main_arg12) := (after_of_writes_sub rops0 _ rops0_writes (by decide))
theorem keepR2_main_arg12 : (after rops1 (after rops0 V)) (Proc.devRef .tc main_arg12) = V (Proc.devRef .tc main_arg12) :=
  (after_of_writes_sub rops1 _ rops1_writes (by decide)).trans (keepR1_main_arg12 V)
theorem keepR3_main_arg12 : (after rops2 (after rops1 (after rops0 V))) (Proc.devRef .tc main_arg12) = V (Proc.devRef .tc main_arg12) :=
  (after_of_writes_sub rops2 _ rops2_writes (by decide)).trans (keepR2_main_arg12 V)
theorem keepR4_main_arg12 : (after rops3 (after rops2 (after rops1 (after rops0 V)))) (Proc.devRef .tc main_arg12) = V (Proc.devRef .tc main_arg12) :=
  (after_of_writes_sub rops3 _ rops3_writes (by decide)).trans (keepR3_main_arg12 V)
theorem keepR5_main_arg12 : (after rops4 (after rops3 (after rops2 (after rops1 (after rops0 V))))) (Proc.devRef .tc main_arg12) = V (Proc.devRef .tc main_arg12) :=
  (after_of_writes_sub rops4 _ rops4_writes (by decide)).trans (keepR4_main_arg12 V)
theorem keepR6_main_arg12 : (after rops5 (after rops4 (after rops3 (after rops2 (after rops1 (after rops0 V)))))) (Proc.devRef .tc main_arg12) = V (Proc.devRef .tc main_arg12) :=
  (after_of_writes_sub rops5 _ rops5_writes (by decide)).trans (keepR5_main_arg12 V)
theorem keepR7_main_arg12 : (after rops6 (after rops5 (after rops4 (after rops3 (after rops2 (after rops1 (after rops0 V))))))) (Proc.devRef .tc main_arg12) = V (Proc.devRef .tc main_arg12) :=
  (after_of_writes_sub rops6 _ rops6_writes (by decide)).trans (keepR6_main_arg12 V)
theorem keepR1_main_arg13 : (after rops0 V) (Proc.devRef .tc main_arg13) = V (Proc.devRef .tc main_arg13) := (after_of_writes_sub rops0 _ rops0_writes (by decide))
theorem keepR2_main_arg13 : (after rops1 (after rops0 V)) (Proc.devRef .tc main_arg13) = V (Proc.devRef .tc main_arg13) :=
  (after_of_writes_sub rops1 _ rops1_writes (by decide)).trans (keepR1_main_arg13 V)
theorem keepR3_main_arg13 : (after rops2 (after rops1 (after rops0 V))) (Proc.devRef .tc main_arg13) = V (Proc.devRef .tc main_arg13) :=
  (after_of_writes_sub rops2 _ rops2_writes (by decide)).trans (keepR2_main_arg13 V)
theorem keepR4_main_arg13 : (after rops3 (after rops2 (after rops1 (after rops0 V)))) (Proc.devRef .tc main_arg13) = V (Proc.devRef .tc main_arg13) :=
  (after_of_writes_sub rops3 _ rops3_writes (by decide)).trans (keepR3_main_arg13 V)
theorem keepR5_main_arg13 : (after rops4 (after rops3 (after rops2 (after rops1 (after rops0 V))))) (Proc.devRef .tc main_arg13) = V (Proc.devRef .tc main_arg13) :=
  (after_of_writes_sub rops4 _ rops4_writes (by decide)).trans (keepR4_main_arg13 V)
theorem keepR6_main_arg13 : (after rops5 (after rops4 (after rops3 (after rops2 (after rops1 (after rops0 V)))))) (Proc.devRef .tc main_arg13) = V (Proc.devRef .tc main_arg13) :=
  (after_of_writes_sub rops5 _ rops5_writes (by decide)).trans (keepR5_main_arg13 V)
theorem keepR7_main_arg13 : (after rops6 (after rops5 (after rops4 (after rops3 (after rops2 (after rops1 (after rops0 V))))))) (Proc.devRef .tc main_arg13) = V (Proc.devRef .tc main_arg13) :=
  (after_of_writes_sub rops6 _ rops6_writes (by decide)).trans (keepR6_main_arg13 V)
theorem keepR1_main_arg14 : (after rops0 V) (Proc.devRef .tc main_arg14) = V (Proc.devRef .tc main_arg14) := (after_of_writes_sub rops0 _ rops0_writes (by decide))
theorem keepR2_main_arg14 : (after rops1 (after rops0 V)) (Proc.devRef .tc main_arg14) = V (Proc.devRef .tc main_arg14) :=
  (after_of_writes_sub rops1 _ rops1_writes (by decide)).trans (keepR1_main_arg14 V)
theorem keepR3_main_arg14 : (after rops2 (after rops1 (after rops0 V))) (Proc.devRef .tc main_arg14) = V (Proc.devRef .tc main_arg14) :=
  (after_of_writes_sub rops2 _ rops2_writes (by decide)).trans (keepR2_main_arg14 V)
theorem keepR4_main_arg14 : (after rops3 (after rops2 (after rops1 (after rops0 V)))) (Proc.devRef .tc main_arg14) = V (Proc.devRef .tc main_arg14) :=
  (after_of_writes_sub rops3 _ rops3_writes (by decide)).trans (keepR3_main_arg14 V)
theorem keepR5_main_arg14 : (after rops4 (after rops3 (after rops2 (after rops1 (after rops0 V))))) (Proc.devRef .tc main_arg14) = V (Proc.devRef .tc main_arg14) :=
  (after_of_writes_sub rops4 _ rops4_writes (by decide)).trans (keepR4_main_arg14 V)
theorem keepR6_main_arg14 : (after rops5 (after rops4 (after rops3 (after rops2 (after rops1 (after rops0 V)))))) (Proc.devRef .tc main_arg14) = V (Proc.devRef .tc main_arg14) :=
  (after_of_writes_sub rops5 _ rops5_writes (by decide)).trans (keepR5_main_arg14 V)
theorem keepR7_main_arg14 : (after rops6 (after rops5 (after rops4 (after rops3 (after rops2 (after rops1 (after rops0 V))))))) (Proc.devRef .tc main_arg14) = V (Proc.devRef .tc main_arg14) :=
  (after_of_writes_sub rops6 _ rops6_writes (by decide)).trans (keepR6_main_arg14 V)

/-- After the first list the layer-0 output buffer holds the features after one layer. -/
theorem featR1 : (after rops0 V) (Proc.devRef .tc main_v26) = feat1 (V (Proc.devRef .tc main_arg1)) (V (Proc.devRef .tc main_arg2)) (V (Proc.devRef .tc main_arg8)) (V (Proc.devRef .tc main_arg9)) (V (Proc.devRef .tc main_arg10)) := entryR0_out V
/-- After list 1 the layer-1 output buffer holds the features after 2 layers. -/
theorem featR2 : (after rops1 (after rops0 V)) (Proc.devRef .tc main_v49) = feat2 (V (Proc.devRef .tc main_arg1)) (V (Proc.devRef .tc main_arg2)) (V (Proc.devRef .tc main_arg8)) (V (Proc.devRef .tc main_arg9)) (V (Proc.devRef .tc main_arg10)) := by
  refine (entryR1_out (after rops0 V)).trans ?_
  rw [featR1 V, keepR1_main_v1 V, keepR1_main_v3 V, keepR1_main_arg8 V, keepR1_main_arg9 V, keepR1_main_arg10 V]
  rfl
/-- After list 2 the layer-2 output buffer holds the features after 3 layers. -/
theorem featR3 : (after rops2 (after rops1 (after rops0 V))) (Proc.devRef .tc main_v72) = feat3 (V (Proc.devRef .tc main_arg1)) (V (Proc.devRef .tc main_arg2)) (V (Proc.devRef .tc main_arg8)) (V (Proc.devRef .tc main_arg9)) (V (Proc.devRef .tc main_arg10)) := by
  refine (entryR2_out (after rops1 (after rops0 V))).trans ?_
  rw [featR2 V, keepR2_main_v1 V, keepR2_main_v3 V, keepR2_main_arg8 V, keepR2_main_arg9 V, keepR2_main_arg10 V]
  rfl
/-- After list 3 the layer-3 output buffer holds the features after 4 layers. -/
theorem featR4 : (after rops3 (after rops2 (after rops1 (after rops0 V)))) (Proc.devRef .tc main_v95) = feat4 (V (Proc.devRef .tc main_arg1)) (V (Proc.devRef .tc main_arg2)) (V (Proc.devRef .tc main_arg8)) (V (Proc.devRef .tc main_arg9)) (V (Proc.devRef .tc main_arg10)) := by
  refine (entryR3_out (after rops2 (after rops1 (after rops0 V)))).trans ?_
  rw [featR3 V, keepR3_main_v1 V, keepR3_main_v3 V, keepR3_main_arg8 V, keepR3_main_arg9 V, keepR3_main_arg10 V]
  rfl
/-- After list 4 the layer-4 output buffer holds the features after 5 layers. -/
theorem featR5 : (after rops4 (after rops3 (after rops2 (after rops1 (after rops0 V))))) (Proc.devRef .tc main_v118) = feat5 (V (Proc.devRef .tc main_arg1)) (V (Proc.devRef .tc main_arg2)) (V (Proc.devRef .tc main_arg8)) (V (Proc.devRef .tc main_arg9)) (V (Proc.devRef .tc main_arg10)) := by
  refine (entryR4_out (after rops3 (after rops2 (after rops1 (after rops0 V))))).trans ?_
  rw [featR4 V, keepR4_main_v1 V, keepR4_main_v3 V, keepR4_main_arg8 V, keepR4_main_arg9 V, keepR4_main_arg10 V]
  rfl
/-- After list 5 the layer-5 output buffer holds the features after 6 layers. -/
theorem featR6 : (after rops5 (after rops4 (after rops3 (after rops2 (after rops1 (after rops0 V)))))) (Proc.devRef .tc main_v141) = feat6 (V (Proc.devRef .tc main_arg1)) (V (Proc.devRef .tc main_arg2)) (V (Proc.devRef .tc main_arg8)) (V (Proc.devRef .tc main_arg9)) (V (Proc.devRef .tc main_arg10)) := by
  refine (entryR5_out (after rops4 (after rops3 (after rops2 (after rops1 (after rops0 V)))))).trans ?_
  rw [featR5 V, keepR5_main_v1 V, keepR5_main_v3 V, keepR5_main_arg8 V, keepR5_main_arg9 V, keepR5_main_arg10 V]
  rfl
/-- After list 6 the layer-6 output buffer holds the features after 7 layers. -/
theorem featR7 : (after rops6 (after rops5 (after rops4 (after rops3 (after rops2 (after rops1 (after rops0 V))))))) (Proc.devRef .tc main_v164) = feat7 (V (Proc.devRef .tc main_arg1)) (V (Proc.devRef .tc main_arg2)) (V (Proc.devRef .tc main_arg8)) (V (Proc.devRef .tc main_arg9)) (V (Proc.devRef .tc main_arg10)) := by
  refine (entryR6_out (after rops5 (after rops4 (after rops3 (after rops2 (after rops1 (after rops0 V))))))).trans ?_
  rw [featR6 V, keepR6_main_v1 V, keepR6_main_v3 V, keepR6_main_arg8 V, keepR6_main_arg9 V, keepR6_main_arg10 V]
  rfl

/-- The result buffer after the whole fold holds the shared network of the arguments. -/
theorem result_eq : after (rops : List (HloOp τ sig (Elt F))) V (Proc.devRef .tc main_v196) = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  refine (congrFun (after_rops V) _).trans ((entryR7_result (after rops6 (after rops5 (after rops4 (after rops3 (after rops2 (after rops1 (after rops0 V)))))))).trans ?_)
  rw [featR7 V, keepR7_main_arg3 V, keepR7_main_arg0 V, keepR7_main_arg4 V, keepR7_main_arg5 V, keepR7_main_arg6 V, keepR7_main_arg7 V, keepR7_main_arg11 V, keepR7_main_arg12 V, keepR7_main_arg13 V, keepR7_main_arg14 V]
  rfl

end Cert.ReferenceIdeal.RefRun

end
-- ==== Proof.lean ====
/-
  The certificate: a seven-layer graph network with a pooled read-out, fused with a small dense network.

  Both idealized programs are shown to leave ONE function of the arguments in the result buffer (`network`,
  Proof/HostNet.lean), read over the extended reals:
  * the kernel program, region by region — a dense-step region's output array is `max (agg · W_rel + h · W_root + b) 0`
    of the arrays it read (Proof/KRegion0 … KRegion6), which equals the reference's spelling
    `max ((agg · W_rel + b) + h · W_root) 0` because addition of extended reals is commutative and associative
    (Proof/LayerValue.lean); the pooling region's output is the product of the membership matrix's transpose with the
    features (Proof/KRegion7.lean), which is the accumulating scatter of the feature rows along the graph ids, and the
    membership matrix's column sums are the accumulating scatter of ones (Proof/PoolValue.lean: an id outside
    `[0, 64)` matches no column and is dropped by the scatter); the host stretches between the regions apply the same
    gather, scatter, slices and final layers as the reference (Proof/KEntry.lean, Proof/KKeep.lean, Proof/KNet.lean);
  * the reference program, operation list by operation list (Proof/RefRun.lean, Proof/REntry.lean, Proof/RNet.lean).
  No law used needs finiteness, so the precondition is never opened. The three frames are the generated frames of the
  two kernel programs and the reference's run with its result dropped; the idealization pass rewrote nothing, so
  `preserves` is `True`.
-/
import proofs.«424942_j10471130267878_1_alg».proof.Defs
import proofs.«424942_j10471130267878_1_alg».proof.Proof.Gen.Kernel
import proofs.«424942_j10471130267878_1_alg».proof.Proof.Gen.Kernel.Skeleton
import proofs.«424942_j10471130267878_1_alg».proof.Proof.Gen.Kernel.Launch
import proofs.«424942_j10471130267878_1_alg».proof.Proof.Gen.Kernel.Points
import proofs.«424942_j10471130267878_1_alg».proof.Proof.Gen.Kernel.Frame
import proofs.«424942_j10471130267878_1_alg».proof.Proof.Gen.KernelIdeal
import proofs.«424942_j10471130267878_1_alg».proof.Proof.Gen.KernelIdeal.Skeleton
import proofs.«424942_j10471130267878_1_alg».proof.Proof.Gen.KernelIdeal.Launch
import proofs.«424942_j10471130267878_1_alg».proof.Proof.Gen.KernelIdeal.Points
import proofs.«424942_j10471130267878_1_alg».proof.Proof.Gen.KernelIdeal.Frame
import proofs.«424942_j10471130267878_1_alg».proof.Proof.Gen.ReferenceIdeal
import proofs.«424942_j10471130267878_1_alg».proof.Proof.Gen.Pre_finite_inputs
import proofs.«424942_j10471130267878_1_alg».proof.Proof.KernelIdealRun
import proofs.«424942_j10471130267878_1_alg».proof.Proof.KNet
import proofs.«424942_j10471130267878_1_alg».proof.Proof.RefRun
import proofs.«424942_j10471130267878_1_alg».proof.Proof.RNet
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped, each argument read back through the fold. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RefRun.kept_main_arg0 m c),
      (h c Cert.ReferenceIdeal.main_arg1).trans (Cert.ReferenceIdeal.RefRun.kept_main_arg1 m c),
      (h c Cert.ReferenceIdeal.main_arg2).trans (Cert.ReferenceIdeal.RefRun.kept_main_arg2 m c),
      (h c Cert.ReferenceIdeal.main_arg3).trans (Cert.ReferenceIdeal.RefRun.kept_main_arg3 m c),
      (h c Cert.ReferenceIdeal.main_arg4).trans (Cert.ReferenceIdeal.RefRun.kept_main_arg4 m c),
      (h c Cert.ReferenceIdeal.main_arg5).trans (Cert.ReferenceIdeal.RefRun.kept_main_arg5 m c),
      (h c Cert.ReferenceIdeal.main_arg6).trans (Cert.ReferenceIdeal.RefRun.kept_main_arg6 m c),
      (h c Cert.ReferenceIdeal.main_arg7).trans (Cert.ReferenceIdeal.RefRun.kept_main_arg7 m c),
      (h c Cert.ReferenceIdeal.main_arg8).trans (Cert.ReferenceIdeal.RefRun.kept_main_arg8 m c),
      (h c Cert.ReferenceIdeal.main_arg9).trans (Cert.ReferenceIdeal.RefRun.kept_main_arg9 m c),
      (h c Cert.ReferenceIdeal.main_arg10).trans (Cert.ReferenceIdeal.RefRun.kept_main_arg10 m c),
      (h c Cert.ReferenceIdeal.main_arg11).trans (Cert.ReferenceIdeal.RefRun.kept_main_arg11 m c),
      (h c Cert.ReferenceIdeal.main_arg12).trans (Cert.ReferenceIdeal.RefRun.kept_main_arg12 m c),
      (h c Cert.ReferenceIdeal.main_arg13).trans (Cert.ReferenceIdeal.RefRun.kept_main_arg13 m c),
      (h c Cert.ReferenceIdeal.main_arg14).trans (Cert.ReferenceIdeal.RefRun.kept_main_arg14 m c)⟩)
    (Cert.ReferenceIdeal.RefRun.run_fold (F := Ideal) m ρ)

theorem preserves : Cert.preserves_Kernel_KernelIdeal := trivial

set_option maxHeartbeats 4000000 in
/-- Both runs end with the shared network of their arguments in the result buffer, and the arguments agree. -/
theorem algebraic : Cert.algebraic_KernelIdeal_ReferenceIdeal := by
  intro m ρ m' ρ' _ hagree
  refine ⟨fun c => Cert.ReferenceIdeal.HostTerms.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Gen.result_eq m ρ c), (h c).2⟩)
      (Cert.KernelIdeal.Gen.run_named (F := Ideal) m ρ)
  · refine (θ_run Cert.ReferenceIdeal.defs _ _).mono
      (fun r h c => ⟨?_, (h c Cert.ReferenceIdeal.main_arg0).trans (Cert.ReferenceIdeal.RefRun.kept_main_arg0 m' c),
        (h c Cert.ReferenceIdeal.main_arg1).trans (Cert.ReferenceIdeal.RefRun.kept_main_arg1 m' c),
        (h c Cert.ReferenceIdeal.main_arg2).trans (Cert.ReferenceIdeal.RefRun.kept_main_arg2 m' c),
        (h c Cert.ReferenceIdeal.main_arg3).trans (Cert.ReferenceIdeal.RefRun.kept_main_arg3 m' c),
        (h c Cert.ReferenceIdeal.main_arg4).trans (Cert.ReferenceIdeal.RefRun.kept_main_arg4 m' c),
        (h c Cert.ReferenceIdeal.main_arg5).trans (Cert.ReferenceIdeal.RefRun.kept_main_arg5 m' c),
        (h c Cert.ReferenceIdeal.main_arg6).trans (Cert.ReferenceIdeal.RefRun.kept_main_arg6 m' c),
        (h c Cert.ReferenceIdeal.main_arg7).trans (Cert.ReferenceIdeal.RefRun.kept_main_arg7 m' c),
        (h c Cert.ReferenceIdeal.main_arg8).trans (Cert.ReferenceIdeal.RefRun.kept_main_arg8 m' c),
        (h c Cert.ReferenceIdeal.main_arg9).trans (Cert.ReferenceIdeal.RefRun.kept_main_arg9 m' c),
        (h c Cert.ReferenceIdeal.main_arg10).trans (Cert.ReferenceIdeal.RefRun.kept_main_arg10 m' c),
        (h c Cert.ReferenceIdeal.main_arg11).trans (Cert.ReferenceIdeal.RefRun.kept_main_arg11 m' c),
        (h c Cert.ReferenceIdeal.main_arg12).trans (Cert.ReferenceIdeal.RefRun.kept_main_arg12 m' c),
        (h c Cert.ReferenceIdeal.main_arg13).trans (Cert.ReferenceIdeal.RefRun.kept_main_arg13 m' c),
        (h c Cert.ReferenceIdeal.main_arg14).trans (Cert.ReferenceIdeal.RefRun.kept_main_arg14 m' c)⟩)
      (Cert.ReferenceIdeal.RefRun.run_fold (F := Ideal) m' ρ')
    refine (h c Cert.ReferenceIdeal.main_v196).trans ((Cert.ReferenceIdeal.RefRun.result_eq (StableHlo.launchContents m' c)).trans ?_)
    obtain ⟨e0, e1, e2, e3, e4, e5, e6, e7, e8, e9, e10, e11, e12, e13, e14⟩ := hagree c
    show Cert.ReferenceIdeal.HostTerms.network (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = _
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
